-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x128 : Shape := ⟨2, ![1024, 128]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  main_v18

def fn {F : FTy → Type} [FloatOps F] (main_arg0 : FVec F S8x2048x1024 .f32) (main_arg1 : FVec F S1024x128 .f32) (main_arg2 : FVec F S1024x128 .f32) (main_arg3 : FVec F S1024x128 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_v13 main_v16
-- ==== Kernel.lean ====
abbrev S8x2048x1024 : Shape := ⟨3, ![8, 2048, 1024]⟩
abbrev S1024x128 : Shape := ⟨2, ![1024, 128]⟩
abbrev S1024x384 : Shape := ⟨2, ![1024, 384]⟩
abbrev S8x2048x128 : Shape := ⟨3, ![8, 2048, 128]⟩
abbrev S1x2048x1024 : Shape := ⟨3, ![1, 2048, 1024]⟩
abbrev S1x2048x128 : Shape := ⟨3, ![1, 2048, 128]⟩
abbrev S2048x128 : Shape := ⟨2, ![2048, 128]⟩
abbrev S1x512x1024 : Shape := ⟨3, ![1, 512, 1024]⟩
abbrev S512x1024 : Shape := ⟨2, ![512, 1024]⟩
abbrev S512x384 : Shape := ⟨2, ![512, 384]⟩
abbrev S512x128 : Shape := ⟨2, ![512, 128]⟩
abbrev S512x1 : Shape := ⟨2, ![512, 1]⟩
abbrev S512x512 : Shape := ⟨2, ![512, 512]⟩
abbrev S512 : Shape := ⟨1, ![512]⟩
abbrev S1x512x128 : Shape := ⟨3, ![1, 512, 128]⟩

abbrev nBuf : Space → Nat
  | .hbm => 6
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x384, .f32⟩
  | .hbm, ⟨5, _⟩ => ⟨S8x2048x128, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x384, .f32⟩
  | .local _ .vmem, ⟨3, _⟩ => ⟨S1x2048x128, .f32⟩
  | .local _ .vmem, ⟨4, _⟩ => ⟨S1x2048x128, .f32⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S1024x128_S1024x128_S1024x128_S1024x384_d1 : Shape.Concatenates [S1024x128, S1024x128, S1024x128] S1024x384 1
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  bitsLt_bf16_f32 : FTy.bits .bf16 < FTy.bits .f32
  inb_S1x2048x1024_S1x512x1024_0_0_0 : ∀ a, (![0, 0, 0] : Fin 3 → Nat) a + S1x512x1024.size a ≤ S1x2048x1024.size a
  h_S1x512x1024 : 0 < S1x512x1024.numel
  shapeCasts_S1x512x1024_S512x1024 : S1x512x1024.ShapeCasts S512x1024
  slices_S512x384_o0_0_S512x128 : S512x384.Slices ![0, 0] S512x128
  inb_S2048x128_S512x128_0_0 : ∀ a, (![0, 0] : Fin 2 → Nat) a + S512x128.size a ≤ S2048x128.size a
  h_S512x128 : 0 < S512x128.numel
  shapeCasts_S512x128_S512x128 : S512x128.ShapeCasts S512x128
  packedbf16_S2048x128_S512x128_0_0 : (Rect.unit (s := S2048x128) ![0, 0] S512x128.size inb_S2048x128_S512x128_0_0).PackedRows (EltTy.packing .bf16)
  slices_S512x384_o0_128_S512x128 : S512x384.Slices ![0, 128] S512x128
  slices_S512x384_o0_256_S512x128 : S512x384.Slices ![0, 256] S512x128
  inb_S1x2048x1024_S1x512x1024_0_512_0 : ∀ a, (![0, 512, 0] : Fin 3 → Nat) a + S1x512x1024.size a ≤ S1x2048x1024.size a
  inb_S2048x128_S512x128_512_0 : ∀ a, (![512, 0] : Fin 2 → Nat) a + S512x128.size a ≤ S2048x128.size a
  packedbf16_S2048x128_S512x128_512_0 : (Rect.unit (s := S2048x128) ![512, 0] S512x128.size inb_S2048x128_S512x128_512_0).PackedRows (EltTy.packing .bf16)
  inb_S1x2048x1024_S1x512x1024_0_1024_0 : ∀ a, (![0, 1024, 0] : Fin 3 → Nat) a + S1x512x1024.size a ≤ S1x2048x1024.size a
  inb_S2048x128_S512x128_1024_0 : ∀ a, (![1024, 0] : Fin 2 → Nat) a + S512x128.size a ≤ S2048x128.size a
  packedbf16_S2048x128_S512x128_1024_0 : (Rect.unit (s := S2048x128) ![1024, 0] S512x128.size inb_S2048x128_S512x128_1024_0).PackedRows (EltTy.packing .bf16)
  inb_S1x2048x1024_S1x512x1024_0_1536_0 : ∀ a, (![0, 1536, 0] : Fin 3 → Nat) a + S1x512x1024.size a ≤ S1x2048x1024.size a
  inb_S2048x128_S512x128_1536_0 : ∀ a, (![1536, 0] : Fin 2 → Nat) a + S512x128.size a ≤ S2048x128.size a
  packedbf16_S2048x128_S512x128_1536_0 : (Rect.unit (s := S2048x128) ![1536, 0] S512x128.size inb_S2048x128_S512x128_1536_0).PackedRows (EltTy.packing .bf16)
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x128 : S512x1.Broadcasts S512x128
  inb_S1x2048x128_S1x512x128_0_0_0 : ∀ a, (![0, 0, 0] : Fin 3 → Nat) a + S1x512x128.size a ≤ S1x2048x128.size a
  h_S1x512x128 : 0 < S1x512x128.numel
  shapeCasts_S1x512x128_S512x128 : S1x512x128.ShapeCasts S512x128
  shapeCasts_S512x128_S1x512x128 : S512x128.ShapeCasts S1x512x128
  inb_S1x2048x128_S1x512x128_0_512_0 : ∀ a, (![0, 512, 0] : Fin 3 → Nat) a + S1x512x128.size a ≤ S1x2048x128.size a
  inb_S1x2048x128_S1x512x128_0_1024_0 : ∀ a, (![0, 1024, 0] : Fin 3 → Nat) a + S1x512x128.size a ≤ S1x2048x128.size a
  inb_S1x2048x128_S1x512x128_0_1536_0 : ∀ a, (![0, 1536, 0] : Fin 3 → Nat) a + S1x512x128.size a ≤ S1x2048x128.size a
  dot_S512x1024_S1024x384_S512x384_1_0_0_1_n_n_wf : DotDims.WF S512x1024 S1024x384 S512x384 [1] [0] [0] [1] [] []
  dot_S512x128_S512x128_S512x512_1_1_0_0_n_n_wf : DotDims.WF S512x128 S512x128 S512x512 [1] [1] [0] [0] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S1024x384.size a
  hwx0_1 : ∀ i : grid0.Coords, EltTy.bits .f32 = 32 ∨ (Rect.block (s := S1024x384) S1024x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x128.size a
  hwx0_2 : ∀ i : grid0.Coords, EltTy.bits .f32 = 32 ∨ (Rect.block (s := S8x2048x128) S1x2048x128.size (cc0_transform_2 i) (hinb0_2 i)).WholeWords (EltTy.packing .f32)

variable [Facts₀]

def dot_S512x1024_S1024x384_S512x384_1_0_0_1_n_n : DotDims S512x1024 S1024x384 S512x384 where
  lhsContracting := [1]
  rhsContracting := [0]
  lhsNonContracting := [0]
  rhsNonContracting := [1]
  lhsBatch := []
  rhsBatch := []
  wf := dot_S512x1024_S1024x384_S512x384_1_0_0_1_n_n_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x128 : Shape := ⟨2, ![1024, 128]⟩
abbrev S8x2048x128 : Shape := ⟨3, ![8, 2048, 128]⟩
abbrev S8x2048x2048 : Shape := ⟨3, ![8, 2048, 2048]⟩
abbrev S_ : Shape := ⟨0, ![]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S8x2048x128, .f32⟩
  | .hbm, ⟨5, _⟩ => ⟨S8x2048x128, .f32⟩
  | .hbm, ⟨6, _⟩ => ⟨S8x2048x128, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x128_S8x2048x128_2_0_01_1_n_n_wf : DotDims.WF S8x2048x1024 S1024x128 S8x2048x128 [2] [0] [0, 1] [1] [] []
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x1024_S1024x128_S8x2048x128_2_0_01_1_n_n : DotDims S8x2048x1024 S1024x128 S8x2048x128 where
  lhsContracting := [2]
  rhsContracting := [0]
  lhsNonContracting := [0, 1]
  rhsNonContracting := [1]
  lhsBatch := []
  rhsBatch := []
  wf := dot_S8x2048x1024_S1024x128_S8x2048x128_2_0_01_1_n_n_wf
def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.KBKit.lean ====
/-
  The program up to its one region, and the frame read off a run of the region.

  The program is one host operation, the concatenation of the three weight matrices along their columns, and then
  one region on a grid of 8 points (one per batch entry). This module says what each buffer holds when the region is
  entered (`V`: the buffers after the concatenation), that the four argument arrays are then still as launched,
  what a window's block at a point is (`iblk`), that an input window's staging buffer holds that block at every
  point, and that a run of the region ending in the launch theorem's post leaves the four arguments unchanged.
-/
import proofs.«425609_j70892730187993_3_alg».proof.Proof.Gen.Kernel.Launch
import proofs.«425609_j70892730187993_3_alg».proof.Proof.Gen.Kernel.Skeleton
import proofs.«425609_j70892730187993_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: after the one concatenation. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the concatenation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The concatenation before the region writes only its own result, so the region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, Finset.mem_singleton]
    exact StableHlo.devRef_ne_of_ne (by decide)))
/-- The concatenation before the region writes only its own result, so the region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, Finset.mem_singleton]
    exact StableHlo.devRef_ne_of_ne (by decide)))
/-- The concatenation before the region writes only its own result, so the region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, Finset.mem_singleton]
    exact StableHlo.devRef_ne_of_ne (by decide)))
/-- The concatenation before the region writes only its own result, so the region finds argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' window (one batch entry per point) holds its block at every point, for any proof data whose array
    is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The concatenated weights' window (the whole matrix, fetched once) holds its block at every point likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the region -/

/-- A run of the program to the launch theorem's post leaves the four argument arrays as launched: the activations
    are a staged input read back whole, the three weight matrices are staged by no window and written by nothing. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

end Cert.Kernel.Hand

end
-- ==== Proof.KBRun.lean ====
/-
  The kernel body run once, on any staging memrefs.

  The body projects the batch entry's 2048 rows to queries, keys and values, four chunks of 512 rows at a time, into
  three scratch buffers; then, for each of the four 512-row query tiles, runs the running-softmax pass over the key
  tiles at or before it and stores the tile's 512 output rows. Run on whole memrefs — the two inputs at given
  contents, the output's and the three scratches' at anything — it ends with the inputs as they were, the scratches at
  some contents, and the output's buffer overwritten by four stores; the four stored pieces are the witness found
  by running the body.
-/
import proofs.«425609_j70892730187993_3_alg».proof.Proof.KBKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The four pieces the body stores into the output's staging memref (last first), with the body's triple. -/
noncomputable def kernelRun0 (c : Dev nD) (i : grid0.Coords) (arg1 : Memref sig .tc .vmem S1x2048x1024 .f32) (harg1 : arg1.IsWhole) (arg2 : Memref sig .tc .vmem S1024x384 .f32) (harg2 : arg2.IsWhole) (arg3 : Memref sig .tc .vmem S1x2048x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole)
    (x0 : Vec F S1x2048x1024 .f32) (x1 : Vec F S1024x384 .f32) :
    { L2 : List (View.Piece (Elt F) S1x2048x128 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d)
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%d2, %f2, -, H2⟩, ⟨%d4, %f4, -, H4⟩, ⟨%d5, %f5, -, H5⟩, ⟨%d6, %f6, -, H6⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H4]
    · iexists _; iexists _; isplitr
      swap; · iexact H4
      ipureintro; rfl
    isplitl [H5]
    · iexists _; iexists _; isplitr
      swap; · iexact H5
      ipureintro; rfl
    iexists _; iexists _; isplitr
    swap; · iexact H6
    ipureintro; rfl

end Cert.Kernel.Hand

end
-- ==== Proof.KBFrame.lean ====
/-
  The region's proof data, the body obligation at every grid point, the run of the whole program and its frame.

  After the body at point `t` the two input windows' buffers hold their blocks (batch entry `t` of the activations,
  the whole concatenated weight matrix) and the output window's buffer holds the four stored pieces read back — they
  tile the `1 × 2048 × 128` block, so nothing of what the buffer held before shows. The three scratch buffers belong to
  the region's invariant at some contents: every point overwrites each of them whole before it reads it, so nothing is
  carried from one point to the next. The launch theorem then runs the concatenation and the eight points, and the four
  argument arrays end as launched.
-/
import proofs.«425609_j70892730187993_3_alg».proof.Proof.KBRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

/-- One staging buffer of the output window, through which its contents are stated. -/
abbrev VO0_2 : View sig .tc .vmem S1x2048x128 .f32 := (Memref.whole cc0_stg2_0 : Memref sig .tc .vmem S1x2048x128 .f32).view
abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .f32 := win0_2.stage (cfg0.slots t 2)
abbrev hs0_2 (t : Fin cfg0.N) : (ms0_2 t).IsWhole := hstage0_2 ((cfg0.slots t 2).cast nbuf0_2)
/-- The three scratch buffers (queries, keys, values of the batch entry), whole. -/
abbrev scM0 : Memref sig .tc .vmem S2048x128 .bf16 := Memref.whole cc0_scratch0
abbrev scM1 : Memref sig .tc .vmem S2048x128 .bf16 := Memref.whole cc0_scratch1
abbrev scM2 : Memref sig .tc .vmem S2048x128 .bf16 := Memref.whole cc0_scratch2

/-- The region's invariant, conjunct by conjunct: the three scratch buffers at some contents, the generator register
    at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## What the body leaves in the output window's buffer -/

/-- The four stored pieces (512 rows each) tile the output block, so they cover it. -/
theorem cover0_2 (c : Dev nD) (i : grid0.Coords) (arg1 : Memref sig .tc .vmem S1x2048x1024 .f32) (harg1 : arg1.IsWhole) (arg2 : Memref sig .tc .vmem S1024x384 .f32) (harg2 : arg2.IsWhole) (arg3 : Memref sig .tc .vmem S1x2048x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole)
    (x0 : Vec F S1x2048x1024 .f32) (x1 : Vec F S1024x384 .f32) (y : S1x2048x128.Idx) :
    ∃ pc ∈ (kernelRun0 c i arg1 harg1 arg2 harg2 arg3 harg3 arg4 harg4 arg5 harg5 arg6 harg6 x0 x1).1, y ∈ pc.1.set :=
  View.cover_of_tiledL (kernelRun0 c i arg1 harg1 arg2 harg2 arg3 harg3 arg4 harg4 arg5 harg5 arg6 harg6 x0 x1).1 S1x512x128.size (by sl_kernel_rfl) y

/-- The output window's buffer after the body: the four pieces read back. -/
def out0_2 (c : Dev nD) (i : grid0.Coords) (arg1 : Memref sig .tc .vmem S1x2048x1024 .f32) (harg1 : arg1.IsWhole) (arg2 : Memref sig .tc .vmem S1024x384 .f32) (harg2 : arg2.IsWhole) (arg3 : Memref sig .tc .vmem S1x2048x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole)
    (x0 : Vec F S1x2048x1024 .f32) (x1 : Vec F S1024x384 .f32) : Vec F S1x2048x128 .f32 :=
  VO0_2.read (Elt F) (VO0_2.writes (Elt F) VO0_2.junk (kernelRun0 c i arg1 harg1 arg2 harg2 arg3 harg3 arg4 harg4 arg5 harg5 arg6 harg6 x0 x1).1)

/-! ## The proof data -/

/-- The arrays as the region finds them; after the body at point `t` each input's buffer at its block and the
    output's at the stored pieces; the invariant the scratch buffers and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 c (grid0.coords t) (ms0_0 t) (hs0_0 t) (ms0_1 t) (hs0_1 t) (ms0_2 t) (hs0_2 t) scM0 (Memref.isWhole_whole _) scM1 (Memref.isWhole_whole _) scM2 (Memref.isWhole_whole _) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = out0_2 c (grid0.coords t) (ms0_0 t) (hs0_0 t) (ms0_1 t) (hs0_1 t) (ms0_2 t) (hs0_2 t) scM0 (Memref.isWhole_whole _) scM1 (Memref.isWhole_whole _) scM2 (Memref.isWhole_whole _) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 1600000 in
/-- The body at any point: the inputs' memrefs hold their blocks, the invariant hands over the three scratch buffers,
    so the run applies; the stored pieces cover the output's block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  unfold out0_2
  iintro ⟨⟨⟨HS0, HS1, HS2⟩, Hg⟩, Ho, ⟨%d0, H0⟩, ⟨%d1, H1⟩, ⟨%d2, H2⟩⟩
  iapply ((kernelRun0 c (grid0.coords t) _ _ _ _ _ _ _ _ _ _ _ _ (iblk m c 0 t) (iblk m c 1 t)).2 Set.univ _)
  isplitl [H0]; · iexact H0
  isplitl [H1]; · iexact H1
  isplitl [H2]; · iexists _; iexact H2
  isplitl [HS0]; · iexact HS0
  isplitl [HS1]; · iexact HS1
  isplitl [HS2]; · iexact HS2
  iintro ⟨H0, H1, ⟨%e2, H2⟩, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _ _ _ _ _ _ _)

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each array of the region at what
    the launch theorem computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KIKit.lean ====
/-
  The program up to its one region, and the frame read off a run of the region.

  The program is one host operation, the concatenation of the three weight matrices along their columns, and then
  one region on a grid of 8 points (one per batch entry). This module says what each buffer holds when the region is
  entered (`V`: the buffers after the concatenation), that the four argument arrays are then still as launched,
  what a window's block at a point is (`iblk`), that an input window's staging buffer holds that block at every
  point, and that a run of the region ending in the launch theorem's post leaves the four arguments unchanged.
-/
import proofs.«425609_j70892730187993_3_alg».proof.Proof.Gen.KernelIdeal.Launch
import proofs.«425609_j70892730187993_3_alg».proof.Proof.Gen.KernelIdeal.Skeleton
import proofs.«425609_j70892730187993_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: after the one concatenation. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the concatenation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The concatenation before the region writes only its own result, so the region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, Finset.mem_singleton]
    exact StableHlo.devRef_ne_of_ne (by decide)))
/-- The concatenation before the region writes only its own result, so the region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, Finset.mem_singleton]
    exact StableHlo.devRef_ne_of_ne (by decide)))
/-- The concatenation before the region writes only its own result, so the region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, Finset.mem_singleton]
    exact StableHlo.devRef_ne_of_ne (by decide)))
/-- The concatenation before the region writes only its own result, so the region finds argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' window (one batch entry per point) holds its block at every point, for any proof data whose array
    is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The concatenated weights' window (the whole matrix, fetched once) holds its block at every point likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the region -/

/-- A run of the program to the launch theorem's post leaves the four argument arrays as launched: the activations
    are a staged input read back whole, the three weight matrices are staged by no window and written by nothing. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

end Cert.KernelIdeal.Hand

end
-- ==== Proof.KIRun.lean ====
/-
  The kernel body run once, on any staging memrefs.

  The body projects the batch entry's 2048 rows to queries, keys and values, four chunks of 512 rows at a time, into
  three scratch buffers; then, for each of the four 512-row query tiles, runs the running-softmax pass over the key
  tiles at or before it and stores the tile's 512 output rows. Run on whole memrefs — the two inputs at given
  contents, the output's and the three scratches' at anything — it ends with the inputs as they were, the scratches at
  some contents, and the output's buffer overwritten by four stores; the four stored pieces are the witness found
  by running the body.
-/
import proofs.«425609_j70892730187993_3_alg».proof.Proof.KIKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The four pieces the body stores into the output's staging memref (last first), with the body's triple. -/
noncomputable def kernelRun0 (c : Dev nD) (i : grid0.Coords) (arg1 : Memref sig .tc .vmem S1x2048x1024 .f32) (harg1 : arg1.IsWhole) (arg2 : Memref sig .tc .vmem S1024x384 .f32) (harg2 : arg2.IsWhole) (arg3 : Memref sig .tc .vmem S1x2048x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole)
    (x0 : Vec F S1x2048x1024 .f32) (x1 : Vec F S1024x384 .f32) :
    { L2 : List (View.Piece (Elt F) S1x2048x128 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d)
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%d2, %f2, -, H2⟩, ⟨%d4, %f4, -, H4⟩, ⟨%d5, %f5, -, H5⟩, ⟨%d6, %f6, -, H6⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H4]
    · iexists _; iexists _; isplitr
      swap; · iexact H4
      ipureintro; rfl
    isplitl [H5]
    · iexists _; iexists _; isplitr
      swap; · iexact H5
      ipureintro; rfl
    iexists _; iexists _; isplitr
    swap; · iexact H6
    ipureintro; rfl

end Cert.KernelIdeal.Hand

end
-- ==== Proof.KIFrame.lean ====
/-
  The region's proof data, the body obligation at every grid point, the run of the whole program and its frame.

  After the body at point `t` the two input windows' buffers hold their blocks (batch entry `t` of the activations,
  the whole concatenated weight matrix) and the output window's buffer holds the four stored pieces read back — they
  tile the `1 × 2048 × 128` block, so nothing of what the buffer held before shows. The three scratch buffers belong to
  the region's invariant at some contents: every point overwrites each of them whole before it reads it, so nothing is
  carried from one point to the next. The launch theorem then runs the concatenation and the eight points, and the four
  argument arrays end as launched.
-/
import proofs.«425609_j70892730187993_3_alg».proof.Proof.KIRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The memrefs the body is called with -/

/-- One staging buffer of the output window, through which its contents are stated. -/
abbrev VO0_2 : View sig .tc .vmem S1x2048x128 .f32 := (Memref.whole cc0_stg2_0 : Memref sig .tc .vmem S1x2048x128 .f32).view
abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .f32 := win0_2.stage (cfg0.slots t 2)
abbrev hs0_2 (t : Fin cfg0.N) : (ms0_2 t).IsWhole := hstage0_2 ((cfg0.slots t 2).cast nbuf0_2)
/-- The three scratch buffers (queries, keys, values of the batch entry), whole. -/
abbrev scM0 : Memref sig .tc .vmem S2048x128 .bf16 := Memref.whole cc0_scratch0
abbrev scM1 : Memref sig .tc .vmem S2048x128 .bf16 := Memref.whole cc0_scratch1
abbrev scM2 : Memref sig .tc .vmem S2048x128 .bf16 := Memref.whole cc0_scratch2

/-- The region's invariant, conjunct by conjunct: the three scratch buffers at some contents, the generator register
    at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## What the body leaves in the output window's buffer -/

/-- The four stored pieces (512 rows each) tile the output block, so they cover it. -/
theorem cover0_2 (c : Dev nD) (i : grid0.Coords) (arg1 : Memref sig .tc .vmem S1x2048x1024 .f32) (harg1 : arg1.IsWhole) (arg2 : Memref sig .tc .vmem S1024x384 .f32) (harg2 : arg2.IsWhole) (arg3 : Memref sig .tc .vmem S1x2048x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole)
    (x0 : Vec F S1x2048x1024 .f32) (x1 : Vec F S1024x384 .f32) (y : S1x2048x128.Idx) :
    ∃ pc ∈ (kernelRun0 c i arg1 harg1 arg2 harg2 arg3 harg3 arg4 harg4 arg5 harg5 arg6 harg6 x0 x1).1, y ∈ pc.1.set :=
  View.cover_of_tiledL (kernelRun0 c i arg1 harg1 arg2 harg2 arg3 harg3 arg4 harg4 arg5 harg5 arg6 harg6 x0 x1).1 S1x512x128.size (by sl_kernel_rfl) y

/-- The output window's buffer after the body: the four pieces read back. -/
def out0_2 (c : Dev nD) (i : grid0.Coords) (arg1 : Memref sig .tc .vmem S1x2048x1024 .f32) (harg1 : arg1.IsWhole) (arg2 : Memref sig .tc .vmem S1024x384 .f32) (harg2 : arg2.IsWhole) (arg3 : Memref sig .tc .vmem S1x2048x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole)
    (x0 : Vec F S1x2048x1024 .f32) (x1 : Vec F S1024x384 .f32) : Vec F S1x2048x128 .f32 :=
  VO0_2.read (Elt F) (VO0_2.writes (Elt F) VO0_2.junk (kernelRun0 c i arg1 harg1 arg2 harg2 arg3 harg3 arg4 harg4 arg5 harg5 arg6 harg6 x0 x1).1)

/-! ## The proof data -/

/-- The arrays as the region finds them; after the body at point `t` each input's buffer at its block and the
    output's at the stored pieces; the invariant the scratch buffers and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 c (grid0.coords t) (ms0_0 t) (hs0_0 t) (ms0_1 t) (hs0_1 t) (ms0_2 t) (hs0_2 t) scM0 (Memref.isWhole_whole _) scM1 (Memref.isWhole_whole _) scM2 (Memref.isWhole_whole _) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = out0_2 c (grid0.coords t) (ms0_0 t) (hs0_0 t) (ms0_1 t) (hs0_1 t) (ms0_2 t) (hs0_2 t) scM0 (Memref.isWhole_whole _) scM1 (Memref.isWhole_whole _) scM2 (Memref.isWhole_whole _) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 1600000 in
/-- The body at any point: the inputs' memrefs hold their blocks, the invariant hands over the three scratch buffers,
    so the run applies; the stored pieces cover the output's block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  unfold out0_2
  iintro ⟨⟨⟨HS0, HS1, HS2⟩, Hg⟩, Ho, ⟨%d0, H0⟩, ⟨%d1, H1⟩, ⟨%d2, H2⟩⟩
  iapply ((kernelRun0 c (grid0.coords t) _ _ _ _ _ _ _ _ _ _ _ _ (iblk m c 0 t) (iblk m c 1 t)).2 Set.univ _)
  isplitl [H0]; · iexact H0
  isplitl [H1]; · iexact H1
  isplitl [H2]; · iexists _; iexact H2
  isplitl [HS0]; · iexact HS0
  isplitl [HS1]; · iexact HS1
  isplitl [HS2]; · iexact HS2
  iintro ⟨H0, H1, ⟨%e2, H2⟩, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _ _ _ _ _ _ _)

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each array of the region at what
    the launch theorem computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.Tiles.lean ====
/-
  The kernel's tile arithmetic, named.

  For a 512-row query tile the kernel scales the queries by `2⁻⁵`, and then, for each 512-row key tile at or before it:
  contracts scaled queries against keys over the head channels (`sc`), on the diagonal tile replaces the scores of key
  positions after the query position by the named constant that stands for `-∞` (`mk`), and makes one step of the running
  softmax (`stp`): the new row maximum, both rescaling factors, the new normaliser and the new weighted sum of values.
  After the last key tile the weighted sum is divided by the normaliser (`tileOut`). The four payloads the body stores
  into the output block are these compositions of the body's operations, by unfolding.
-/
import proofs.«425609_j70892730187993_3_alg».proof.Proof.Gen.KernelIdeal.Skeleton

set_option maxRecDepth 16384

noncomputable section

namespace Cert.KernelIdeal.Tiles

open Cert.KernelIdeal Cert.KernelIdeal.Gen
open Idealize.ShloMosaic Idealize.ShloMosaic.TcCoe

variable {F : FTy → Type} [FloatOps F] [Named F]

/-- The finite constant the kernel uses for `-∞`, named. -/
def negC : F .f32 := Named.named κ "neg_big" 0xFF333332#32

/-- A query tile scaled by `2⁻⁵`. -/
def qs (q : Vec F S512x128 .bf16) : FVec F S512x128 .bf16 :=
  truncf .bf16 (mulf (extf .f32 q bitsLt_bf16_f32) (broadcast S512x128 (Scalar.ofBits .f32 0x3D000000#32))) bitsLt_bf16_f32

/-- Scores of a scaled query tile against a key tile: contraction over the head channels of both. -/
def sc (q k : Vec F S512x128 .bf16) : FVec F S512x512 .f32 :=
  matmul dot_S512x128_S512x128_S512x512_1_1_0_0_n_n none q k (constant S512x512 .f32 0x00000000#32)

/-- The diagonal tile's causal mask: keep the score where the row index is at least the column index. -/
def mk (s : FVec F S512x512 .f32) : FVec F S512x512 .f32 :=
  select (cmpi .sge (iota .tc S512x512 32 [0] iota_S512x512_d0_w32) (iota .tc S512x512 32 [1] iota_S512x512_d1_w32)) s
    (broadcast S512x512 (negC (F := F)))

/-- The running maximum after a tile of scores. -/
def mx (m : FVec F S512x1 .f32) (s : FVec F S512x512 .f32) : FVec F S512x1 .f32 :=
  maximumf m (shapeCast S512x1 (multiReduction .maximumf [1] S512 s 0xFF800000#32 reduces_S512x512_S512 (.inl rfl) rfl) shapeCasts_S512_S512x1)

/-- The rescaling factor `exp (m - m')`. -/
def al (m m' : FVec F S512x1 .f32) : FVec F S512x1 .f32 := exp (subf m m')

/-- The tile's weights `exp (s - m')`. -/
def pp (s : FVec F S512x512 .f32) (m' : FVec F S512x1 .f32) : FVec F S512x512 .f32 :=
  exp (subf s (broadcastTo S512x512 m' broadcasts_S512x1_S512x512))

/-- The running normaliser after a tile. -/
def ll (a l : FVec F S512x1 .f32) (p : FVec F S512x512 .f32) : FVec F S512x1 .f32 :=
  addf (mulf a l) (shapeCast S512x1 (multiReduction .add [1] S512 p 0x00000000#32 reduces_S512x512_S512 (.inl rfl) rfl) shapeCasts_S512_S512x1)

/-- The running weighted sum of values after a tile. -/
def aa (a : FVec F S512x1 .f32) (acc : FVec F S512x128 .f32) (p : FVec F S512x512 .f32) (v : Vec F S512x128 .bf16) : FVec F S512x128 .f32 :=
  addf (mulf (broadcastTo S512x128 a broadcasts_S512x1_S512x128) acc)
    (matmul dot_S512x512_S512x128_S512x128_1_0_0_1_n_n none (truncf .bf16 p bitsLt_bf16_f32) v (constant S512x128 .f32 0x00000000#32))

/-- The state of the running softmax over a query tile: maximum, normaliser, weighted sum. -/
structure St (F : FTy → Type) [FloatOps F] where
  m : FVec F S512x1 .f32
  l : FVec F S512x1 .f32
  acc : FVec F S512x128 .f32

/-- Before the first key tile: `-∞` (named), zero, zero. -/
def st0 : St F :=
  ⟨broadcast S512x1 (negC (F := F)), broadcast S512x1 (Scalar.ofBits .f32 0x00000000#32), broadcast S512x128 (Scalar.ofBits .f32 0x00000000#32)⟩

/-- One key tile: scores `s`, values `v`. -/
def stp (st : St F) (s : FVec F S512x512 .f32) (v : Vec F S512x128 .bf16) : St F :=
  ⟨mx st.m s, ll (al st.m (mx st.m s)) st.l (pp s (mx st.m s)), aa (al st.m (mx st.m s)) st.acc (pp s (mx st.m s)) v⟩

/-- The tile's 512 output rows: weighted sum over normaliser, as a `1 × 512 × 128` block. -/
def tileOut (st : St F) : FVec F S1x512x128 .f32 :=
  shapeCast S1x512x128 (divf st.acc (broadcastTo S512x128 st.l broadcasts_S512x1_S512x128)) shapeCasts_S512x128_S1x512x128

/-- Query tile 0 (rows 0 to 511): one key tile, masked. -/
theorem tile0_eq (q0 k0 v0 : Vec F S512x128 .bf16) :
    k0_pay22 (k0_pay21 q0 k0 v0) = tileOut (stp st0 (mk (sc (qs q0) k0)) v0) := rfl

/-- Query tile 1 (rows 512 to 1023): key tile 0 whole, key tile 1 masked. -/
theorem tile1_eq (q1 k0 v0 k1 v1 : Vec F S512x128 .bf16) :
    k0_pay32 (k0_pay26 q1 k0) (k0_pay29 q1 k0) (k0_pay30 q1 k0 v0) v1 (k0_pay31 q1 k1)
      = tileOut (stp (stp st0 (sc (qs q1) k0) v0) (mk (sc (qs q1) k1)) v1) := rfl

/-- Query tile 2 (rows 1024 to 1535): key tiles 0 and 1 whole, key tile 2 masked. -/
theorem tile2_eq (q2 k0 v0 k1 v1 k2 v2 : Vec F S512x128 .bf16) :
    k0_pay51 (k0_pay45 (k0_pay33 q2) (k0_pay37 q2 k0) (k0_pay39 q2 k0) (k0_pay40 q2 k0) k1)
        (k0_pay46 (k0_pay33 q2) (k0_pay35 (F := F)) v0 (k0_pay37 q2 k0) (k0_pay38 q2 k0) (k0_pay39 q2 k0) k1 v1)
        v2 (k0_pay49 (k0_pay33 q2) (k0_pay37 q2 k0) k1 k2) (k0_pay50 (k0_pay33 q2) (k0_pay37 q2 k0) k1 k2)
      = tileOut (stp (stp (stp st0 (sc (qs q2) k0) v0) (sc (qs q2) k1) v1) (mk (sc (qs q2) k2)) v2) := rfl

/-- Query tile 3 (rows 1536 to 2047): key tiles 0, 1, 2 whole, key tile 3 masked. -/
theorem tile3_eq (q3 k0 v0 k1 v1 k2 v2 k3 v3 : Vec F S512x128 .bf16) :
    k0_pay1 (k0_pay52 q3)
        (k0_pay66 (k0_pay52 q3) (k0_pay55 q3 k0) k1 k2)
        (k0_pay69 (k0_pay52 q3) (k0_pay55 q3 k0) (k0_pay58 q3 k0) k1 k2)
        (k0_pay70 (k0_pay52 q3) v0 (k0_pay55 q3 k0) (k0_pay59 q3 k0) (k0_pay60 q3 k0) k1 v1 k2 v2)
        k3 v3
      = tileOut (stp (stp (stp (stp st0 (sc (qs q3) k0) v0) (sc (qs q3) k1) v1) (sc (qs q3) k2) v2) (mk (sc (qs q3) k3)) v3) := rfl

end Cert.KernelIdeal.Tiles

end
-- ==== Proof.KIPieces.lean ====
/-
  The four stored pieces, made explicit.

  Within one run of the body each scratch buffer is written by four stores of 512 rows (rows 0, 512, 1024, 1536) and
  then only read, 512 rows at a time at those same offsets. A load at one store's rows passes over the stores made
  after it (their rows are disjoint) and reads that store's payload. So the queries, keys and values the tiles read are
  the projection payloads of the four chunks of the activations, and the four output pieces are the tile compositions
  of Tiles.lean applied to them.
-/
import proofs.«425609_j70892730187993_3_alg».proof.Proof.KIRun
import proofs.«425609_j70892730187993_3_alg».proof.Proof.Tiles
import Idealize.ShloMosaic.Lib.Pipeline.RowLoads

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Cert.KernelIdeal.Tiles

/-! ## A load of 512 rows after four stores of 512 rows -/

section rd
variable {κ' : Kind} {sp' : Space} (v : View sig κ' sp' S2048x128 .bf16) (p0 p1 p2 p3 : Vec F S512x128 .bf16)

abbrev R0 : Rect S2048x128 := Rect.unit (s := S2048x128) ![0, 0] S512x128.size inb_S2048x128_S512x128_0_0
abbrev R1 : Rect S2048x128 := Rect.unit (s := S2048x128) ![512, 0] S512x128.size inb_S2048x128_S512x128_512_0
abbrev R2 : Rect S2048x128 := Rect.unit (s := S2048x128) ![1024, 0] S512x128.size inb_S2048x128_S512x128_1024_0
abbrev R3 : Rect S2048x128 := Rect.unit (s := S2048x128) ![1536, 0] S512x128.size inb_S2048x128_S512x128_1536_0

theorem rd3 : v.readCov [⟨R3, p3⟩, ⟨R2, p2⟩, ⟨R1, p1⟩, ⟨R0, p0⟩] R3.toLoadRect = p3 :=
  View.readCov_cons_toLoadRect v R3 p3 _
theorem rd2 : v.readCov [⟨R3, p3⟩, ⟨R2, p2⟩, ⟨R1, p1⟩, ⟨R0, p0⟩] R2.toLoadRect = p2 := by
  rw [View.readCov_cons_of_rows_disjoint (k := 512) (k' := 512) v 1536 1024 (Or.inr (by decide))]
  exact View.readCov_cons_toLoadRect v R2 p2 _
theorem rd1 : v.readCov [⟨R3, p3⟩, ⟨R2, p2⟩, ⟨R1, p1⟩, ⟨R0, p0⟩] R1.toLoadRect = p1 := by
  rw [View.readCov_cons_of_rows_disjoint (k := 512) (k' := 512) v 1536 512 (Or.inr (by decide)),
    View.readCov_cons_of_rows_disjoint (k := 512) (k' := 512) v 1024 512 (Or.inr (by decide))]
  exact View.readCov_cons_toLoadRect v R1 p1 _
theorem rd0 : v.readCov [⟨R3, p3⟩, ⟨R2, p2⟩, ⟨R1, p1⟩, ⟨R0, p0⟩] R0.toLoadRect = p0 := by
  rw [View.readCov_cons_of_rows_disjoint (k := 512) (k' := 512) v 1536 0 (Or.inr (by decide)),
    View.readCov_cons_of_rows_disjoint (k := 512) (k' := 512) v 1024 0 (Or.inr (by decide)),
    View.readCov_cons_of_rows_disjoint (k := 512) (k' := 512) v 512 0 (Or.inr (by decide))]
  exact View.readCov_cons_toLoadRect v R0 p0 _
end rd

/-! ## The blocks' chunks and the scratch contents -/

/-- The four 512-row chunks of the activations' block, the whole weight block, the four 512-row pieces of the output block. -/
abbrev rX0 : Rect S1x2048x1024 := Rect.unit (s := S1x2048x1024) ![0, 0, 0] S1x512x1024.size inb_S1x2048x1024_S1x512x1024_0_0_0
abbrev rX1 : Rect S1x2048x1024 := Rect.unit (s := S1x2048x1024) ![0, 512, 0] S1x512x1024.size inb_S1x2048x1024_S1x512x1024_0_512_0
abbrev rX2 : Rect S1x2048x1024 := Rect.unit (s := S1x2048x1024) ![0, 1024, 0] S1x512x1024.size inb_S1x2048x1024_S1x512x1024_0_1024_0
abbrev rX3 : Rect S1x2048x1024 := Rect.unit (s := S1x2048x1024) ![0, 1536, 0] S1x512x1024.size inb_S1x2048x1024_S1x512x1024_0_1536_0
abbrev rW : Rect S1024x384 := Rect.unit (s := S1024x384) ![0, 0] S1024x384.size inb_S1024x384_S1024x384_0_0
abbrev rO0 : Rect S1x2048x128 := Rect.unit (s := S1x2048x128) ![0, 0, 0] S1x512x128.size inb_S1x2048x128_S1x512x128_0_0_0
abbrev rO1 : Rect S1x2048x128 := Rect.unit (s := S1x2048x128) ![0, 512, 0] S1x512x128.size inb_S1x2048x128_S1x512x128_0_512_0
abbrev rO2 : Rect S1x2048x128 := Rect.unit (s := S1x2048x128) ![0, 1024, 0] S1x512x128.size inb_S1x2048x128_S1x512x128_0_1024_0
abbrev rO3 : Rect S1x2048x128 := Rect.unit (s := S1x2048x128) ![0, 1536, 0] S1x512x128.size inb_S1x2048x128_S1x512x128_0_1536_0

section vals
variable (x0 : Vec F S1x2048x1024 .f32) (x1 : Vec F S1024x384 .f32)

/-- Queries, keys and values of chunk `n` as the body stores them (chunks 0 and 1 cast the weights inside the product,
    chunks 2 and 3 take them cast once). -/
def sq0 : Vec F S512x128 .bf16 := k0_pay4 (View.ld x1 rW) (View.ld x0 rX0)
def sk0 : Vec F S512x128 .bf16 := k0_pay5 (View.ld x1 rW) (View.ld x0 rX0)
def sv0 : Vec F S512x128 .bf16 := k0_pay6 (View.ld x1 rW) (View.ld x0 rX0)
def sq1 : Vec F S512x128 .bf16 := k0_pay8 (View.ld x1 rW) (View.ld x0 rX1)
def sk1 : Vec F S512x128 .bf16 := k0_pay9 (View.ld x1 rW) (View.ld x0 rX1)
def sv1 : Vec F S512x128 .bf16 := k0_pay11 (k0_pay10 (View.ld x1 rW) (View.ld x0 rX1))
def sq2 : Vec F S512x128 .bf16 := k0_pay13 (k0_pay2 (View.ld x1 rW)) (View.ld x0 rX2)
def sk2 : Vec F S512x128 .bf16 := k0_pay14 (k0_pay2 (View.ld x1 rW)) (View.ld x0 rX2)
def sv2 : Vec F S512x128 .bf16 := k0_pay15 (k0_pay2 (View.ld x1 rW)) (View.ld x0 rX2)
def sq3 : Vec F S512x128 .bf16 := k0_pay17 (k0_pay2 (View.ld x1 rW)) (View.ld x0 rX3)
def sk3 : Vec F S512x128 .bf16 := k0_pay18 (k0_pay2 (View.ld x1 rW)) (View.ld x0 rX3)
def sv3 : Vec F S512x128 .bf16 := k0_pay20 (k0_pay19 (k0_pay2 (View.ld x1 rW)) (View.ld x0 rX3))

/-- The four output tiles. -/
def tile0 : FVec F S1x512x128 .f32 := tileOut (stp st0 (mk (sc (qs (sq0 x0 x1)) (sk0 x0 x1))) (sv0 x0 x1))
def tile1 : FVec F S1x512x128 .f32 :=
  tileOut (stp (stp st0 (sc (qs (sq1 x0 x1)) (sk0 x0 x1)) (sv0 x0 x1)) (mk (sc (qs (sq1 x0 x1)) (sk1 x0 x1))) (sv1 x0 x1))
def tile2 : FVec F S1x512x128 .f32 :=
  tileOut (stp (stp (stp st0 (sc (qs (sq2 x0 x1)) (sk0 x0 x1)) (sv0 x0 x1)) (sc (qs (sq2 x0 x1)) (sk1 x0 x1)) (sv1 x0 x1))
    (mk (sc (qs (sq2 x0 x1)) (sk2 x0 x1))) (sv2 x0 x1))
def tile3 : FVec F S1x512x128 .f32 :=
  tileOut (stp (stp (stp (stp st0 (sc (qs (sq3 x0 x1)) (sk0 x0 x1)) (sv0 x0 x1)) (sc (qs (sq3 x0 x1)) (sk1 x0 x1)) (sv1 x0 x1))
    (sc (qs (sq3 x0 x1)) (sk2 x0 x1)) (sv2 x0 x1)) (mk (sc (qs (sq3 x0 x1)) (sk3 x0 x1))) (sv3 x0 x1))

/-- The output block's four pieces, last stored first. -/
def pieces : List (View.Piece (Elt F) S1x2048x128 .f32) :=
  [⟨rO3, tile3 x0 x1⟩, ⟨rO2, tile2 x0 x1⟩, ⟨rO1, tile1 x0 x1⟩, ⟨rO0, tile0 x0 x1⟩]

end vals

set_option maxHeartbeats 4000000 in
/-- The pieces the run finds are these. -/
theorem run_pieces (c : Dev nD) (i : grid0.Coords) (arg1 : Memref sig .tc .vmem S1x2048x1024 .f32) (harg1 : arg1.IsWhole) (arg2 : Memref sig .tc .vmem S1024x384 .f32) (harg2 : arg2.IsWhole) (arg3 : Memref sig .tc .vmem S1x2048x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole)
    (x0 : Vec F S1x2048x1024 .f32) (x1 : Vec F S1024x384 .f32) :
    (kernelRun0 (F := F) c i arg1 harg1 arg2 harg2 arg3 harg3 arg4 harg4 arg5 harg5 arg6 harg6 x0 x1).1 = pieces x0 x1 := by
  unfold kernelRun0
  dsimp only
  sl_unfold_words
  simp only [View.readAt_eq_ld, harg1.read_unread, harg2.read_unread]
  rw [rd0 (F := F) arg4.view, rd1 (F := F) arg4.view, rd2 (F := F) arg4.view, rd3 (F := F) arg4.view,
    rd0 (F := F) arg5.view, rd1 (F := F) arg5.view, rd2 (F := F) arg5.view, rd3 (F := F) arg5.view,
    rd0 (F := F) arg6.view, rd1 (F := F) arg6.view, rd2 (F := F) arg6.view, rd3 (F := F) arg6.view]
  unfold pieces tile0 tile1 tile2 tile3
  rw [← tile0_eq, ← tile1_eq, ← tile2_eq, ← tile3_eq]
  rfl

end Cert.KernelIdeal.Hand

end
-- ==== Proof.LibRealSums.lean ====
/-
  Finite sums and maxima of real numbers inside the extended reals, and the softmax's division law.
  An idealized float is an extended real; a proof that needs a law of the reals (here: a quotient of a sum is the sum of the
  quotients) first shows that the numbers involved are reals and then computes in ℝ. These are the general steps:
  the inclusion of ℝ commutes with finite sums and with max; a finite sum of reals is a real, of positive reals over a
  nonempty set a positive real; a fold of max from −∞ over a nonempty set of reals is a real; and dividing a weighted sum once
  by a nonzero real is dividing every weight first. General in the index types.
-/
import Idealize.ShloMosaic.PureOps.Ideal
import Idealize.ShloMosaic.PureOps.Ideal.Laws

noncomputable section

namespace Cert.RealSums

open Idealize.ShloMosaic
open scoped BigOperators

/-- The inclusion of the reals in the extended reals carries a finite sum to the sum of the inclusions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

/-- A finite sum of positive reals over a nonempty index set is a positive real. -/
theorem sum_pos_real {ι : Type*} (s : Finset ι) (hs : s.Nonempty) (f : ι → EReal)
    (hf : ∀ i, ∃ r : ℝ, 0 < r ∧ f i = (r : EReal)) :
    ∃ r : ℝ, 0 < r ∧ ∑ i ∈ s, f i = (r : EReal) := by
  choose g hg using hf
  exact ⟨∑ i ∈ s, g i, Finset.sum_pos (fun i _ => (hg i).1) hs,
    by rw [coe_sum]; exact Finset.sum_congr rfl fun i _ => (hg i).2⟩

/-- The inclusion of the reals carries the larger of two reals to the larger of the inclusions. -/
theorem coe_max (a b : ℝ) : ((max a b : ℝ) : EReal) = max (a : EReal) (b : EReal) :=
  EReal.coe_strictMono.monotone.map_max

/-- The maximum of finitely many reals, folded from −∞ over a nonempty index set, is a real. -/
theorem fold_max_bot_real {ι : Type*} (s : Finset ι) (hs : s.Nonempty) (f : ι → EReal)
    (hf : ∀ i, ∃ r : ℝ, f i = (r : EReal)) :
    ∃ r : ℝ, s.fold max (⊥ : EReal) f = (r : EReal) := by
  choose g hg using hf
  induction hs using Finset.Nonempty.cons_induction with
  | singleton a => exact ⟨g a, by rw [Finset.fold_singleton, hg a, max_eq_left bot_le]⟩
  | cons a s ha hs ih =>
    obtain ⟨r, hr⟩ := ih
    exact ⟨max (g a) r, by rw [Finset.fold_cons, hr, hg a, coe_max]⟩

/-- The softmax's division law: for real weights `p`, real values `v` and a nonzero real `l`, the weighted sum divided once
    by `l` is the sum with every weight divided by `l` first. -/
theorem div_sum_eq_sum_div {ι : Type*} (s : Finset ι) (p v : ι → ℝ) (l : ℝ) (hl : l ≠ 0) :
    Ideal.div (∑ κ ∈ s, (p κ : EReal) * (v κ : EReal)) (l : EReal) = ∑ κ ∈ s, Ideal.div (p κ : EReal) (l : EReal) * (v κ : EReal) := by
  simp only [Ideal.div_coe hl]
  have hK : (∑ κ ∈ s, (p κ : EReal) * (v κ : EReal)) = ((∑ κ ∈ s, p κ * v κ : ℝ) : EReal) := by
    rw [coe_sum]; exact Finset.sum_congr rfl fun κ _ => (EReal.coe_mul _ _)
  have hR : (∑ κ ∈ s, (p κ : EReal) * ((1 / l : ℝ) : EReal) * (v κ : EReal))
      = ((∑ κ ∈ s, p κ * (1 / l) * v κ : ℝ) : EReal) := by
    rw [coe_sum]; exact Finset.sum_congr rfl fun κ _ => by rw [EReal.coe_mul, EReal.coe_mul]
  rw [hK, hR, ← EReal.coe_mul, Finset.sum_mul]
  exact congrArg _ (Finset.sum_congr rfl fun κ _ => mul_right_comm _ _ _)

end Cert.RealSums

end
-- ==== Proof.LibMaxCover.lean ====
/-
  A maximum over a finite index type, taken as a fold of max from a base value, splits over any two families of
  indices that together reach every index: it is the larger of the two families' maxima. Neither injectivity nor
  disjointness of the families is needed, since max is idempotent.
-/
import Mathlib.Data.Finset.Fold
import Mathlib.Data.Fintype.Basic
import Mathlib.Order.Lattice

namespace Cert.LibMaxCover

/-- The fold of max from b over all of K is the larger of the folds of max from b over the two families lo and hi,
    when every index of K is lo of something or hi of something. -/
theorem fold_max_univ_of_cover {α : Type*} [LinearOrder α] {I J K : Type*} [Fintype I] [Fintype J] [Fintype K]
    (b : α) (f : K → α) (lo : I → K) (hi : J → K) (hcov : ∀ k, (∃ i, lo i = k) ∨ ∃ j, hi j = k) :
    max ((Finset.univ : Finset I).fold max b (f ∘ lo)) ((Finset.univ : Finset J).fold max b (f ∘ hi))
      = (Finset.univ : Finset K).fold max b f := by
  refine eq_of_forall_ge_iff fun z => ?_
  simp only [max_le_iff, Finset.fold_max_le, Finset.mem_univ, true_implies, Function.comp_apply]
  constructor
  · rintro ⟨⟨hb, h1⟩, ⟨_, h2⟩⟩
    refine ⟨hb, fun k => ?_⟩
    rcases hcov k with ⟨i, rfl⟩ | ⟨j, rfl⟩
    · exact h1 i
    · exact h2 j
  · rintro ⟨hb, h⟩
    exact ⟨⟨hb, fun i => h _⟩, ⟨hb, fun j => h _⟩⟩

end Cert.LibMaxCover
-- ==== Proof.Online.lean ====
import Idealize.ShloMosaic.PureOps.Ideal
import Idealize.ShloMosaic.PureOps.Ideal.Laws
import proofs.«425609_j70892730187993_3_alg».proof.Proof.LibRealSums
import proofs.«425609_j70892730187993_3_alg».proof.Proof.LibMaxCover
import Mathlib.Data.EReal.Basic
import Mathlib.Data.EReal.Operations
import Mathlib.Algebra.BigOperators.Group.Finset.Basic
import Mathlib.Algebra.BigOperators.Fin
import Mathlib.Algebra.Order.BigOperators.Group.Finset
import Mathlib.Data.Finset.Fold
import Mathlib.Analysis.SpecialFunctions.Exp

/-!
# The running softmax over column tiles is the softmax over all columns

A row of attention scores is cut into tiles of `W` columns. A pass over the first `k + 1` tiles keeps a running
maximum `m`, a running normaliser `l` and a running weighted sum `acc`, rescaling both by `exp (m - m')` whenever the
maximum grows. When every score is a real or `-∞`, the first score is a real, the scores of the tiles after tile `k`
are all `-∞`, and the values are reals, `acc / l` after the pass is the softmax-weighted sum over ALL columns,
with the maximum, the normaliser and the weights taken over all columns at once.
-/

noncomputable section

namespace Cert.Online

open Idealize.ShloMosaic
open scoped BigOperators

variable {W : ℕ}

/-- One tile of the pass: scores `σ` and values `v` of the tile's `W` columns, the state `(m, l, acc)` before it. -/
def step (σ v : Fin W → EReal) (s : EReal × EReal × EReal) : EReal × EReal × EReal :=
  (max s.1 ((Finset.univ : Finset (Fin W)).fold max (⊥ : EReal) σ),
   Ideal.exp (s.1 - max s.1 ((Finset.univ : Finset (Fin W)).fold max (⊥ : EReal) σ)) * s.2.1
     + ∑ j, Ideal.exp (σ j - max s.1 ((Finset.univ : Finset (Fin W)).fold max (⊥ : EReal) σ)),
   Ideal.exp (s.1 - max s.1 ((Finset.univ : Finset (Fin W)).fold max (⊥ : EReal) σ)) * s.2.2
     + ∑ j, Ideal.exp (σ j - max s.1 ((Finset.univ : Finset (Fin W)).fold max (⊥ : EReal) σ)) * v j)

/-- The state after the first `k` tiles, from `(-∞, 0, 0)`. -/
def run (σ v : ℕ → Fin W → EReal) : ℕ → EReal × EReal × EReal
  | 0 => (⊥, 0, 0)
  | k + 1 => step (σ k) (v k) (run σ v k)

/-- The softmax-weighted sum of `v` under the scores `σ`, over all of a finite index type at once. -/
def soft {J : Type*} [Fintype J] (σ v : J → EReal) : EReal :=
  ∑ j, Ideal.div (Ideal.exp (σ j - (Finset.univ : Finset J).fold max (⊥ : EReal) σ))
        (∑ i, Ideal.exp (σ i - (Finset.univ : Finset J).fold max (⊥ : EReal) σ)) * v j

/-- Column `b` of tile `a` of a row of `T * W` entries (`-∞` past the row's end). -/
def tileAt (T : ℕ) (f : Fin (T * W) → EReal) (a : ℕ) (b : Fin W) : EReal :=
  if h : W * a + b.val < T * W then f ⟨W * a + b.val, h⟩ else ⊥

theorem tileAt_of_lt (T : ℕ) (f : Fin (T * W) → EReal) (a : ℕ) (b : Fin W) (h : W * a + b.val < T * W) :
    tileAt T f a b = f ⟨W * a + b.val, h⟩ := dif_pos h

/-! ## Reals and `-∞`: the exponential, and rescaling a sum of exponentials -/

/-- For a score `x` that is a real or `-∞` and a real `m`, `exp (x - m)` is a real that is not negative. -/
theorem exp_sub_coe_real {x : EReal} (hx : x = ⊥ ∨ ∃ r : ℝ, x = (r : EReal)) (m : ℝ) :
    ∃ p : ℝ, 0 ≤ p ∧ Ideal.exp (x - (m : EReal)) = (p : EReal) := by
  rcases hx with rfl | ⟨r, rfl⟩
  · exact ⟨0, le_rfl, by rw [EReal.bot_sub, Ideal.exp_bot, EReal.coe_zero]⟩
  · exact ⟨Real.exp (r - m), (Real.exp_pos _).le, by rw [← EReal.coe_sub, Ideal.exp_coe]⟩

/-- Moving the reference point of an exponential from the real `m` to the real `m'`:
    `exp (m - m') * exp (x - m) = exp (x - m')`, for `x` a real or `-∞` (both sides are `0` at `-∞`). -/
theorem exp_rescale (m m' : ℝ) {x : EReal} (hx : x = ⊥ ∨ ∃ r : ℝ, x = (r : EReal)) :
    Ideal.exp ((m : EReal) - (m' : EReal)) * Ideal.exp (x - (m : EReal)) = Ideal.exp (x - (m' : EReal)) := by
  rcases hx with rfl | ⟨r, rfl⟩
  · rw [EReal.bot_sub, EReal.bot_sub, Ideal.exp_bot, mul_zero]
  · rw [← EReal.coe_sub, ← EReal.coe_sub, ← EReal.coe_sub, Ideal.exp_coe, Ideal.exp_coe, Ideal.exp_coe,
      ← EReal.coe_mul, ← Real.exp_add]
    congr 2
    ring

/-- A real factor goes inside a finite sum of reals. -/
theorem coe_mul_sum {ι : Type*} (s : Finset ι) (c : ℝ) (f : ι → EReal) (hf : ∀ i, ∃ r : ℝ, f i = (r : EReal)) :
    (c : EReal) * ∑ i ∈ s, f i = ∑ i ∈ s, (c : EReal) * f i := by
  choose g hg using hf
  obtain rfl : f = fun i => ((g i : ℝ) : EReal) := funext hg
  rw [← Cert.RealSums.coe_sum, ← EReal.coe_mul, Finset.mul_sum, Cert.RealSums.coe_sum]
  exact Finset.sum_congr rfl fun i _ => EReal.coe_mul _ _

/-- Rescaling a weighted sum of exponentials. The old reference point `m` is `-∞` or a real and bounds the scores summed
    over; the new one `m'` is a real. When `m = -∞` every score summed over is `-∞` and both sides are `0`. -/
theorem rescale_sum (g u : ℕ → EReal) (hg : ∀ j, g j = ⊥ ∨ ∃ r : ℝ, g j = (r : EReal))
    (hu : ∀ j, ∃ r : ℝ, u j = (r : EReal)) (N : ℕ) (m : EReal) (hm : m = ⊥ ∨ ∃ r : ℝ, m = (r : EReal))
    (hle : ∀ j < N, g j ≤ m) (m' : ℝ) :
    Ideal.exp (m - (m' : EReal)) * ∑ j ∈ Finset.range N, Ideal.exp (g j - m) * u j
      = ∑ j ∈ Finset.range N, Ideal.exp (g j - (m' : EReal)) * u j := by
  rcases hm with rfl | ⟨r, rfl⟩
  · rw [EReal.bot_sub, Ideal.exp_bot, zero_mul]
    refine (Finset.sum_eq_zero fun j hj => ?_).symm
    rw [le_bot_iff.mp (hle j (Finset.mem_range.mp hj)), EReal.bot_sub, Ideal.exp_bot, zero_mul]
  · have hreal : ∀ j, ∃ q : ℝ, Ideal.exp (g j - (r : EReal)) * u j = (q : EReal) := fun j => by
      obtain ⟨p, _, hp⟩ := exp_sub_coe_real (hg j) r
      obtain ⟨w, hw⟩ := hu j
      exact ⟨p * w, by rw [hp, hw, EReal.coe_mul]⟩
    obtain ⟨c, _, hc⟩ := exp_sub_coe_real (Or.inr ⟨r, rfl⟩ : (r : EReal) = ⊥ ∨ ∃ t : ℝ, (r : EReal) = (t : EReal)) m'
    rw [hc, coe_mul_sum _ c _ hreal]
    refine Finset.sum_congr rfl fun j _ => ?_
    rw [← hc, ← mul_assoc, exp_rescale r m' (hg j)]

/-- The same with all weights `1`. -/
theorem rescale_sum_one (g : ℕ → EReal) (hg : ∀ j, g j = ⊥ ∨ ∃ r : ℝ, g j = (r : EReal))
    (N : ℕ) (m : EReal) (hm : m = ⊥ ∨ ∃ r : ℝ, m = (r : EReal)) (hle : ∀ j < N, g j ≤ m) (m' : ℝ) :
    Ideal.exp (m - (m' : EReal)) * ∑ j ∈ Finset.range N, Ideal.exp (g j - m)
      = ∑ j ∈ Finset.range N, Ideal.exp (g j - (m' : EReal)) := by
  have h := rescale_sum g (fun _ => 1) hg (fun _ => ⟨1, EReal.coe_one.symm⟩) N m hm hle m'
  simpa only [mul_one] using h

/-- A sum over the first `N + W` naturals is the sum over the first `N` plus the sum over the next `W`. -/
theorem sum_range_add_fin (f : ℕ → EReal) (N : ℕ) :
    ∑ j ∈ Finset.range (N + W), f j = ∑ j ∈ Finset.range N, f j + ∑ b : Fin W, f (N + b.val) := by
  rw [Finset.sum_range_add, Finset.sum_range fun x => f (N + x)]

/-! ## The maximum of a tile: an upper bound that is `-∞` or attained -/

theorem le_fold_tile (f : Fin W → EReal) (b : Fin W) : f b ≤ (Finset.univ : Finset (Fin W)).fold max (⊥ : EReal) f :=
  ((Finset.fold_max_le _).mp (le_refl ((Finset.univ : Finset (Fin W)).fold max (⊥ : EReal) f))).2 b (Finset.mem_univ b)

theorem fold_tile_attained (f : Fin W → EReal) :
    (Finset.univ : Finset (Fin W)).fold max (⊥ : EReal) f = ⊥
      ∨ ∃ b, f b = (Finset.univ : Finset (Fin W)).fold max (⊥ : EReal) f := by
  rcases (Finset.le_fold_max _).mp (le_refl ((Finset.univ : Finset (Fin W)).fold max (⊥ : EReal) f)) with h | ⟨b, _, h⟩
  · exact Or.inl (le_bot_iff.mp h)
  · exact Or.inr ⟨b, le_antisymm (le_fold_tile f b) h⟩

/-! ## The invariant of the pass -/

/-- The state `s = (m, l, acc)` is the running softmax of the first `N` columns of the row `g` with values `u`: `m` bounds
    their scores and is `-∞` or one of them, `l` is the sum of `exp (g j - m)` and `acc` the sum of `exp (g j - m) * u j`. -/
def Inv (g u : ℕ → EReal) (N : ℕ) (s : EReal × EReal × EReal) : Prop :=
  (∀ j < N, g j ≤ s.1) ∧ (s.1 = ⊥ ∨ ∃ j < N, g j = s.1) ∧
    s.2.1 = ∑ j ∈ Finset.range N, Ideal.exp (g j - s.1) ∧
    s.2.2 = ∑ j ∈ Finset.range N, Ideal.exp (g j - s.1) * u j

/-- A bound of the first `N` scores that is `-∞` or one of them is `-∞` or a real. -/
theorem Inv.max_bot_or_real {g u : ℕ → EReal} {N : ℕ} {s : EReal × EReal × EReal} (h : Inv g u N s)
    (hg : ∀ j, g j = ⊥ ∨ ∃ r : ℝ, g j = (r : EReal)) : s.1 = ⊥ ∨ ∃ r : ℝ, s.1 = (r : EReal) := by
  rcases h.2.1 with e | ⟨j, _, e⟩
  · exact Or.inl e
  · rw [← e]; exact hg j

/-- Once the first column, whose score is a real, is among the first `N`, the maximum is a real. -/
theorem Inv.max_real {g u : ℕ → EReal} {N : ℕ} {s : EReal × EReal × EReal} (h : Inv g u N s)
    (hg : ∀ j, g j = ⊥ ∨ ∃ r : ℝ, g j = (r : EReal)) (h0 : ∃ r : ℝ, g 0 = (r : EReal)) (hN : 0 < N) :
    ∃ r : ℝ, s.1 = (r : EReal) := by
  obtain ⟨r0, hr0⟩ := h0
  rcases h.max_bot_or_real hg with e | e
  · have h1 := h.1 0 hN
    rw [e, hr0] at h1
    exact absurd (le_bot_iff.mp h1) (EReal.coe_ne_bot r0)
  · exact e

/-- One tile keeps the invariant: from the first `N` columns to the first `N + W`. -/
theorem Inv.step {g u : ℕ → EReal} (hg : ∀ j, g j = ⊥ ∨ ∃ r : ℝ, g j = (r : EReal))
    (hu : ∀ j, ∃ r : ℝ, u j = (r : EReal)) (h0 : ∃ r : ℝ, g 0 = (r : EReal)) (hW : 0 < W) {N : ℕ}
    (σt vt : Fin W → EReal) (hσt : ∀ b : Fin W, σt b = g (N + b.val)) (hvt : ∀ b : Fin W, vt b = u (N + b.val))
    {s : EReal × EReal × EReal} (h : Inv g u N s) : Inv g u (N + W) (step σt vt s) := by
  obtain ⟨m, l, acc⟩ := s
  have hmbr := h.max_bot_or_real hg
  obtain ⟨h1, h2, h3, h4⟩ := h
  dsimp only at h1 h2 h3 h4 hmbr
  subst h3 h4
  simp only [Cert.Online.step]
  have hF := le_fold_tile σt
  have hFa := fold_tile_attained σt
  generalize (Finset.univ : Finset (Fin W)).fold max (⊥ : EReal) σt = F at hF hFa ⊢
  -- the new maximum bounds the first N + W scores and is -∞ or one of them
  have hA : ∀ j < N + W, g j ≤ max m F := fun j hj => by
    by_cases hjN : j < N
    · exact le_trans (h1 j hjN) (le_max_left _ _)
    · have hb : j - N < W := by omega
      have e : g j = σt ⟨j - N, hb⟩ := by rw [hσt]; congr 1; simp; omega
      rw [e]
      exact le_trans (hF _) (le_max_right _ _)
  have hB : max m F = ⊥ ∨ ∃ j < N + W, g j = max m F := by
    rcases max_choice m F with e | e
    · rw [e]
      rcases h2 with e' | ⟨j, hj, e'⟩
      · exact Or.inl e'
      · exact Or.inr ⟨j, by omega, e'⟩
    · rw [e]
      rcases hFa with e' | ⟨b, e'⟩
      · exact Or.inl e'
      · exact Or.inr ⟨N + b.val, by omega, by rw [← hσt, e']⟩
  -- so it is a real, the first column being among them
  have hI : Inv g u (N + W) (max m F, ∑ j ∈ Finset.range (N + W), Ideal.exp (g j - max m F),
      ∑ j ∈ Finset.range (N + W), Ideal.exp (g j - max m F) * u j) := ⟨hA, hB, rfl, rfl⟩
  obtain ⟨r', hr'⟩ := hI.max_real hg h0 (by omega)
  dsimp only at hr'
  refine ⟨hA, hB, ?_, ?_⟩
  · show Ideal.exp (m - max m F) * (∑ j ∈ Finset.range N, Ideal.exp (g j - m)) + ∑ b, Ideal.exp (σt b - max m F)
      = ∑ j ∈ Finset.range (N + W), Ideal.exp (g j - max m F)
    rw [hr', rescale_sum_one g hg N m hmbr h1 r', sum_range_add_fin]
    simp only [hσt]
  · show Ideal.exp (m - max m F) * (∑ j ∈ Finset.range N, Ideal.exp (g j - m) * u j)
        + ∑ b, Ideal.exp (σt b - max m F) * vt b
      = ∑ j ∈ Finset.range (N + W), Ideal.exp (g j - max m F) * u j
    rw [hr', rescale_sum g u hg hu N m hmbr h1 r', sum_range_add_fin]
    simp only [hσt, hvt]

/-- The pass over tiles that read the row `g` with values `u` keeps the invariant: after `n` tiles the state is the
    running softmax of the first `n * W` columns. -/
theorem run_inv {g u : ℕ → EReal} (hg : ∀ j, g j = ⊥ ∨ ∃ r : ℝ, g j = (r : EReal))
    (hu : ∀ j, ∃ r : ℝ, u j = (r : EReal)) (h0 : ∃ r : ℝ, g 0 = (r : EReal)) (hW : 0 < W)
    (τ ω : ℕ → Fin W → EReal) (K : ℕ) (hτ : ∀ a < K, ∀ b : Fin W, τ a b = g (W * a + b.val))
    (hω : ∀ a < K, ∀ b : Fin W, ω a b = u (W * a + b.val)) :
    ∀ n ≤ K, Inv g u (n * W) (run τ ω n) := by
  intro n
  induction n with
  | zero =>
    intro _
    refine ⟨fun j hj => ?_, Or.inl rfl, ?_, ?_⟩
    · omega
    · simp [run]
    · simp [run]
  | succ n ih =>
    intro hn
    have hn' : n < K := hn
    rw [Nat.succ_mul]
    exact Inv.step hg hu h0 hW (τ n) (ω n) (fun b => by rw [hτ n hn' b, Nat.mul_comm])
      (fun b => by rw [hω n hn' b, Nat.mul_comm]) (ih (Nat.le_of_lt hn'))

/-! ## The row read at a natural-number column -/

/-- Column `n` of a row of `T * W` entries, with the value `d` past the row's end. -/
def rowAt (T : ℕ) (f : Fin (T * W) → EReal) (d : EReal) (n : ℕ) : EReal :=
  if h : n < T * W then f ⟨n, h⟩ else d

theorem rowAt_of_lt (T : ℕ) (f : Fin (T * W) → EReal) (d : EReal) {n : ℕ} (h : n < T * W) :
    rowAt T f d n = f ⟨n, h⟩ := dif_pos h

theorem rowAt_val (T : ℕ) (f : Fin (T * W) → EReal) (d : EReal) (i : Fin (T * W)) : rowAt T f d i.val = f i :=
  rowAt_of_lt T f d i.isLt

/-- THE LAW. `acc / l` after tiles `0 … k` is the softmax-weighted sum over all `T * W` columns. -/
theorem online_eq (T k : ℕ) (hk : k < T) (hW : 0 < W) (σ v : Fin (T * W) → EReal)
    (hσ : ∀ j, σ j = ⊥ ∨ ∃ r : ℝ, σ j = (r : EReal))
    (h0 : ∃ r : ℝ, σ ⟨0, Nat.mul_pos (Nat.zero_lt_of_lt hk) hW⟩ = (r : EReal))
    (hmask : ∀ j : Fin (T * W), (k + 1) * W ≤ j.val → σ j = ⊥)
    (hv : ∀ j, ∃ r : ℝ, v j = (r : EReal)) :
    Ideal.div (run (tileAt T σ) (tileAt T v) (k + 1)).2.2 (run (tileAt T σ) (tileAt T v) (k + 1)).2.1
      = soft σ v := by
  have hN : (k + 1) * W ≤ T * W := Nat.mul_le_mul_right W hk
  have hpos : 0 < (k + 1) * W := Nat.mul_pos (Nat.succ_pos k) hW
  -- the row of scores and the row of values as functions of a natural-number column
  have hg : ∀ j, rowAt T σ ⊥ j = ⊥ ∨ ∃ r : ℝ, rowAt T σ ⊥ j = (r : EReal) := fun j => by
    unfold rowAt
    split
    · exact hσ _
    · exact Or.inl rfl
  have hu : ∀ j, ∃ r : ℝ, rowAt T v 0 j = (r : EReal) := fun j => by
    unfold rowAt
    split
    · exact hv _
    · exact ⟨0, EReal.coe_zero.symm⟩
  have hg0 : ∃ r : ℝ, rowAt T σ ⊥ 0 = (r : EReal) := by
    rw [rowAt_of_lt T σ ⊥ (lt_of_lt_of_le hpos hN)]
    exact h0
  have hτ : ∀ a < k + 1, ∀ b : Fin W, tileAt T σ a b = rowAt T σ ⊥ (W * a + b.val) := fun _ _ _ => rfl
  have hω : ∀ a < k + 1, ∀ b : Fin W, tileAt T v a b = rowAt T v 0 (W * a + b.val) := fun a ha b => by
    have hlt : W * a + b.val < T * W := by
      have hb := b.isLt
      calc W * a + b.val < W * a + W := by omega
        _ = (a + 1) * W := by ring
        _ ≤ (k + 1) * W := Nat.mul_le_mul_right W ha
        _ ≤ T * W := hN
    rw [tileAt_of_lt T v a b hlt, rowAt_of_lt T v 0 hlt]
  -- the invariant after tiles 0 … k
  have hI := run_inv hg hu hg0 hW (tileAt T σ) (tileAt T v) (k + 1) hτ hω (k + 1) le_rfl
  obtain ⟨mr, hmr⟩ := hI.max_real hg hg0 hpos
  obtain ⟨h1, h2, h3, h4⟩ := hI
  rw [h4, h3, hmr]
  rw [hmr] at h1 h2
  -- the maximum is the score of a column j0
  obtain ⟨j0, hj0, hj0e⟩ := h2.resolve_left (EReal.coe_ne_bot mr)
  have hj0T : j0 < T * W := lt_of_lt_of_le hj0 hN
  -- and is the maximum over all columns
  have hM : (Finset.univ : Finset (Fin (T * W))).fold max (⊥ : EReal) σ = (mr : EReal) := by
    apply le_antisymm
    · refine (Finset.fold_max_le _).mpr ⟨bot_le, fun x _ => ?_⟩
      by_cases hx : x.val < (k + 1) * W
      · have h1x := h1 x.val hx
        rwa [rowAt_val] at h1x
      · rw [hmask x (not_lt.mp hx)]
        exact bot_le
    · refine (Finset.le_fold_max _).mpr (Or.inr ⟨⟨j0, hj0T⟩, Finset.mem_univ _, ?_⟩)
      rw [← hj0e, rowAt_of_lt T σ ⊥ hj0T]
  -- a sum over the first (k + 1) * W columns is the sum over all columns: the scores after them are -∞
  have hsum : ∀ w : ℕ → EReal, ∑ j ∈ Finset.range ((k + 1) * W), Ideal.exp (rowAt T σ ⊥ j - (mr : EReal)) * w j
      = ∑ i : Fin (T * W), Ideal.exp (σ i - (mr : EReal)) * w i.val := fun w => by
    have e1 : ∑ j ∈ Finset.range ((k + 1) * W), Ideal.exp (rowAt T σ ⊥ j - (mr : EReal)) * w j
        = ∑ j ∈ Finset.range (T * W), Ideal.exp (rowAt T σ ⊥ j - (mr : EReal)) * w j :=
      Finset.sum_subset (Finset.range_mono hN) fun j hj hnj => by
        have hjT : j < T * W := Finset.mem_range.mp hj
        have hjN : (k + 1) * W ≤ j := not_lt.mp fun h => hnj (Finset.mem_range.mpr h)
        rw [rowAt_of_lt T σ ⊥ hjT, hmask ⟨j, hjT⟩ hjN, EReal.bot_sub, Ideal.exp_bot, zero_mul]
    rw [e1, Finset.sum_range]
    exact Finset.sum_congr rfl fun i _ => by rw [rowAt_val]
  -- real witnesses of the weights and the values
  choose p hp0 hp using fun i => exp_sub_coe_real (hσ i) mr
  choose vr hvr using hv
  have hden : ∑ i, Ideal.exp (σ i - (mr : EReal)) = ((∑ i, p i : ℝ) : EReal) := by
    rw [Cert.RealSums.coe_sum]
    exact Finset.sum_congr rfl fun i _ => hp i
  have hl : ∑ j ∈ Finset.range ((k + 1) * W), Ideal.exp (rowAt T σ ⊥ j - (mr : EReal)) = ((∑ i, p i : ℝ) : EReal) := by
    have h := hsum fun _ => 1
    simp only [mul_one] at h
    rw [h, hden]
  have hacc : ∑ j ∈ Finset.range ((k + 1) * W), Ideal.exp (rowAt T σ ⊥ j - (mr : EReal)) * rowAt T v 0 j
      = ∑ i, (p i : EReal) * (vr i : EReal) := by
    rw [hsum]
    exact Finset.sum_congr rfl fun i _ => by rw [rowAt_val, hp, hvr]
  -- the normaliser is positive: column j0 contributes exp 0 = 1
  have hLpos : 0 < ∑ i, p i := by
    have h1' : p ⟨j0, hj0T⟩ = 1 := by
      have h := hp ⟨j0, hj0T⟩
      rw [← rowAt_of_lt T σ ⊥ hj0T, hj0e, ← EReal.coe_sub, sub_self, Ideal.exp_coe, Real.exp_zero] at h
      exact (EReal.coe_eq_coe_iff.mp h).symm
    calc (0 : ℝ) < 1 := one_pos
      _ = p ⟨j0, hj0T⟩ := h1'.symm
      _ ≤ ∑ i, p i := Finset.single_le_sum (fun i _ => hp0 i) (Finset.mem_univ _)
  rw [hl, hacc, Cert.RealSums.div_sum_eq_sum_div _ p vr _ (ne_of_gt hLpos)]
  unfold soft
  rw [hM, hden]
  exact Finset.sum_congr rfl fun i _ => by rw [hp, hvr]

end Cert.Online

end
-- ==== Proof.Spec.lean ====
import Idealize.ShloMosaic.PureOps.Ideal
import proofs.«425609_j70892730187993_3_alg».proof.Proof.Online

/-!
# Causal single-head attention, entry by entry

For activations `X[b, t, c]` (8 batch entries, 2048 positions, 1024 channels) and three weight matrices
`Wq, Wk, Wv[c, h]` (1024 channels, 128 head channels): the projections `proj W b t h = Σ_c X[b,t,c] · W[c,h]`, the
scaled score of position `t` against position `j`, `(Σ_h q[b,t,h] · k[b,j,h]) · 2⁻⁵` (the scale is the 32-bit word of
`1024^(-1/2)`), masked to `-∞` where `j` lies after `t`, and the output `out[b,t,h]`, the softmax of row `(b, t)` of the
masked scores weighting the values `v[b, ·, h]`. All sums, the exponential and the division are those of the extended
reals at the ideal instance.
-/

noncomputable section

namespace Cert.Spec

open Idealize.ShloMosaic
open scoped BigOperators

/-- The score scale, `1024^(-1/2) = 2⁻⁵`, as the 32-bit word both programs carry. -/
abbrev scaleW : EReal := Ideal.ofBits .f32 0x3D000000#32

variable (X : Fin 8 → Fin 2048 → Fin 1024 → EReal) (Wq Wk Wv : Fin 1024 → Fin 128 → EReal)

/-- A projection of the activations by a weight matrix. -/
def proj (W : Fin 1024 → Fin 128 → EReal) (b : Fin 8) (t : Fin 2048) (h : Fin 128) : EReal :=
  ∑ c : Fin 1024, X b t c * W c h

/-- The scaled score of query position `t` against key position `j`. -/
def score (b : Fin 8) (t j : Fin 2048) : EReal :=
  (∑ h : Fin 128, proj X Wq b t h * proj X Wk b j h) * scaleW

/-- The causal mask: a key position after the query position scores `-∞`. -/
def masked (b : Fin 8) (t j : Fin 2048) : EReal :=
  if j.val ≤ t.val then score X Wq Wk b t j else ⊥

/-- The attention output: the softmax of the masked row weighting the values. -/
def out (b : Fin 8) (t : Fin 2048) (h : Fin 128) : EReal :=
  Online.soft (masked X Wq Wk b t) (fun j => proj X Wv b j h)

end Cert.Spec

end
-- ==== Proof.LibPlainDot.lean ====
/-
  A plain product of two matrices at the ideal values, read at an entry.

  `DotDims.plain M K N` contracts the second axis of an `[M, K]` array with the first axis of a `[K, N]` array.
  At `Ideal` both a matrix unit's product onto a zero accumulator and the host's `dot_general` with these
  dimension numbers are, at entry `(i, j)`, the sum over `k < K` of `l (i, k) · r (k, j)` on the extended reals:
  the contraction index of a one-axis contraction is that axis's coordinate, the left operand is read at
  (row of the result, k) and the right operand at (k, column of the result). General in `M`, `K`, `N` and in the
  two operands' float formats.
-/
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

variable {M K N : Nat}

/-- The left operand's index at result `i`, contraction index `q`: row `i 0`, -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- column the contracted coordinate. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's index: row the contracted coordinate, -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- column `i 1`. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product at entry `(i, j)`, re-indexed by the contracted coordinate. -/
theorem sum_plain {α : Type} [AddCommMonoid α] (f : (⟨2, ![M, K]⟩ : Shape).Idx → (⟨2, ![K, N]⟩ : Shape).Idx → α)
    (i : Fin M) (j : Fin N) :
    ∑ q : (DotDims.plain M K N).contr.Idx,
        f ((DotDims.plain M K N).lhsIdx (ix2 i j) q) ((DotDims.plain M K N).rhsIdx (ix2 i j) q)
      = ∑ k : Fin K, f (ix2 i k) (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_0 _ _
      | ⟨1, _⟩ => exact (lhs_1 _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_0 _ _).trans hk
      | ⟨1, _⟩ => exact rhs_1 _ _)
  rw [el, er]

/-- A matrix unit's plain product onto a zero accumulator, at entry `(i, j)`. -/
theorem matmul_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant (F := Ideal) ⟨2, ![M, N]⟩ .f32 0x00000000#32) (ix2 i j)
      = ∑ k : Fin K, l (ix2 i k) * r (ix2 k j) := by
  rw [Ideal.matmul_constant_zero_apply]
  exact sum_plain (fun a b => l a * r b) i j

/-- The host's plain `dot_general`, at entry `(i, j)`. -/
theorem dotGeneral_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j)
      = ∑ k : Fin K, l (ix2 i k) * r (ix2 k j) := by
  rw [Ideal.dotGeneral_apply]
  exact sum_plain (fun a b => l a * r b) i j

end Idealize.ShloMosaic.PlainDot

end
-- ==== Proof.LibColumn.lean ====
/-
  A column kept as a unit axis: the two layout steps of a row reduction with `keepdims`.

  A length-`a` vector cast to an `[a, 1]` column reads, at `(i, 0)`, the vector at `i`; an `[a, 1]` column broadcast
  to `[a, b]` reads, at `(i, j)`, the column at `(i, 0)`. General in `a` and `b` and in the element type.
  Also the two float words a row maximum and a reciprocal start from: −∞ and 1.
-/
import Idealize.ShloMosaic.Lib.Pipeline.Value
import Idealize.ShloMosaic.Lib.ValueIdx
import Idealize.ShloMosaic.PureOps.Ideal

noncomputable section

namespace Idealize.ShloMosaic.Column

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- The f32 word `0xFF800000` denotes −∞. -/
theorem ofBits_negInf_f32 : Ideal.ofBits .f32 0xFF800000#32 = (⊥ : EReal) := by
  simp [Ideal.ofBits, Ideal.ieee]

/-- The f32 word `0x3F800000` denotes 1. -/
theorem ofBits_one_f32 : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h, EReal.coe_one]

end Idealize.ShloMosaic.Column

end
-- ==== Proof.TileIdx.lean ====
import proofs.«425609_j70892730187993_3_alg».proof.Proof.Tiles
import proofs.«425609_j70892730187993_3_alg».proof.Proof.Online
import proofs.«425609_j70892730187993_3_alg».proof.Proof.Spec
import proofs.«425609_j70892730187993_3_alg».proof.Proof.LibPlainDot
import proofs.«425609_j70892730187993_3_alg».proof.Proof.LibColumn
import proofs.«425609_j70892730187993_3_alg».proof.Proof.LibRealSums
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.StableHlo.Predicate

/-!
# The tile arithmetic read at an index, over the extended reals

At the ideal instance each of the kernel's tile operations, read at one row `r` (and one head channel `h`, or one key
column `j`), is the scalar operation of the running softmax: the scaled query is the query times `2⁻⁵`; a score is the
sum over the head channels; the mask keeps columns at or before the row; one step of the state `(m, l, acc)` at
`(r, h)` is `Online.step` on row `r` of the scores and column `h` of the values; the initial state is `(-∞, 0, 0)`; the
output is `acc / l`.
-/

set_option maxRecDepth 16384

noncomputable section

namespace Cert.KernelIdeal.TileIdx

open Cert.KernelIdeal Cert.KernelIdeal.Gen Cert.KernelIdeal.Tiles
open Idealize.ShloMosaic Idealize.ShloMosaic.TcCoe Idealize.ShloMosaic.ValueIdx
open scoped BigOperators

/-- The named constant is `-∞` at the ideal instance, by the certificate's table. -/
theorem negC_eq : (negC (F := Ideal)) = (⊥ : EReal) :=
  IdealRules.named_const.ideal_named_scalar _ _ _ _ rfl

/-- A scaled query entry. -/
theorem qs_apply (q : Vec Ideal S512x128 .bf16) (r : Fin 512) (h : Fin 128) :
    qs q (ix2 r h) = q (ix2 r h) * Spec.scaleW := rfl

/-! ## The score contraction: the operand indices, axis by axis -/

theorem lhs_qk_0 (i : S512x512.Idx) (q : dot_S512x128_S512x128_S512x512_1_1_0_0_n_n.contr.Idx) :
    (dot_S512x128_S512x128_S512x512_1_1_0_0_n_n.lhsIdx i q 0).val = (i 0).val := by
  unfold DotDims.lhsIdx
  rw [dif_neg (show ¬(0 : Fin S512x128.rank) ∈ dot_S512x128_S512x128_S512x512_1_1_0_0_n_n.lhsBatch by decide),
    dif_pos (show (0 : Fin S512x128.rank) ∈ dot_S512x128_S512x128_S512x512_1_1_0_0_n_n.lhsNonContracting by decide)]
  rfl
theorem lhs_qk_1 (i : S512x512.Idx) (q : dot_S512x128_S512x128_S512x512_1_1_0_0_n_n.contr.Idx) :
    (dot_S512x128_S512x128_S512x512_1_1_0_0_n_n.lhsIdx i q 1).val = (q ⟨0, by decide⟩).val :=
  dot_S512x128_S512x128_S512x512_1_1_0_0_n_n.lhsIdx_val_of_single rfl i q
theorem rhs_qk_0 (i : S512x512.Idx) (q : dot_S512x128_S512x128_S512x512_1_1_0_0_n_n.contr.Idx) :
    (dot_S512x128_S512x128_S512x512_1_1_0_0_n_n.rhsIdx i q 0).val = (i 1).val := by
  unfold DotDims.rhsIdx
  rw [dif_neg (show ¬(0 : Fin S512x128.rank) ∈ dot_S512x128_S512x128_S512x512_1_1_0_0_n_n.rhsBatch by decide),
    dif_pos (show (0 : Fin S512x128.rank) ∈ dot_S512x128_S512x128_S512x512_1_1_0_0_n_n.rhsNonContracting by decide)]
  rfl
theorem rhs_qk_1 (i : S512x512.Idx) (q : dot_S512x128_S512x128_S512x512_1_1_0_0_n_n.contr.Idx) :
    (dot_S512x128_S512x128_S512x512_1_1_0_0_n_n.rhsIdx i q 1).val = (q ⟨0, by decide⟩).val :=
  dot_S512x128_S512x128_S512x512_1_1_0_0_n_n.rhsIdx_val_of_single rfl i q

/-- A score: the contraction over the head channels of query row `r` and key row `j`. -/
theorem sc_apply (q k : Vec Ideal S512x128 .bf16) (r j : Fin 512) :
    sc q k (ix2 r j) = ∑ h : Fin 128, q (ix2 r h) * k (ix2 j h) := by
  unfold sc
  simp only [matmul]
  rw [Ideal.matmul_constant_zero_apply,
    ← Equiv.sum_comp (contrEquiv1 dot_S512x128_S512x128_S512x512_1_1_0_0_n_n 128 rfl rfl).symm]
  refine Finset.sum_congr rfl fun h _ => ?_
  have hk := contrEquiv1_symm_val dot_S512x128_S512x128_S512x512_1_1_0_0_n_n 128 rfl rfl h
  have el : dot_S512x128_S512x128_S512x512_1_1_0_0_n_n.lhsIdx (ix2 r j)
      ((contrEquiv1 dot_S512x128_S512x128_S512x512_1_1_0_0_n_n 128 rfl rfl).symm h) = ix2 r h :=
    funext fun a => Fin.ext (by
      match a with
      | ⟨0, _⟩ => exact lhs_qk_0 _ _
      | ⟨1, _⟩ => exact (lhs_qk_1 _ _).trans hk)
  have er : dot_S512x128_S512x128_S512x512_1_1_0_0_n_n.rhsIdx (ix2 r j)
      ((contrEquiv1 dot_S512x128_S512x128_S512x512_1_1_0_0_n_n 128 rfl rfl).symm h) = ix2 j h :=
    funext fun a => Fin.ext (by
      match a with
      | ⟨0, _⟩ => exact rhs_qk_0 _ _
      | ⟨1, _⟩ => exact (rhs_qk_1 _ _).trans hk)
  rw [el, er]

/-! ## The causal mask -/

/-- The mask's bit at (r, j): the signed comparison of the two position words, set exactly when j ≤ r. -/
theorem mask_bit_iff (r j : Fin 512) :
    IntOp.cmpi .sge (BitVec.ofNat 32 r.val) (BitVec.ofNat 32 j.val) = 1#1 ↔ j.val ≤ r.val := by
  have hr : (BitVec.ofNat 32 r.val).toNat = r.val := by
    rw [BitVec.toNat_ofNat]; exact Nat.mod_eq_of_lt (by have := r.isLt; omega)
  have hj : (BitVec.ofNat 32 j.val).toNat = j.val := by
    rw [BitVec.toNat_ofNat]; exact Nat.mod_eq_of_lt (by have := j.isLt; omega)
  have h := StableHlo.Predicate.sge_iff_toNat (a := BitVec.ofNat 32 r.val) (b := BitVec.ofNat 32 j.val)
    (by rw [hr]; have := r.isLt; omega) (by rw [hj]; have := j.isLt; omega)
  rw [hr, hj] at h
  exact h

/-- The diagonal tile's mask keeps column `j` of row `r` when `j ≤ r`. -/
theorem mk_apply (s : FVec Ideal S512x512 .f32) (r j : Fin 512) :
    mk s (ix2 r j) = if j.val ≤ r.val then s (ix2 r j) else (⊥ : EReal) := by
  unfold mk
  rw [select_apply, broadcast_apply, negC_eq]
  show Scalar.select (IntOp.cmpi .sge (iota .tc S512x512 32 [0] iota_S512x512_d0_w32 (ix2 r j))
    (iota .tc S512x512 32 [1] iota_S512x512_d1_w32 (ix2 r j))) _ _ = _
  rw [iota_single_apply, iota_single_apply]
  show Scalar.select (IntOp.cmpi .sge (BitVec.ofNat 32 r.val) (BitVec.ofNat 32 j.val)) _ _ = _
  by_cases hc : j.val ≤ r.val
  · rw [(mask_bit_iff r j).mpr hc, select_one, if_pos hc]
  · rw [eq_zero_of_ne_one (fun h => hc ((mask_bit_iff r j).mp h)), select_zero, if_neg hc]

/-- The initial state at `(r, h)`. -/
theorem st0_apply (r : Fin 512) (h : Fin 128) :
    ((st0 (F := Ideal)).m (ix2 r (0 : Fin 1)), (st0 (F := Ideal)).l (ix2 r (0 : Fin 1)), (st0 (F := Ideal)).acc (ix2 r h))
      = ((⊥ : EReal), (0 : EReal), (0 : EReal)) := by
  have hm : (st0 (F := Ideal)).m (ix2 r (0 : Fin 1)) = (⊥ : EReal) := negC_eq
  have hl : (st0 (F := Ideal)).l (ix2 r (0 : Fin 1)) = (0 : EReal) := Ideal.ofBits_zero_f32
  have ha : (st0 (F := Ideal)).acc (ix2 r h) = (0 : EReal) := Ideal.ofBits_zero_f32
  rw [hm, hl, ha]

/-! ## One step of the running softmax, piece by piece -/

/-- Row r of a 512 × 512 array with column k put back is (r, k). -/
theorem lift_row (hred : S512x512.Reduces [1] S512) (r : Fin 512) (k : Fin (S512x512.size 1)) :
    hred.lift (ix1 r) k = ix2 r (⟨k.val, k.isLt⟩ : Fin 512) := by
  funext c; apply Fin.ext
  fin_cases c <;> rfl

/-- A row's maximum: the lane maximum from the word of -∞, at row r, is the fold of max from -∞ over the row. -/
theorem rowmax_apply (s : FVec Ideal S512x512 .f32) (hred : S512x512.Reduces [1] S512) (hφ : FKind.Formats .f32)
    (hacc : (0xFF800000#32 : BitVec 32) = 0xFF800000#32) (r : Fin 512) :
    multiReduction (F := Ideal) .maximumf [1] S512 s 0xFF800000#32 hred hφ hacc (ix1 r)
      = (Finset.univ : Finset (Fin 512)).fold max (⊥ : EReal) fun j => s (ix2 r j) := by
  refine (Ideal.multiReduction_maximumf_single s 0xFF800000#32 hred hφ hacc (ix1 r)).trans ?_
  have hf : (s ∘ hred.lift (ix1 r)) = fun k : Fin 512 => s (ix2 r k) :=
    funext fun k => congrArg s (lift_row hred r k)
  rw [hf]
  show Finset.fold max (Ideal.ofBits .f32 0xFF800000#32) _ _ = _
  rw [Column.ofBits_negInf_f32]
  rfl

/-- A row's sum: the lane sum from the zero word, at row r, is the sum over the row. -/
theorem rowsum_apply (p : FVec Ideal S512x512 .f32) (hred : S512x512.Reduces [1] S512) (hφ : FKind.Formats .f32)
    (hacc : (0x00000000#32 : BitVec 32) = 0x00000000#32) (r : Fin 512) :
    multiReduction (F := Ideal) .add [1] S512 p 0x00000000#32 hred hφ hacc (ix1 r) = ∑ j : Fin 512, p (ix2 r j) := by
  refine (Ideal.multiReduction_add_single p 0x00000000#32 hred hφ hacc (ix1 r)).trans ?_
  exact Finset.sum_congr rfl fun k _ => congrArg p (lift_row hred r k)

/-- The running maximum at row r: the larger of the old maximum and the row's maximum folded from -∞. -/
theorem mx_apply (m : FVec Ideal S512x1 .f32) (s : FVec Ideal S512x512 .f32) (r : Fin 512) :
    mx m s (ix2 r (0 : Fin 1))
      = max (m (ix2 r (0 : Fin 1))) ((Finset.univ : Finset (Fin 512)).fold max (⊥ : EReal) fun j => s (ix2 r j)) := by
  unfold mx
  rw [maximumf_apply, Column.shapeCast_a_a1_apply]
  exact congrArg (max _) (rowmax_apply s _ _ _ r)

/-- The rescaling factor at row r. -/
theorem al_apply (m m' : FVec Ideal S512x1 .f32) (r : Fin 512) :
    al m m' (ix2 r (0 : Fin 1)) = Ideal.exp (m (ix2 r (0 : Fin 1)) - m' (ix2 r (0 : Fin 1))) := rfl

/-- A weight of the tile at (r, j). -/
theorem pp_apply (s : FVec Ideal S512x512 .f32) (m' : FVec Ideal S512x1 .f32) (r j : Fin 512) :
    pp s m' (ix2 r j) = Ideal.exp (s (ix2 r j) - m' (ix2 r (0 : Fin 1))) := by
  unfold pp
  show Ideal.exp (s (ix2 r j) - broadcastTo S512x512 m' broadcasts_S512x1_S512x512 (ix2 r j)) = _
  rw [Column.broadcastTo_a1_ab_apply]

/-- The running normaliser at row r. -/
theorem ll_apply (a l : FVec Ideal S512x1 .f32) (p : FVec Ideal S512x512 .f32) (r : Fin 512) :
    ll a l p (ix2 r (0 : Fin 1))
      = a (ix2 r (0 : Fin 1)) * l (ix2 r (0 : Fin 1)) + ∑ j : Fin 512, p (ix2 r j) := by
  unfold ll
  rw [addf_apply, mulf_apply, Column.shapeCast_a_a1_apply]
  exact congrArg (_ + ·) (rowsum_apply p _ _ _ r)

/-- The weights-by-values contraction is the plain product of a 512 × 512 array and a 512 × 128 array. -/
theorem dot_pv_eq : dot_S512x512_S512x128_S512x128_1_0_0_1_n_n = DotDims.plain 512 512 128 := rfl

/-- The running weighted sum at (r, h). -/
theorem aa_apply (a : FVec Ideal S512x1 .f32) (acc : FVec Ideal S512x128 .f32) (p : FVec Ideal S512x512 .f32)
    (v : Vec Ideal S512x128 .bf16) (r : Fin 512) (h : Fin 128) :
    aa a acc p v (ix2 r h)
      = a (ix2 r (0 : Fin 1)) * acc (ix2 r h) + ∑ j : Fin 512, p (ix2 r j) * v (ix2 j h) := by
  unfold aa
  rw [addf_apply, mulf_apply, Column.broadcastTo_a1_ab_apply]
  refine congrArg (fun x : EReal => a (ix2 r (0 : Fin 1)) * acc (ix2 r h) + x) ?_
  simp only [matmul]
  exact PlainDot.matmul_zero_apply (M := 512) (K := 512) (N := 128) none (truncf .bf16 p bitsLt_bf16_f32) v r h

/-- One key tile, at `(r, h)`: the scalar step on row `r` of the scores and column `h` of the values. -/
theorem stp_apply (st : St Ideal) (s : FVec Ideal S512x512 .f32) (v : Vec Ideal S512x128 .bf16) (r : Fin 512) (h : Fin 128) :
    ((stp st s v).m (ix2 r (0 : Fin 1)), (stp st s v).l (ix2 r (0 : Fin 1)), (stp st s v).acc (ix2 r h))
      = Online.step (W := 512) (fun j : Fin 512 => s (ix2 r j)) (fun j : Fin 512 => v (ix2 j h))
          (st.m (ix2 r (0 : Fin 1)), st.l (ix2 r (0 : Fin 1)), st.acc (ix2 r h)) := by
  have hm : (stp st s v).m (ix2 r (0 : Fin 1))
      = max (st.m (ix2 r (0 : Fin 1))) ((Finset.univ : Finset (Fin 512)).fold max (⊥ : EReal) fun j => s (ix2 r j)) :=
    mx_apply st.m s r
  have hl : (stp st s v).l (ix2 r (0 : Fin 1))
      = Ideal.exp (st.m (ix2 r (0 : Fin 1)) - mx st.m s (ix2 r (0 : Fin 1))) * st.l (ix2 r (0 : Fin 1))
        + ∑ j : Fin 512, Ideal.exp (s (ix2 r j) - mx st.m s (ix2 r (0 : Fin 1))) := by
    show ll (al st.m (mx st.m s)) st.l (pp s (mx st.m s)) (ix2 r (0 : Fin 1)) = _
    rw [ll_apply, al_apply]
    exact congrArg (_ + ·) (Finset.sum_congr rfl fun j _ => pp_apply s _ r j)
  have ha : (stp st s v).acc (ix2 r h)
      = Ideal.exp (st.m (ix2 r (0 : Fin 1)) - mx st.m s (ix2 r (0 : Fin 1))) * st.acc (ix2 r h)
        + ∑ j : Fin 512, Ideal.exp (s (ix2 r j) - mx st.m s (ix2 r (0 : Fin 1))) * v (ix2 j h) := by
    show aa (al st.m (mx st.m s)) st.acc (pp s (mx st.m s)) v (ix2 r h) = _
    rw [aa_apply, al_apply]
    exact congrArg (_ + ·) (Finset.sum_congr rfl fun j _ => by rw [pp_apply])
  rw [hm, hl, ha, mx_apply]
  rfl

/-- The tile's output at `(0, r, h)`. -/
theorem tileOut_apply (st : St Ideal) (r : Fin 512) (h : Fin 128) :
    tileOut st (ix3 (0 : Fin 1) r h) = Ideal.div (st.acc (ix2 r h)) (st.l (ix2 r (0 : Fin 1))) := by
  unfold tileOut
  rw [shapeCast_ab_1ab_apply, divf_apply, Column.broadcastTo_a1_ab_apply]

end Cert.KernelIdeal.TileIdx

end
-- ==== Proof.LibTiles.lean ====
/-
  Concatenations whose pieces are an explicit list of vectors of ONE shape, read at an index: the piece is named by the
  axis coordinate divided by the pieces' common extent, the position inside it by the remainder. And the case where the
  pieces are tiles of equal width cut from one matrix at a list of column offsets: the concatenation read at row `r`,
  column `k·T + b` is the matrix at row `r`, column `offs[k] + b`.
-/
import Idealize.ShloMosaic.Lib.Pipeline.Value

namespace Idealize.ShloMosaic

/-- A list mapped through `g` is the list, by position, of `g` of its entries. -/
theorem map_eq_ofFn_get {β γ : Type _} (g : β → γ) (vs : List β) :
    vs.map g = List.ofFn fun n : Fin vs.length => g (vs.get n) := by
  apply List.ext_get
  · simp
  · intro k h₁ h₂
    simp

/-- A concatenation of an explicit list `vs` of vectors OF ONE SHAPE `s₁`, whose extent along the axis is `K`, read at an
    index `j`: entry `(j a) / K` of the list, at the index `i` that has `(j a) % K` on the axis and `j`'s coordinates elsewhere. -/
theorem concatenate_map_apply {α : Type} {t s₁ : Shape} (a : Fin t.rank) (vs : List (s₁.Idx → α))
    (h : Shape.Concatenates ((vs.map fun v => (⟨s₁, v⟩ : (s : Shape) × (s.Idx → α))).map (·.1)) t a)
    (hr : s₁.rank = t.rank) (K : Nat) (hK : s₁.size (a.cast hr.symm) = K) (j : t.Idx) (n : Fin vs.length)
    (hn : (j a).val / K = n.val) (i : s₁.Idx) (hia : (i (a.cast hr.symm)).val = (j a).val % K)
    (hi : ∀ b : Fin s₁.rank, b.cast hr ≠ a → (i b).val = (j (b.cast hr)).val) :
    concatenate t a (vs.map fun v => (⟨s₁, v⟩ : (s : Shape) × (s.Idx → α))) h j = vs.get n i := by
  -- the statement for any list equal to the by-position listing of `vs`, where the library's lemma applies as it stands
  have key : ∀ (xs : List ((s : Shape) × (s.Idx → α)))
      (e : xs = List.ofFn fun n : Fin vs.length => (⟨s₁, vs.get n⟩ : (s : Shape) × (s.Idx → α)))
      (hx : Shape.Concatenates (xs.map (·.1)) t a), concatenate t a xs hx j = vs.get n i := by
    intro xs e hx
    subst e
    exact concatenate_ofFn_apply a (fun n => vs.get n) hx hr K hK j n hn i hia hi
  exact key _ (map_eq_ofFn_get (fun v => (⟨s₁, v⟩ : (s : Shape) × (s.Idx → α))) vs) h

/-- A window of `T` columns, all rows, starting at column `off`, lies inside an `R × C` matrix when `off + T ≤ C`. -/
theorem slices_cols {R C T off : Nat} (h : off + T ≤ C) :
    (⟨2, ![R, C]⟩ : Shape).Slices ![0, off] ⟨2, ![R, T]⟩ :=
  ⟨rfl, fun (a : Fin 2) => match a with
    | ⟨0, _⟩ => Nat.le_of_eq (Nat.zero_add R)
    | ⟨1, _⟩ => h⟩

/-- The tiles of width `T` of the matrix `A` at the column offsets `offs`, in the list's order. -/
def colTiles {α : Type} {R C : Nat} (T : Nat) (A : (⟨2, ![R, C]⟩ : Shape).Idx → α) (offs : List Nat)
    (hoffs : ∀ off ∈ offs, off + T ≤ C) : List ((⟨2, ![R, T]⟩ : Shape).Idx → α) :=
  offs.pmap (fun off hoff => extractStridedSlice ⟨2, ![R, T]⟩ ![0, off] A (slices_cols hoff)) hoffs

theorem length_colTiles {α : Type} {R C : Nat} (T : Nat) (A : (⟨2, ![R, C]⟩ : Shape).Idx → α) (offs : List Nat)
    (hoffs : ∀ off ∈ offs, off + T ≤ C) : (colTiles T A offs hoffs).length = offs.length := by
  simp [colTiles]

/-- Tile `k` read at `i` is the matrix at `i`'s row and column `offs[k]` further right. -/
theorem colTiles_get_apply {α : Type} {R C : Nat} (T : Nat) (A : (⟨2, ![R, C]⟩ : Shape).Idx → α) (offs : List Nat)
    (hoffs : ∀ off ∈ offs, off + T ≤ C) (n : Fin (colTiles T A offs hoffs).length) (k : Fin offs.length) (hnk : n.val = k.val)
    (i : (⟨2, ![R, T]⟩ : Shape).Idx) (x : (⟨2, ![R, C]⟩ : Shape).Idx)
    (hx0 : (x 0).val = (i 0).val) (hx1 : (x 1).val = offs.get k + (i 1).val) :
    (colTiles T A offs hoffs).get n i = A x := by
  have hk : n.val < offs.length := hnk ▸ k.isLt
  have e : (colTiles T A offs hoffs).get n
      = extractStridedSlice ⟨2, ![R, T]⟩ ![0, offs[n.val]] A (slices_cols (hoffs _ (List.getElem_mem hk))) :=
    List.get_eq_getElem.trans
      (List.getElem_pmap (fun off hoff => extractStridedSlice ⟨2, ![R, T]⟩ ![0, off] A (slices_cols hoff)) hoffs n.isLt)
  rw [e]
  refine extractStridedSlice_apply _ A _ i x fun (b : Fin 2) => ?_
  match b with
  | ⟨0, _⟩ => exact hx0.trans (Nat.zero_add _).symm
  | ⟨1, _⟩ =>
    have hcol : offs.get k = offs[n.val] := by simp only [List.get_eq_getElem, hnk]
    show (x 1).val = offs[n.val] + (i 1).val
    exact hx1.trans (congrArg (· + (i 1).val) hcol)

/-- The tiles of width `T > 0` of `A` at the offsets `offs`, concatenated along the columns (axis `1`), read at `j`: with
    `k = (column of j) / T`, the matrix at `j`'s row and column `offs[k] + (column of j) % T`. -/
theorem concatenate_colTiles_apply {α : Type} {R C T : Nat} (hT : 0 < T) (A : (⟨2, ![R, C]⟩ : Shape).Idx → α)
    (offs : List Nat) (hoffs : ∀ off ∈ offs, off + T ≤ C) {t : Shape} (a : Fin t.rank)
    (h : Shape.Concatenates (((colTiles T A offs hoffs).map fun v => (⟨⟨2, ![R, T]⟩, v⟩ : (s : Shape) × (s.Idx → α))).map (·.1)) t a)
    (hr : (⟨2, ![R, T]⟩ : Shape).rank = t.rank) (ha : a = (1 : Fin 2).cast hr)
    (j : t.Idx) (k : Fin offs.length) (hk : (j a).val / T = k.val)
    (x : (⟨2, ![R, C]⟩ : Shape).Idx) (hx0 : (x 0).val = (j ((0 : Fin 2).cast hr)).val)
    (hx1 : (x 1).val = offs.get k + (j a).val % T) :
    concatenate t a ((colTiles T A offs hoffs).map fun v => (⟨⟨2, ![R, T]⟩, v⟩ : (s : Shape) × (s.Idx → α))) h j = A x := by
  subst ha
  -- the position inside the tile: `j`'s row, the column's remainder
  let i : (⟨2, ![R, T]⟩ : Shape).Idx := fun (b : Fin 2) => match b with
    | ⟨0, _⟩ => ⟨(x 0).val, (x 0).isLt⟩
    | ⟨1, _⟩ => ⟨(j ((1 : Fin 2).cast hr)).val % T, Nat.mod_lt _ hT⟩
  let n : Fin (colTiles T A offs hoffs).length := k.cast (length_colTiles T A offs hoffs).symm
  have h1 := concatenate_map_apply ((1 : Fin 2).cast hr) (colTiles T A offs hoffs) h hr T rfl j n hk i rfl
    (fun (b : Fin 2) => match b with
      | ⟨0, _⟩ => fun _ => hx0
      | ⟨1, _⟩ => fun hb => absurd (Fin.ext rfl) hb)
  rw [h1]
  exact colTiles_get_apply T A offs hoffs n k rfl i x rfl hx1

end Idealize.ShloMosaic
-- ==== Proof.ProjIdx.lean ====
import proofs.«425609_j70892730187993_3_alg».proof.Proof.Gen.KernelIdeal.Skeleton
import proofs.«425609_j70892730187993_3_alg».proof.Proof.LibPlainDot
import proofs.«425609_j70892730187993_3_alg».proof.Proof.LibTiles
import Idealize.ShloMosaic.Lib.ValueIdx
import Idealize.ShloMosaic.Lib.ValueLayout
import Idealize.ShloMosaic.Lib.Pipeline.Value
import Idealize.ShloMosaic.PureOps.Ideal.Laws

/-!
# The projection payloads read at an index

The body multiplies a 512-row chunk of the activations by the concatenated weight matrix `[Wq | Wk | Wv]`
(1024 × 384) and stores columns 0–127, 128–255 and 256–383 of the product as the chunk's queries, keys and values.
At the ideal instance, where a change of float format is the identity and a matrix product onto zero is the plain sum,
each stored entry is the sum over the 1024 channels of an activation entry times a weight entry. The concatenation
itself, read at a column, is the matrix that column falls in.
-/

set_option maxRecDepth 16384

noncomputable section

namespace Cert.KernelIdeal.ProjIdx

open Cert.KernelIdeal Cert.KernelIdeal.Gen
open Idealize.ShloMosaic Idealize.ShloMosaic.TcCoe Idealize.ShloMosaic.ValueIdx
open scoped BigOperators

/-- Column `h` of the query, key and value thirds of the concatenated weights. -/
def colQ (h : Fin 128) : Fin 384 := ⟨h.val, by omega⟩
def colK (h : Fin 128) : Fin 384 := ⟨128 + h.val, by omega⟩
def colV (h : Fin 128) : Fin 384 := ⟨256 + h.val, by omega⟩

/-- Row `r` of a chunk against column `col` of the concatenated weights. -/
def projAt (w : Vec Ideal S1024x384 .f32) (xc : Vec Ideal S1x512x1024 .f32) (r : Fin 512) (col : Fin 384) : EReal :=
  ∑ c : Fin 1024, xc (ix3 (0 : Fin 1) r c) * w (ix2 c col)

/-! ## The pieces of a projection payload, each read at an index -/

/-- The product's dimension numbers are the plain `[512, 1024] · [1024, 384]` contraction. -/
theorem dot_eq_plain : dot_S512x1024_S1024x384_S512x384_1_0_0_1_n_n = DotDims.plain 512 1024 384 := rfl

/-- The chunk `[1, 512, 1024]` as a `[512, 1024]` matrix: entry `(r, c)` is the chunk's `(0, r, c)`. -/
theorem chunk_apply (xc : Vec Ideal S1x512x1024 .f32) (r : Fin 512) (c : Fin 1024) :
    shapeCast S512x1024 xc shapeCasts_S1x512x1024_S512x1024 (ix2 r c) = xc (ix3 (0 : Fin 1) r c) := by
  refine shapeCast_apply xc shapeCasts_S1x512x1024_S512x1024 (ix2 r c) (ix3 (0 : Fin 1) r c) ?_
  rw [Shape.rowMajor_val_three, Shape.rowMajor_val_two]
  show ((0 : ℕ) * 512 + r.val) * 1024 + c.val = r.val * 1024 + c.val
  omega

/-- The weights after their cast to the narrow format: at the ideal instance, the weights. -/
theorem wcast_apply (w : Vec Ideal S1024x384 .f32) (c : Fin 1024) (col : Fin 384) :
    k0_pay2 w (ix2 c col) = w (ix2 c col) := by
  unfold k0_pay2
  rw [truncf_apply, shapeCast_self]

/-- The chunk's product with the concatenated weights onto zero, narrowed: at `(r, col)` the plain sum over the
    channels. -/
theorem prod_apply (w : Vec Ideal S1024x384 .f32) (xc : Vec Ideal S1x512x1024 .f32) (r : Fin 512) (col : Fin 384) :
    (truncf .bf16 (matmul dot_S512x1024_S1024x384_S512x384_1_0_0_1_n_n none
        (truncf .bf16 (shapeCast S512x1024 xc shapeCasts_S1x512x1024_S512x1024) bitsLt_bf16_f32) (k0_pay2 w)
        (constant S512x384 .f32 0x00000000#32)) bitsLt_bf16_f32 : FVec Ideal S512x384 .bf16) (ix2 r col)
      = projAt w xc r col := by
  rw [truncf_apply, dot_eq_plain]
  show FloatOps.matmul (DotDims.plain 512 1024 384) none
      (truncf .bf16 (shapeCast S512x1024 xc shapeCasts_S1x512x1024_S512x1024) bitsLt_bf16_f32) (k0_pay2 w)
      (constant (F := Ideal) ⟨2, ![512, 384]⟩ .f32 0x00000000#32) (ix2 r col) = _
  rw [PlainDot.matmul_zero_apply]
  unfold projAt
  refine Finset.sum_congr rfl fun c _ => ?_
  rw [truncf_apply, chunk_apply, wcast_apply]

/-- A window of 128 columns of a `[512, 384]` matrix starting at column `off`, at `(r, h)`: the matrix at
    `(r, off + h)`. -/
theorem slice_apply {φ : FTy} (A : FVec Ideal S512x384 φ) (off : ℕ) (hs : S512x384.Slices ![0, off] S512x128)
    (r : Fin 512) (h : Fin 128) (col : Fin 384) (hcol : col.val = off + h.val) :
    extractStridedSlice S512x128 ![0, off] A hs (ix2 r h) = A (ix2 r col) := by
  refine extractStridedSlice_apply _ A hs (ix2 r h) (ix2 r col) fun (a : Fin 2) => ?_
  match a with
  | ⟨0, _⟩ => exact (Nat.zero_add _).symm
  | ⟨1, _⟩ => exact hcol

/-- The four chunks' narrowed products, at `(r, col)`. -/
theorem prod0_apply (w : Vec Ideal S1024x384 .f32) (xc : Vec Ideal S1x512x1024 .f32) (r : Fin 512) (col : Fin 384) :
    k0_pay3 w xc (ix2 r col) = projAt w xc r col := by
  unfold k0_pay3
  exact prod_apply w xc r col
theorem prod1_apply (w : Vec Ideal S1024x384 .f32) (xc : Vec Ideal S1x512x1024 .f32) (r : Fin 512) (col : Fin 384) :
    k0_pay7 w xc (ix2 r col) = projAt w xc r col := by
  unfold k0_pay7
  exact prod_apply w xc r col
theorem prod2_apply (w : Vec Ideal S1024x384 .f32) (xc : Vec Ideal S1x512x1024 .f32) (r : Fin 512) (col : Fin 384) :
    k0_pay12 (k0_pay2 w) xc (ix2 r col) = projAt w xc r col := by
  unfold k0_pay12
  exact prod_apply w xc r col
theorem prod3_apply (w : Vec Ideal S1024x384 .f32) (xc : Vec Ideal S1x512x1024 .f32) (r : Fin 512) (col : Fin 384) :
    k0_pay16 (k0_pay2 w) xc (ix2 r col) = projAt w xc r col := by
  unfold k0_pay16
  exact prod_apply w xc r col

/-- The three column offsets. -/
theorem colQ_val (h : Fin 128) : (colQ h).val = 0 + h.val := (Nat.zero_add _).symm
theorem colK_val (h : Fin 128) : (colK h).val = 128 + h.val := rfl
theorem colV_val (h : Fin 128) : (colV h).val = 256 + h.val := rfl

variable (w : Vec Ideal S1024x384 .f32) (xc : Vec Ideal S1x512x1024 .f32) (r : Fin 512) (h : Fin 128)

/-- Chunk 0 (the weights cast inside the product). -/
theorem q0_apply : k0_pay4 w xc (ix2 r h) = projAt w xc r (colQ h) := by
  unfold k0_pay4
  rw [shapeCast_self, slice_apply _ _ _ r h (colQ h) (colQ_val h)]
  exact prod0_apply w xc r (colQ h)
theorem k0_apply : k0_pay5 w xc (ix2 r h) = projAt w xc r (colK h) := by
  unfold k0_pay5
  rw [shapeCast_self, slice_apply _ _ _ r h (colK h) (colK_val h)]
  exact prod0_apply w xc r (colK h)
theorem v0_apply : k0_pay6 w xc (ix2 r h) = projAt w xc r (colV h) := by
  unfold k0_pay6
  rw [shapeCast_self, slice_apply _ _ _ r h (colV h) (colV_val h)]
  exact prod0_apply w xc r (colV h)
/-- Chunk 1. -/
theorem q1_apply : k0_pay8 w xc (ix2 r h) = projAt w xc r (colQ h) := by
  unfold k0_pay8
  rw [shapeCast_self, slice_apply _ _ _ r h (colQ h) (colQ_val h)]
  exact prod1_apply w xc r (colQ h)
theorem k1_apply : k0_pay9 w xc (ix2 r h) = projAt w xc r (colK h) := by
  unfold k0_pay9
  rw [shapeCast_self, slice_apply _ _ _ r h (colK h) (colK_val h)]
  exact prod1_apply w xc r (colK h)
theorem v1_apply : k0_pay11 (k0_pay10 w xc) (ix2 r h) = projAt w xc r (colV h) := by
  unfold k0_pay11 k0_pay10
  rw [shapeCast_self, slice_apply _ _ _ r h (colV h) (colV_val h)]
  exact prod1_apply w xc r (colV h)
/-- Chunk 2 (the weights cast once, before the product). -/
theorem q2_apply : k0_pay13 (k0_pay2 w) xc (ix2 r h) = projAt w xc r (colQ h) := by
  unfold k0_pay13
  rw [shapeCast_self, slice_apply _ _ _ r h (colQ h) (colQ_val h)]
  exact prod2_apply w xc r (colQ h)
theorem k2_apply : k0_pay14 (k0_pay2 w) xc (ix2 r h) = projAt w xc r (colK h) := by
  unfold k0_pay14
  rw [shapeCast_self, slice_apply _ _ _ r h (colK h) (colK_val h)]
  exact prod2_apply w xc r (colK h)
theorem v2_apply : k0_pay15 (k0_pay2 w) xc (ix2 r h) = projAt w xc r (colV h) := by
  unfold k0_pay15
  rw [shapeCast_self, slice_apply _ _ _ r h (colV h) (colV_val h)]
  exact prod2_apply w xc r (colV h)
/-- Chunk 3. -/
theorem q3_apply : k0_pay17 (k0_pay2 w) xc (ix2 r h) = projAt w xc r (colQ h) := by
  unfold k0_pay17
  rw [shapeCast_self, slice_apply _ _ _ r h (colQ h) (colQ_val h)]
  exact prod3_apply w xc r (colQ h)
theorem k3_apply : k0_pay18 (k0_pay2 w) xc (ix2 r h) = projAt w xc r (colK h) := by
  unfold k0_pay18
  rw [shapeCast_self, slice_apply _ _ _ r h (colK h) (colK_val h)]
  exact prod3_apply w xc r (colK h)
theorem v3_apply : k0_pay20 (k0_pay19 (k0_pay2 w) xc) (ix2 r h) = projAt w xc r (colV h) := by
  unfold k0_pay20 k0_pay19
  rw [shapeCast_self, slice_apply _ _ _ r h (colV h) (colV_val h)]
  exact prod3_apply w xc r (colV h)

/-- The concatenation along the columns, read at a column of each third. -/
theorem wcat_apply (u0 u1 u2 : Vec Ideal S1024x128 .f32) (c : Fin 1024) :
    concatenate S1024x384 1 [⟨S1024x128, u0⟩, ⟨S1024x128, u1⟩, ⟨S1024x128, u2⟩] concatenates_S1024x128_S1024x128_S1024x128_S1024x384_d1 (ix2 c (colQ h)) = u0 (ix2 c h)
    ∧ concatenate S1024x384 1 [⟨S1024x128, u0⟩, ⟨S1024x128, u1⟩, ⟨S1024x128, u2⟩] concatenates_S1024x128_S1024x128_S1024x128_S1024x384_d1 (ix2 c (colK h)) = u1 (ix2 c h)
    ∧ concatenate S1024x384 1 [⟨S1024x128, u0⟩, ⟨S1024x128, u1⟩, ⟨S1024x128, u2⟩] concatenates_S1024x128_S1024x128_S1024x128_S1024x384_d1 (ix2 c (colV h)) = u2 (ix2 c h) := by
  have hi : ∀ (col : Fin 384) (b : Fin S1024x128.rank), b.cast (rfl : S1024x128.rank = S1024x384.rank) ≠ (1 : Fin S1024x384.rank) →
      ((ix2 c h : S1024x128.Idx) b).val = ((ix2 c col : S1024x384.Idx) (b.cast rfl)).val := fun col (b : Fin 2) =>
    match b with
    | ⟨0, _⟩ => fun _ => rfl
    | ⟨1, _⟩ => fun hb => absurd (Fin.ext rfl) hb
  refine ⟨?_, ?_, ?_⟩
  · exact concatenate_map_apply (1 : Fin S1024x384.rank) [u0, u1, u2] concatenates_S1024x128_S1024x128_S1024x128_S1024x384_d1 rfl 128 rfl
      (ix2 c (colQ h)) ⟨0, by simp⟩ (show h.val / 128 = 0 by have := h.isLt; omega) (ix2 c h)
      (show h.val = h.val % 128 by have := h.isLt; omega) (hi (colQ h))
  · exact concatenate_map_apply (1 : Fin S1024x384.rank) [u0, u1, u2] concatenates_S1024x128_S1024x128_S1024x128_S1024x384_d1 rfl 128 rfl
      (ix2 c (colK h)) ⟨1, by simp⟩ (show (128 + h.val) / 128 = 1 by have := h.isLt; omega) (ix2 c h)
      (show h.val = (128 + h.val) % 128 by have := h.isLt; omega) (hi (colK h))
  · exact concatenate_map_apply (1 : Fin S1024x384.rank) [u0, u1, u2] concatenates_S1024x128_S1024x128_S1024x128_S1024x384_d1 rfl 128 rfl
      (ix2 c (colV h)) ⟨2, by simp⟩ (show (256 + h.val) / 128 = 2 by have := h.isLt; omega) (ix2 c h)
      (show h.val = (256 + h.val) % 128 by have := h.isLt; omega) (hi (colV h))

end Cert.KernelIdeal.ProjIdx

end
-- ==== Proof.LibFinite.lean ====
/-
  Finiteness of extended-real arrays, program-free.

  At the ideal reading of floats (extended reals) an array is ALL REAL when each of its entries is the coercion
  of a real number. Sums distribute over products on the reals but not at the infinities, so an algebraic
  argument about a network of sums, products, quotients and maxima first shows that every intermediate array is
  all real. This file proves that the property is closed under each operation such a network is made of:
  entrywise sum, difference, negation, product, maximum and minimum; a change of float format (the identity on
  extended reals); every re-indexing (shape cast, broadcast, transpose, slice, gather); a constant whose bit
  pattern denotes a real; an accumulating scatter (an entry plus a finite sum of entries); a quotient by reals
  that are not zero; and a contraction (an entry plus a finite sum of products).
-/
import Idealize.ShloMosaic.PureOps.Ideal
import Idealize.ShloMosaic.PureOps.Ideal.Laws
import Idealize.ShloMosaic.PureOps.Contract
import Idealize.ShloMosaic.PureOps.ShapeOps
import Idealize.ShloMosaic.Lib.ValueIdx
import Mathlib.Data.EReal.Basic
import Mathlib.Data.EReal.Operations
import Mathlib.Data.EReal.Inv
import Mathlib.Algebra.BigOperators.Group.Finset.Basic

noncomputable section

open scoped BigOperators

namespace Cert.Lib

open Idealize.ShloMosaic

/-! ## Single extended reals that are real -/

/-- The sum of two reals is real. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The difference of two reals is real. -/
theorem real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- The negation of a real is real. -/
theorem real_neg {x : EReal} (hx : ∃ r : ℝ, x = (r : EReal)) : ∃ r : ℝ, -x = (r : EReal) := by
  obtain ⟨a, rfl⟩ := hx
  exact ⟨-a, (EReal.coe_neg a).symm⟩

/-- The product of two reals is real. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The coercion of reals into the extended reals commutes with the maximum. -/
theorem coe_max (a b : ℝ) : ((max a b : ℝ) : EReal) = max (a : EReal) (b : EReal) :=
  EReal.coe_strictMono.monotone.map_max

/-- The coercion of reals into the extended reals commutes with the minimum. -/
theorem coe_min (a b : ℝ) : ((min a b : ℝ) : EReal) = min (a : EReal) (b : EReal) :=
  EReal.coe_strictMono.monotone.map_min

/-- The maximum of two reals is real. -/
theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  exact ⟨max a b, (coe_max a b).symm⟩

/-- The minimum of two reals is real. -/
theorem real_min {x y : EReal} (hx : ∃ r : ℝ, x = (r : EReal)) (hy : ∃ r : ℝ, y = (r : EReal)) :
    ∃ r : ℝ, min x y = (r : EReal) := by
  obtain ⟨a, rfl⟩ := hx
  obtain ⟨b, rfl⟩ := hy
  exact ⟨min a b, (coe_min a b).symm⟩

/-- A finite sum of coerced reals is the coercion of the sum of the reals. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A finite sum of reals is real. -/
theorem real_sum {ι : Type*} (t : Finset ι) (f : ι → EReal) (h : ∀ i ∈ t, ∃ r : ℝ, f i = (r : EReal)) :
    ∃ r : ℝ, ∑ i ∈ t, f i = (r : EReal) := by
  classical
  induction t using Finset.induction_on with
  | empty => exact ⟨0, by simp⟩
  | insert a t ha ih =>
    obtain ⟨ra, hra⟩ := h a (Finset.mem_insert_self a t)
    obtain ⟨rt, hrt⟩ := ih (fun i hi => h i (Finset.mem_insert_of_mem hi))
    exact ⟨ra + rt, by rw [Finset.sum_insert ha, hra, hrt, EReal.coe_add]⟩

/-- The quotient of a real by a real that is not zero is the coercion of the real quotient. -/
theorem div_coe_coe (a : ℝ) {r : ℝ} (h : r ≠ 0) : Ideal.div (a : EReal) (r : EReal) = ((a / r : ℝ) : EReal) := by
  rw [Ideal.div_coe h, ← EReal.coe_mul, mul_one_div]

/-- The quotient of a real by a real that is not zero is real. -/
theorem real_div {x y : EReal} (hx : ∃ r : ℝ, x = (r : EReal)) (hy : ∃ r : ℝ, r ≠ 0 ∧ y = (r : EReal)) :
    ∃ r : ℝ, Ideal.div x y = (r : EReal) := by
  obtain ⟨a, rfl⟩ := hx
  obtain ⟨b, hb, rfl⟩ := hy
  exact ⟨a / b, div_coe_coe a hb⟩

/-! ## Bit patterns that denote reals -/

/-- The f32 pattern of zero denotes the real zero. -/
theorem ofBits_zero_f32_real : Ideal.ofBits .f32 0x00000000#32 = ((0 : ℝ) : EReal) := by
  rw [Ideal.ofBits_zero_f32, EReal.coe_zero]

/-- The f32 pattern 0x3F800000 denotes the real one. -/
theorem ofBits_one_f32_real : Ideal.ofBits .f32 0x3F800000#32 = ((1 : ℝ) : EReal) := by
  simp [Ideal.ofBits, Ideal.ieee, -EReal.coe_mul]; norm_num

/-- The f32 pattern 0x3F800000 denotes the extended real one. -/
theorem ofBits_one_f32 : Ideal.ofBits .f32 0x3F800000#32 = 1 := by
  rw [ofBits_one_f32_real, EReal.coe_one]

/-- The f32 pattern 0x3F000000 denotes the real one half. -/
theorem ofBits_half_f32_real : Ideal.ofBits .f32 0x3F000000#32 = (((1 : ℝ) / 2 : ℝ) : EReal) := by
  simp [Ideal.ofBits, Ideal.ieee, -EReal.coe_mul]; norm_num

/-! ## Arrays all of whose entries are real

An array of extended reals does not record a float format, so where a closure theorem below is applied with no
expected type to read it from, the format is given by name, as in `allReal_scatterAdd (φ := .f32) d idx hx hu`. -/

/-- Every entry is a real number. -/
def AllReal {s : Shape} (v : s.Idx → EReal) : Prop := ∀ i, ∃ r : ℝ, v i = (r : EReal)

variable {s t : Shape} {φ : FTy}

/-- An all-real array is the coercion of a real-valued array. -/
theorem AllReal.exists_real {v : s.Idx → EReal} (h : AllReal v) : ∃ f : s.Idx → ℝ, v = fun i => (f i : EReal) := by
  choose f hf using h
  exact ⟨f, funext hf⟩

/-- The coercion of a real-valued array is all real. -/
theorem allReal_coe (f : s.Idx → ℝ) : AllReal (fun i => (f i : EReal)) := fun i => ⟨f i, rfl⟩

/-- An array equal entry by entry to a real-valued one is all real. -/
theorem allReal_of_eq {v : s.Idx → EReal} (f : s.Idx → ℝ) (h : ∀ i, v i = (f i : EReal)) : AllReal v :=
  fun i => ⟨f i, h i⟩

/-! ### Entrywise arithmetic -/

/-- The entrywise sum of all-real arrays is all real. -/
theorem allReal_addf {x y : FVec Ideal s φ} (hx : AllReal x) (hy : AllReal y) : AllReal (addf x y) :=
  fun i => real_add (hx i) (hy i)

/-- The entrywise difference of all-real arrays is all real. -/
theorem allReal_subf {x y : FVec Ideal s φ} (hx : AllReal x) (hy : AllReal y) : AllReal (subf x y) :=
  fun i => real_sub (hx i) (hy i)

/-- The entrywise negation of an all-real array is all real. -/
theorem allReal_negf {x : FVec Ideal s φ} (hx : AllReal x) : AllReal (negf x) :=
  fun i => real_neg (hx i)

/-- The entrywise product of all-real arrays is all real. -/
theorem allReal_mulf {x y : FVec Ideal s φ} (hx : AllReal x) (hy : AllReal y) : AllReal (mulf x y) :=
  fun i => real_mul (hx i) (hy i)

/-- The entrywise maximum of all-real arrays is all real. -/
theorem allReal_maximumf {x y : FVec Ideal s φ} (hx : AllReal x) (hy : AllReal y) : AllReal (maximumf x y) :=
  fun i => real_max (hx i) (hy i)

/-- The entrywise minimum of all-real arrays is all real. -/
theorem allReal_minimumf {x y : FVec Ideal s φ} (hx : AllReal x) (hy : AllReal y) : AllReal (minimumf x y) :=
  fun i => real_min (hx i) (hy i)

/-! ### Changes of float format: the identity on extended reals -/

/-- Narrowing the format leaves an all-real array all real. -/
theorem allReal_truncf {ψ : FTy} {x : FVec Ideal s φ} (h : ψ.bits < φ.bits) (hx : AllReal x) :
    AllReal (truncf ψ x h : FVec Ideal s ψ) :=
  fun i => hx i

/-- Widening the format leaves an all-real array all real. -/
theorem allReal_extf {ψ : FTy} {x : FVec Ideal s φ} (h : φ.bits < ψ.bits) (hx : AllReal x) :
    AllReal (extf ψ x h : FVec Ideal s ψ) :=
  fun i => hx i

/-! ### Constants and broadcasts -/

/-- A constant array whose bit pattern denotes a real is all real. -/
theorem allReal_constant {b : BitVec φ.bits} (h : ∃ r : ℝ, Ideal.ofBits φ b = (r : EReal)) :
    AllReal (constant (F := Ideal) s φ b) :=
  fun _ => h

/-- The f32 zero constant is all real. -/
theorem allReal_constant_zero : AllReal (constant (F := Ideal) s .f32 0x00000000#32) :=
  allReal_constant ⟨0, ofBits_zero_f32_real⟩

/-- The f32 one constant is all real. -/
theorem allReal_constant_one : AllReal (constant (F := Ideal) s .f32 0x3F800000#32) :=
  allReal_constant ⟨1, ofBits_one_f32_real⟩

/-- The f32 one-half constant is all real. -/
theorem allReal_constant_half : AllReal (constant (F := Ideal) s .f32 0x3F000000#32) :=
  allReal_constant ⟨1 / 2, ofBits_half_f32_real⟩

/-- The broadcast of a real scalar is all real. -/
theorem allReal_broadcast {c : EReal} (h : ∃ r : ℝ, c = (r : EReal)) : AllReal (broadcast s c) :=
  fun _ => h

/-- The broadcast of the f32 zero scalar is all real. -/
theorem allReal_broadcast_zero : AllReal (broadcast s (Scalar.ofBits (F := Ideal) .f32 0x00000000#32)) :=
  allReal_broadcast ⟨0, ofBits_zero_f32_real⟩

/-- The broadcast of the f32 one scalar is all real. -/
theorem allReal_broadcast_one : AllReal (broadcast s (Scalar.ofBits (F := Ideal) .f32 0x3F800000#32)) :=
  allReal_broadcast ⟨1, ofBits_one_f32_real⟩

/-- The broadcast of the f32 one-half scalar is all real. -/
theorem allReal_broadcast_half : AllReal (broadcast s (Scalar.ofBits (F := Ideal) .f32 0x3F000000#32)) :=
  allReal_broadcast ⟨1 / 2, ofBits_half_f32_real⟩

/-! ### Re-indexings: each result entry is an entry of the operand -/

/-- A broadcast along trailing axes of an all-real array is all real. -/
theorem allReal_broadcastTo {x : s.Idx → EReal} (h : s.Broadcasts t) (hx : AllReal x) :
    AllReal (broadcastTo t x h) :=
  fun _ => hx _

/-- A broadcast in named dimensions of an all-real array is all real. -/
theorem allReal_broadcastInDim {x : s.Idx → EReal} {dims : Fin s.rank → Fin t.rank} (h : s.BroadcastsInDim t dims)
    (hx : AllReal x) : AllReal (broadcastInDim t dims h x) :=
  fun _ => hx _

/-- A shape cast of an all-real array is all real. -/
theorem allReal_shapeCast {x : s.Idx → EReal} (h : s.ShapeCasts t) (hx : AllReal x) : AllReal (shapeCast t x h) :=
  fun _ => hx _

/-- A slice of an all-real array is all real. -/
theorem allReal_extractStridedSlice {x : s.Idx → EReal} {off : Fin s.rank → Nat} (h : s.Slices off t)
    (hx : AllReal x) : AllReal (extractStridedSlice t off x h) :=
  fun _ => hx _

/-- A transpose of an all-real array is all real. -/
theorem allReal_transpose {x : s.Idx → EReal} {perm : List (Fin s.rank)} (h : s.Transposes perm t)
    (hx : AllReal x) : AllReal (transpose t perm x h) :=
  fun _ => hx _

/-- A gather from an all-real array is all real, whatever the indices: each result entry is an entry of the operand. -/
theorem allReal_gather {si : Shape} {w : Nat} (d : GatherDims s si t) {x : s.Idx → EReal} (idx : IVec si w)
    (hx : AllReal x) : AllReal (Host.gather d x idx) :=
  fun _ => hx _

/-! ### Accumulating scatter: an operand entry plus a finite sum of update entries -/

/-- An accumulating scatter of all-real updates into an all-real operand is all real, whatever the indices. -/
theorem allReal_scatterAdd {si u : Shape} {w : Nat} (d : ScatterDims s si u) {x : FVec Ideal s φ} (idx : IVec si w)
    {upd : FVec Ideal u φ} (hx : AllReal x) (hu : AllReal upd) : AllReal (Host.scatterAdd d x idx upd) :=
  fun i => real_add (hx i) (real_sum _ _ fun j _ => hu j)

/-! ### Sums along axes: an initial value plus a finite sum of entries -/

/-- A float sum along axes of an all-real array from a real initial value is all real. -/
theorem allReal_reduceAdd {axes : List (Fin s.rank)} {u : Shape} {x : FVec Ideal s φ} {init : u.Idx → Ideal φ}
    (h : s.ReducesTo axes t) (hu : 0 < u.numel) (hx : AllReal x) (hinit : ∀ i, ∃ r : ℝ, init i = (r : EReal)) :
    AllReal (Host.reduceAdd x init h hu) :=
  fun _ => real_add (hinit _) (real_sum _ _ fun i _ => hx i)

/-! ### Quotients -/

/-- The entrywise host quotient of an all-real array by reals that are not zero is all real. -/
theorem allReal_divf {x y : FVec Ideal s φ} (hx : AllReal x) (hy : ∀ i, ∃ r : ℝ, r ≠ 0 ∧ y i = (r : EReal)) :
    AllReal (Host.divf x y) :=
  fun i => real_div (hx i) (hy i)

/-- The entrywise host quotient of an all-real array by reals that are at least one is all real. -/
theorem allReal_divf_of_one_le {x y : FVec Ideal s φ} (hx : AllReal x)
    (hy : ∀ i, ∃ r : ℝ, 1 ≤ r ∧ y i = (r : EReal)) : AllReal (Host.divf x y) :=
  allReal_divf hx fun i => by
    obtain ⟨r, hr, h⟩ := hy i
    exact ⟨r, by linarith, h⟩

/-- The entrywise quotient of a kernel, likewise. -/
theorem allReal_divf_vec {x y : FVec Ideal s φ} (hx : AllReal x) (hy : ∀ i, ∃ r : ℝ, r ≠ 0 ∧ y i = (r : EReal)) :
    AllReal (divf x y) :=
  fun i => real_div (hx i) (hy i)

/-- The host quotient read at an entry where both operands are known reals. -/
theorem hostDivf_apply_coe {x y : FVec Ideal s φ} (i : s.Idx) {a r : ℝ} (hx : x i = (a : EReal))
    (hy : y i = (r : EReal)) (hr : r ≠ 0) : Host.divf x y i = ((a / r : ℝ) : EReal) := by
  show Ideal.div (x i) (y i) = _
  rw [hx, hy, div_coe_coe a hr]

/-! ### The maximum with the all-ones array: reals that are at least one -/

/-- The broadcast of the one constant has every entry one. -/
theorem ones_apply {s₀ : Shape} {dims : Fin s₀.rank → Fin t.rank} (h : s₀.BroadcastsInDim t dims) (j : t.Idx) :
    broadcastInDim t dims h (constant (F := Ideal) s₀ .f32 0x3F800000#32) j = 1 :=
  ofBits_one_f32

/-- The maximum of a real and one is a real that is at least one. -/
theorem real_max_one {x : EReal} (hx : ∃ r : ℝ, x = (r : EReal)) : ∃ r : ℝ, 1 ≤ r ∧ max x 1 = (r : EReal) := by
  obtain ⟨a, rfl⟩ := hx
  exact ⟨max a 1, le_max_right a 1, by rw [coe_max, EReal.coe_one]⟩

/-- The entrywise maximum of an all-real array with an array of ones has every entry a real that is at least one. -/
theorem maximumf_ones_ge_one {v ones : FVec Ideal s .f32} (hv : AllReal v) (hones : ∀ i, ones i = 1) :
    ∀ i, ∃ r : ℝ, 1 ≤ r ∧ maximumf v ones i = (r : EReal) := fun i => by
  show ∃ r : ℝ, 1 ≤ r ∧ max (v i) (ones i) = (r : EReal)
  rw [hones i]
  exact real_max_one (hv i)

/-- The same with the all-ones array written as the broadcast of the one constant. -/
theorem maximumf_bcast_one_ge_one {s₀ : Shape} {v : FVec Ideal t .f32} {dims : Fin s₀.rank → Fin t.rank}
    (h : s₀.BroadcastsInDim t dims) (hv : AllReal v) :
    ∀ i, ∃ r : ℝ, 1 ≤ r ∧
      maximumf v (broadcastInDim t dims h (constant (F := Ideal) s₀ .f32 0x3F800000#32)) i = (r : EReal) :=
  maximumf_ones_ge_one hv (ones_apply h)

/-- A re-indexing by a broadcast in named dimensions keeps "every entry a real that is at least one". -/
theorem one_le_broadcastInDim {x : s.Idx → EReal} {dims : Fin s.rank → Fin t.rank} (h : s.BroadcastsInDim t dims)
    (hx : ∀ i, ∃ r : ℝ, 1 ≤ r ∧ x i = (r : EReal)) :
    ∀ j, ∃ r : ℝ, 1 ≤ r ∧ broadcastInDim t dims h x j = (r : EReal) :=
  fun _ => hx _

/-! ### Contractions: an accumulator entry plus a finite sum of products -/

/-- A kernel's matrix product of all-real operands onto an all-real accumulator is all real. -/
theorem allReal_matmul {sl sr so : Shape} {φ₁ φ₂ : FTy} (d : DotDims sl sr so) (prec : Option ContractPrecision)
    {lhs : FVec Ideal sl φ₁} {rhs : FVec Ideal sr φ₂} {acc : FVec Ideal so .f32} (hl : AllReal lhs) (hr : AllReal rhs)
    (hacc : AllReal acc) : AllReal (matmul d prec lhs rhs acc) :=
  fun j => real_add (hacc j) (real_sum _ _ fun k _ => real_mul (hl _) (hr _))

/-- The host's general product of all-real operands is all real. -/
theorem allReal_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) :=
  fun j => real_add ⟨0, EReal.coe_zero.symm⟩ (real_sum _ _ fun k _ => real_mul (hl _) (hr _))

end Cert.Lib
-- ==== Proof.Entry.lean ====
import proofs.«425609_j70892730187993_3_alg».proof.Proof.Online
import proofs.«425609_j70892730187993_3_alg».proof.Proof.Spec
import proofs.«425609_j70892730187993_3_alg».proof.Proof.LibRealSums
import proofs.«425609_j70892730187993_3_alg».proof.Proof.LibFinite

/-!
# The kernel's pass over one output row, as a function of the projections

For one batch entry let `Q, K, V : position → head channel → value` be the projected queries, keys and values. The
kernel computes row `t` of the output tile by tile: with `n = t / 512` the row's query tile, it scales the query row by
`2⁻⁵`, scores it against the keys of tile `a` for `a = 0 … n`, masks on the last tile (`a = n`) the key columns after
`t % 512`, and runs the running softmax over those `n + 1` tiles against the values. `rowPass` is that computation.
When all projections are reals it is the specification's softmax over all 2048 key positions: moving the scale out
of the contraction is distributivity over reals, the tiles' masks are the causal mask read tile by tile, and the
running pass is the whole softmax by `Online.online_eq`.
-/

noncomputable section

namespace Cert.Entry

open Idealize.ShloMosaic
open scoped BigOperators

/-- The state of the pass depends only on the tiles it visits. -/
theorem run_congr {W : ℕ} {σ σ' v v' : ℕ → Fin W → EReal} (n : ℕ)
    (h : ∀ a, a < n → σ a = σ' a ∧ v a = v' a) : Online.run σ v n = Online.run σ' v' n := by
  induction n with
  | zero => rfl
  | succ k ih =>
    show Online.step (σ k) (v k) (Online.run σ v k) = Online.step (σ' k) (v' k) (Online.run σ' v' k)
    rw [ih (fun a ha => h a (Nat.lt_succ_of_lt ha)), (h k (Nat.lt_succ_self k)).1, (h k (Nat.lt_succ_self k)).2]

/-- Position `n` of a 2048-row table, zero past its end. -/
def rowAt (f : Fin 2048 → Fin 128 → EReal) (n : ℕ) (h : Fin 128) : EReal :=
  if hn : n < 2048 then f ⟨n, hn⟩ h else 0

theorem rowAt_of_lt (f : Fin 2048 → Fin 128 → EReal) (n : ℕ) (h : Fin 128) (hn : n < 2048) :
    rowAt f n h = f ⟨n, hn⟩ h := dif_pos hn

/-- Scores of query row `t` (scaled first) against the keys of tile `a`, masked on the row's own tile. -/
def tileScores (Q K : Fin 2048 → Fin 128 → EReal) (t : Fin 2048) (a : ℕ) (j : Fin 512) : EReal :=
  if a = t.val / 512 then
    (if j.val ≤ t.val % 512 then ∑ h : Fin 128, (Q t h * Spec.scaleW) * rowAt K (512 * a + j.val) h else ⊥)
  else ∑ h : Fin 128, (Q t h * Spec.scaleW) * rowAt K (512 * a + j.val) h

/-- Values of tile `a` at head channel `h`. -/
def tileVals (V : Fin 2048 → Fin 128 → EReal) (h : Fin 128) (a : ℕ) (j : Fin 512) : EReal :=
  rowAt V (512 * a + j.val) h

/-- The kernel's value at row `t`, head channel `h`: the pass over tiles `0 … t / 512`, then the division. -/
def rowPass (Q K V : Fin 2048 → Fin 128 → EReal) (t : Fin 2048) (h : Fin 128) : EReal :=
  Ideal.div (Online.run (tileScores Q K t) (tileVals V h) (t.val / 512 + 1)).2.2
    (Online.run (tileScores Q K t) (tileVals V h) (t.val / 512 + 1)).2.1

/-! ## Everything in sight is a real -/

/-- The score scale, the 32-bit word `0x3D000000`, denotes the real `2⁻⁵`. -/
theorem scaleW_real : ∃ r : ℝ, Spec.scaleW = (r : EReal) := by
  refine ⟨1 / 32, ?_⟩
  simp [Ideal.ofBits, Ideal.ieee, -EReal.coe_mul]; norm_num

/-- A projection of real activations by a real weight matrix is a real: a finite sum of products of reals. -/
theorem proj_real (X : Fin 8 → Fin 2048 → Fin 1024 → EReal) (W : Fin 1024 → Fin 128 → EReal)
    (hX : ∀ b t c, ∃ r : ℝ, X b t c = (r : EReal)) (hW : ∀ c h, ∃ r : ℝ, W c h = (r : EReal))
    (b : Fin 8) (t : Fin 2048) (h : Fin 128) : ∃ r : ℝ, Spec.proj X W b t h = (r : EReal) :=
  Cert.RealSums.sum_real _ _ fun c => Cert.Lib.real_mul (hX b t c) (hW c h)

/-- A scaled score of real projections is a real. -/
theorem score_real (X : Fin 8 → Fin 2048 → Fin 1024 → EReal) (Wq Wk : Fin 1024 → Fin 128 → EReal)
    (hX : ∀ b t c, ∃ r : ℝ, X b t c = (r : EReal)) (hq : ∀ c h, ∃ r : ℝ, Wq c h = (r : EReal))
    (hk : ∀ c h, ∃ r : ℝ, Wk c h = (r : EReal)) (b : Fin 8) (t j : Fin 2048) :
    ∃ r : ℝ, Spec.score X Wq Wk b t j = (r : EReal) :=
  Cert.Lib.real_mul
    (Cert.RealSums.sum_real _ _ fun h => Cert.Lib.real_mul (proj_real X Wq hX hq b t h) (proj_real X Wk hX hk b j h))
    scaleW_real

/-- Over reals the scale moves out of the contraction: `Σ_h (q h · s) · k h = (Σ_h q h · k h) · s`.
    This is distributivity, which holds for reals and fails at the infinities. -/
theorem sum_scale_mul {ι : Type*} [Fintype ι] (q k : ι → EReal) (s : EReal)
    (hq : ∀ h, ∃ r : ℝ, q h = (r : EReal)) (hk : ∀ h, ∃ r : ℝ, k h = (r : EReal)) (hs : ∃ r : ℝ, s = (r : EReal)) :
    ∑ h, (q h * s) * k h = (∑ h, q h * k h) * s := by
  choose qr hqr using hq
  choose kr hkr using hk
  obtain ⟨sr, rfl⟩ := hs
  have e1 : ∑ h, (q h * (sr : EReal)) * k h = ((∑ h, qr h * sr * kr h : ℝ) : EReal) := by
    rw [Cert.RealSums.coe_sum]
    exact Finset.sum_congr rfl fun h _ => by rw [hqr, hkr, EReal.coe_mul, EReal.coe_mul]
  have e2 : ∑ h, q h * k h = ((∑ h, qr h * kr h : ℝ) : EReal) := by
    rw [Cert.RealSums.coe_sum]
    exact Finset.sum_congr rfl fun h _ => by rw [hqr, hkr, EReal.coe_mul]
  rw [e1, e2, ← EReal.coe_mul, Finset.sum_mul]
  exact congrArg _ (Finset.sum_congr rfl fun h _ => mul_right_comm _ _ _)

/-! ## The kernel's tiles are the tiles of the masked row -/

/-- The kernel's scores of tile `a ≤ t / 512` are tile `a` of the causally masked row of scores: the column
    `512 a + j` lies inside the row; on the earlier tiles it is at most `t`, and on tile `t / 512` it is at most `t`
    exactly when `j ≤ t % 512`. -/
theorem tileScores_eq (X : Fin 8 → Fin 2048 → Fin 1024 → EReal) (Wq Wk : Fin 1024 → Fin 128 → EReal)
    (hX : ∀ b t c, ∃ r : ℝ, X b t c = (r : EReal)) (hq : ∀ c h, ∃ r : ℝ, Wq c h = (r : EReal))
    (hk : ∀ c h, ∃ r : ℝ, Wk c h = (r : EReal)) (b : Fin 8) (t : Fin 2048) (a : ℕ) (ha : a < t.val / 512 + 1)
    (j : Fin 512) :
    tileScores (Spec.proj X Wq b) (Spec.proj X Wk b) t a j = Online.tileAt 4 (Spec.masked X Wq Wk b t) a j := by
  have ht := t.isLt
  have hj := j.isLt
  have hlt : 512 * a + j.val < 4 * 512 := by omega
  have hlt' : 512 * a + j.val < 2048 := by omega
  rw [Online.tileAt_of_lt 4 _ a j hlt]
  have hsum : ∑ h : Fin 128, (Spec.proj X Wq b t h * Spec.scaleW) * rowAt (Spec.proj X Wk b) (512 * a + j.val) h
      = Spec.score X Wq Wk b t ⟨512 * a + j.val, hlt'⟩ := by
    unfold Spec.score
    rw [← sum_scale_mul _ _ _ (fun h => proj_real X Wq hX hq b t h) (fun h => proj_real X Wk hX hk b _ h) scaleW_real]
    exact Finset.sum_congr rfl fun h _ => by rw [rowAt_of_lt _ _ _ hlt']
  have hm : Spec.masked X Wq Wk b t ⟨512 * a + j.val, hlt⟩
      = if 512 * a + j.val ≤ t.val then Spec.score X Wq Wk b t ⟨512 * a + j.val, hlt'⟩ else ⊥ := rfl
  rw [hm]
  unfold tileScores
  rw [hsum]
  by_cases hak : a = t.val / 512
  · rw [if_pos hak]
    by_cases hjt : j.val ≤ t.val % 512
    · rw [if_pos hjt, if_pos (by omega)]
    · rw [if_neg hjt, if_neg (by omega)]
  · rw [if_neg hak, if_pos (by omega)]

/-- The kernel's values of tile `a ≤ t / 512` are tile `a` of the column of values. -/
theorem tileVals_eq (V : Fin 2048 → Fin 128 → EReal) (h : Fin 128) (t : Fin 2048) (a : ℕ) (ha : a < t.val / 512 + 1)
    (j : Fin 512) : tileVals V h a j = Online.tileAt 4 (fun i => V i h) a j := by
  have ht := t.isLt
  have hj := j.isLt
  have hlt : 512 * a + j.val < 4 * 512 := by omega
  have hlt' : 512 * a + j.val < 2048 := by omega
  rw [Online.tileAt_of_lt 4 _ a j hlt]
  exact rowAt_of_lt V _ h hlt'

/-- THE BRIDGE. Over real inputs the kernel's pass is the specification's attention output. -/
theorem rowPass_eq_out (X : Fin 8 → Fin 2048 → Fin 1024 → EReal) (Wq Wk Wv : Fin 1024 → Fin 128 → EReal)
    (hX : ∀ b t c, ∃ r : ℝ, X b t c = (r : EReal)) (hq : ∀ c h, ∃ r : ℝ, Wq c h = (r : EReal))
    (hk : ∀ c h, ∃ r : ℝ, Wk c h = (r : EReal)) (hv : ∀ c h, ∃ r : ℝ, Wv c h = (r : EReal))
    (b : Fin 8) (t : Fin 2048) (h : Fin 128) :
    rowPass (Spec.proj X Wq b) (Spec.proj X Wk b) (Spec.proj X Wv b) t h = Spec.out X Wq Wk Wv b t h := by
  have ht := t.isLt
  have hk4 : t.val / 512 < 4 := by omega
  unfold rowPass Spec.out
  rw [run_congr (σ' := Online.tileAt 4 (Spec.masked X Wq Wk b t))
    (v' := Online.tileAt 4 (fun j => Spec.proj X Wv b j h)) (t.val / 512 + 1) fun a ha =>
      ⟨funext fun j => tileScores_eq X Wq Wk hX hq hk b t a ha j,
        funext fun j => tileVals_eq (Spec.proj X Wv b) h t a ha j⟩]
  refine Online.online_eq (W := 512) 4 (t.val / 512) hk4 (by decide) (Spec.masked X Wq Wk b t)
    (fun j => Spec.proj X Wv b j h) ?_ ?_ ?_ ?_
  · -- a masked score is -∞ or a real
    intro j
    unfold Spec.masked
    split
    · exact Or.inr (score_real X Wq Wk hX hq hk b t _)
    · exact Or.inl rfl
  · -- column 0 is never masked
    have h0 : Spec.masked X Wq Wk b t ⟨0, Nat.mul_pos (Nat.zero_lt_of_lt hk4) (by decide : 0 < 512)⟩
        = Spec.score X Wq Wk b t ⟨0, by decide⟩ := if_pos (Nat.zero_le _)
    rw [h0]
    exact score_real X Wq Wk hX hq hk b t _
  · -- the columns after tile t / 512 lie after t
    intro j hj
    have hjt : ¬ j.val ≤ t.val := by omega
    exact if_neg hjt
  · exact fun j => proj_real X Wv hX hv b j h

end Cert.Entry

end
-- ==== Proof.TileEntry.lean ====
import proofs.«425609_j70892730187993_3_alg».proof.Proof.KIPieces
import proofs.«425609_j70892730187993_3_alg».proof.Proof.TileIdx
import proofs.«425609_j70892730187993_3_alg».proof.Proof.ProjIdx
import proofs.«425609_j70892730187993_3_alg».proof.Proof.Entry

/-!
# Each output tile, read at an entry, is the row pass over the block's projections

For the blocks `x0` (one batch entry of the activations, `1 × 2048 × 1024`) and `x1` (the concatenated weights,
`1024 × 384`) let `QB, KB, VB` be the block's projections: row `t`, head channel `h` is the sum over the 1024 channels of
`x0[0, t, c]` times the weight column of the query, key or value third. Entry `(0, r, h)` of output tile `n` — the running
softmax over key tiles `0 … n` on the scratch contents, masked on tile `n` — is `Entry.rowPass QB KB VB` at row
`512 n + r`: the scratch contents are those projections chunk by chunk, and each vector step at `(r, h)` is the scalar
step on row `r` of the tile's scores and column `h` of its values.
-/

set_option maxRecDepth 16384

noncomputable section

namespace Cert.KernelIdeal.TileEntry

open Cert.KernelIdeal Cert.KernelIdeal.Gen Cert.KernelIdeal.Hand Cert.KernelIdeal.Tiles Cert.KernelIdeal.TileIdx Cert.KernelIdeal.ProjIdx
open Idealize.ShloMosaic Idealize.ShloMosaic.TcCoe Idealize.ShloMosaic.ValueIdx
open scoped BigOperators

/-- The block's projected queries, keys and values. -/
def QB (x0 : Vec Ideal S1x2048x1024 .f32) (x1 : Vec Ideal S1024x384 .f32) (t : Fin 2048) (h : Fin 128) : EReal :=
  ∑ c : Fin 1024, x0 (ix3 (0 : Fin 1) t c) * x1 (ix2 c (colQ h))
def KB (x0 : Vec Ideal S1x2048x1024 .f32) (x1 : Vec Ideal S1024x384 .f32) (t : Fin 2048) (h : Fin 128) : EReal :=
  ∑ c : Fin 1024, x0 (ix3 (0 : Fin 1) t c) * x1 (ix2 c (colK h))
def VB (x0 : Vec Ideal S1x2048x1024 .f32) (x1 : Vec Ideal S1024x384 .f32) (t : Fin 2048) (h : Fin 128) : EReal :=
  ∑ c : Fin 1024, x0 (ix3 (0 : Fin 1) t c) * x1 (ix2 c (colV h))

/-- Row `r` of query tile `n`. -/
def rowOf (n : Fin 4) (r : Fin 512) : Fin 2048 := ⟨512 * n.val + r.val, by have := n.isLt; have := r.isLt; omega⟩

section Pieces

variable (x0 : Vec Ideal S1x2048x1024 .f32) (x1 : Vec Ideal S1024x384 .f32)

/-! ## The blocks' loads -/

/-- The load of the whole weight block reads the block. -/
theorem ldW : View.ld x1 rW = x1 :=
  View.ld_unit_zero (S := S1024x384) (by funext a; fin_cases a <;> rfl) _ x1

/-- The load of chunk `n` of the activations reads, at `(0, r, c)`, the block at `(0, 512 n + r, c)`. -/
theorem ldX0 (r : Fin 512) (c : Fin 1024) :
    View.ld x0 rX0 (ix3 (0 : Fin 1) r c) = x0 (ix3 (0 : Fin 1) (rowOf 0 r) c) := by
  refine congrArg x0 (funext fun a => Fin.ext ?_)
  match a with
  | ⟨0, _⟩ => show 0 + 1 * 0 = 0; rfl
  | ⟨1, _⟩ => show 0 + 1 * r.val = 512 * 0 + r.val; omega
  | ⟨2, _⟩ => show 0 + 1 * c.val = c.val; omega
theorem ldX1 (r : Fin 512) (c : Fin 1024) :
    View.ld x0 rX1 (ix3 (0 : Fin 1) r c) = x0 (ix3 (0 : Fin 1) (rowOf 1 r) c) := by
  refine congrArg x0 (funext fun a => Fin.ext ?_)
  match a with
  | ⟨0, _⟩ => show 0 + 1 * 0 = 0; rfl
  | ⟨1, _⟩ => show 512 + 1 * r.val = 512 * 1 + r.val; omega
  | ⟨2, _⟩ => show 0 + 1 * c.val = c.val; omega
theorem ldX2 (r : Fin 512) (c : Fin 1024) :
    View.ld x0 rX2 (ix3 (0 : Fin 1) r c) = x0 (ix3 (0 : Fin 1) (rowOf 2 r) c) := by
  refine congrArg x0 (funext fun a => Fin.ext ?_)
  match a with
  | ⟨0, _⟩ => show 0 + 1 * 0 = 0; rfl
  | ⟨1, _⟩ => show 1024 + 1 * r.val = 512 * 2 + r.val; omega
  | ⟨2, _⟩ => show 0 + 1 * c.val = c.val; omega
theorem ldX3 (r : Fin 512) (c : Fin 1024) :
    View.ld x0 rX3 (ix3 (0 : Fin 1) r c) = x0 (ix3 (0 : Fin 1) (rowOf 3 r) c) := by
  refine congrArg x0 (funext fun a => Fin.ext ?_)
  match a with
  | ⟨0, _⟩ => show 0 + 1 * 0 = 0; rfl
  | ⟨1, _⟩ => show 1536 + 1 * r.val = 512 * 3 + r.val; omega
  | ⟨2, _⟩ => show 0 + 1 * c.val = c.val; omega

/-- A chunk's projection onto a column of the weights, in terms of the blocks. -/
theorem projAt_chunk (n : Fin 4) (xc : Vec Ideal S1x512x1024 .f32)
    (hxc : ∀ (r : Fin 512) (c : Fin 1024), xc (ix3 (0 : Fin 1) r c) = x0 (ix3 (0 : Fin 1) (rowOf n r) c))
    (r : Fin 512) (col : Fin 384) :
    projAt (View.ld x1 rW) xc r col = ∑ c : Fin 1024, x0 (ix3 (0 : Fin 1) (rowOf n r) c) * x1 (ix2 c col) := by
  unfold projAt
  rw [ldW]
  exact Finset.sum_congr rfl fun c _ => by rw [hxc]

/-! ## The scratch contents are the block's projections, chunk by chunk -/

theorem sq0_apply (r : Fin 512) (h' : Fin 128) : sq0 x0 x1 (ix2 r h') = QB x0 x1 (rowOf 0 r) h' := by
  unfold sq0
  refine (q0_apply (View.ld x1 rW) (View.ld x0 rX0) r h').trans ?_
  exact projAt_chunk x0 x1 0 (View.ld x0 rX0) (ldX0 x0) r (colQ h')
theorem sk0_apply (r : Fin 512) (h' : Fin 128) : sk0 x0 x1 (ix2 r h') = KB x0 x1 (rowOf 0 r) h' := by
  unfold sk0
  refine (k0_apply (View.ld x1 rW) (View.ld x0 rX0) r h').trans ?_
  exact projAt_chunk x0 x1 0 (View.ld x0 rX0) (ldX0 x0) r (colK h')
theorem sv0_apply (r : Fin 512) (h' : Fin 128) : sv0 x0 x1 (ix2 r h') = VB x0 x1 (rowOf 0 r) h' := by
  unfold sv0
  refine (v0_apply (View.ld x1 rW) (View.ld x0 rX0) r h').trans ?_
  exact projAt_chunk x0 x1 0 (View.ld x0 rX0) (ldX0 x0) r (colV h')
theorem sq1_apply (r : Fin 512) (h' : Fin 128) : sq1 x0 x1 (ix2 r h') = QB x0 x1 (rowOf 1 r) h' := by
  unfold sq1
  refine (q1_apply (View.ld x1 rW) (View.ld x0 rX1) r h').trans ?_
  exact projAt_chunk x0 x1 1 (View.ld x0 rX1) (ldX1 x0) r (colQ h')
theorem sk1_apply (r : Fin 512) (h' : Fin 128) : sk1 x0 x1 (ix2 r h') = KB x0 x1 (rowOf 1 r) h' := by
  unfold sk1
  refine (k1_apply (View.ld x1 rW) (View.ld x0 rX1) r h').trans ?_
  exact projAt_chunk x0 x1 1 (View.ld x0 rX1) (ldX1 x0) r (colK h')
theorem sv1_apply (r : Fin 512) (h' : Fin 128) : sv1 x0 x1 (ix2 r h') = VB x0 x1 (rowOf 1 r) h' := by
  unfold sv1
  refine (v1_apply (View.ld x1 rW) (View.ld x0 rX1) r h').trans ?_
  exact projAt_chunk x0 x1 1 (View.ld x0 rX1) (ldX1 x0) r (colV h')
theorem sq2_apply (r : Fin 512) (h' : Fin 128) : sq2 x0 x1 (ix2 r h') = QB x0 x1 (rowOf 2 r) h' := by
  unfold sq2
  refine (q2_apply (View.ld x1 rW) (View.ld x0 rX2) r h').trans ?_
  exact projAt_chunk x0 x1 2 (View.ld x0 rX2) (ldX2 x0) r (colQ h')
theorem sk2_apply (r : Fin 512) (h' : Fin 128) : sk2 x0 x1 (ix2 r h') = KB x0 x1 (rowOf 2 r) h' := by
  unfold sk2
  refine (k2_apply (View.ld x1 rW) (View.ld x0 rX2) r h').trans ?_
  exact projAt_chunk x0 x1 2 (View.ld x0 rX2) (ldX2 x0) r (colK h')
theorem sv2_apply (r : Fin 512) (h' : Fin 128) : sv2 x0 x1 (ix2 r h') = VB x0 x1 (rowOf 2 r) h' := by
  unfold sv2
  refine (v2_apply (View.ld x1 rW) (View.ld x0 rX2) r h').trans ?_
  exact projAt_chunk x0 x1 2 (View.ld x0 rX2) (ldX2 x0) r (colV h')
theorem sq3_apply (r : Fin 512) (h' : Fin 128) : sq3 x0 x1 (ix2 r h') = QB x0 x1 (rowOf 3 r) h' := by
  unfold sq3
  refine (q3_apply (View.ld x1 rW) (View.ld x0 rX3) r h').trans ?_
  exact projAt_chunk x0 x1 3 (View.ld x0 rX3) (ldX3 x0) r (colQ h')
theorem sk3_apply (r : Fin 512) (h' : Fin 128) : sk3 x0 x1 (ix2 r h') = KB x0 x1 (rowOf 3 r) h' := by
  unfold sk3
  refine (k3_apply (View.ld x1 rW) (View.ld x0 rX3) r h').trans ?_
  exact projAt_chunk x0 x1 3 (View.ld x0 rX3) (ldX3 x0) r (colK h')
theorem sv3_apply (r : Fin 512) (h' : Fin 128) : sv3 x0 x1 (ix2 r h') = VB x0 x1 (rowOf 3 r) h' := by
  unfold sv3
  refine (v3_apply (View.ld x1 rW) (View.ld x0 rX3) r h').trans ?_
  exact projAt_chunk x0 x1 3 (View.ld x0 rX3) (ldX3 x0) r (colV h')

/-- The scratch queries of tile `n`; the scratch keys and values of tile `a`. -/
def sqF (n : Fin 4) : Vec Ideal S512x128 .bf16 :=
  match n with | ⟨0, _⟩ => sq0 x0 x1 | ⟨1, _⟩ => sq1 x0 x1 | ⟨2, _⟩ => sq2 x0 x1 | ⟨3, _⟩ => sq3 x0 x1
def skN (a : ℕ) : Vec Ideal S512x128 .bf16 :=
  match a with | 0 => sk0 x0 x1 | 1 => sk1 x0 x1 | 2 => sk2 x0 x1 | _ => sk3 x0 x1
def svN (a : ℕ) : Vec Ideal S512x128 .bf16 :=
  match a with | 0 => sv0 x0 x1 | 1 => sv1 x0 x1 | 2 => sv2 x0 x1 | _ => sv3 x0 x1

theorem sqF_apply (n : Fin 4) (r : Fin 512) (h' : Fin 128) : sqF x0 x1 n (ix2 r h') = QB x0 x1 (rowOf n r) h' := by
  match n with
  | ⟨0, _⟩ => exact sq0_apply x0 x1 r h'
  | ⟨1, _⟩ => exact sq1_apply x0 x1 r h'
  | ⟨2, _⟩ => exact sq2_apply x0 x1 r h'
  | ⟨3, _⟩ => exact sq3_apply x0 x1 r h'

theorem skN_apply (a : ℕ) (ha : a < 4) (j : Fin 512) (h' : Fin 128) :
    skN x0 x1 a (ix2 j h') = Entry.rowAt (KB x0 x1) (512 * a + j.val) h' := by
  rw [Entry.rowAt_of_lt _ _ _ (by have := j.isLt; omega)]
  interval_cases a
  · exact sk0_apply x0 x1 j h'
  · exact sk1_apply x0 x1 j h'
  · exact sk2_apply x0 x1 j h'
  · exact sk3_apply x0 x1 j h'

theorem svN_apply (a : ℕ) (ha : a < 4) (j : Fin 512) (h' : Fin 128) :
    svN x0 x1 a (ix2 j h') = Entry.rowAt (VB x0 x1) (512 * a + j.val) h' := by
  rw [Entry.rowAt_of_lt _ _ _ (by have := j.isLt; omega)]
  interval_cases a
  · exact sv0_apply x0 x1 j h'
  · exact sv1_apply x0 x1 j h'
  · exact sv2_apply x0 x1 j h'
  · exact sv3_apply x0 x1 j h'

/-! ## The vector pass at `(r, h)` is the scalar pass -/

/-- The state after the first `k` key tiles of a sequence of score tiles `s` and value tiles `v`. -/
def stN (s : ℕ → FVec Ideal S512x512 .f32) (v : ℕ → Vec Ideal S512x128 .bf16) : ℕ → St Ideal
  | 0 => st0
  | k + 1 => stp (stN s v k) (s k) (v k)

/-- At `(r, h)` that state is the scalar pass over row `r` of the score tiles and column `h` of the value tiles. -/
theorem stN_apply (s : ℕ → FVec Ideal S512x512 .f32) (v : ℕ → Vec Ideal S512x128 .bf16) (r : Fin 512) (h : Fin 128)
    (k : ℕ) :
    ((stN s v k).m (ix2 r (0 : Fin 1)), (stN s v k).l (ix2 r (0 : Fin 1)), (stN s v k).acc (ix2 r h))
      = Online.run (W := 512) (fun a j => s a (ix2 r j)) (fun a j => v a (ix2 j h)) k := by
  induction k with
  | zero => exact st0_apply r h
  | succ k ih =>
    show ((stp (stN s v k) (s k) (v k)).m (ix2 r (0 : Fin 1)), (stp (stN s v k) (s k) (v k)).l (ix2 r (0 : Fin 1)),
        (stp (stN s v k) (s k) (v k)).acc (ix2 r h))
      = Online.step (W := 512) (fun j => s k (ix2 r j)) (fun j => v k (ix2 j h))
          (Online.run (W := 512) (fun a j => s a (ix2 r j)) (fun a j => v a (ix2 j h)) k)
    rw [stp_apply, ih]

/-- The tile's output at `(0, r, h)`: the scalar pass's weighted sum over its normaliser. -/
theorem pass_apply (s : ℕ → FVec Ideal S512x512 .f32) (v : ℕ → Vec Ideal S512x128 .bf16) (k : ℕ) (r : Fin 512)
    (h : Fin 128) :
    tileOut (stN s v k) (ix3 (0 : Fin 1) r h)
      = Ideal.div (Online.run (W := 512) (fun a j => s a (ix2 r j)) (fun a j => v a (ix2 j h)) k).2.2
          (Online.run (W := 512) (fun a j => s a (ix2 r j)) (fun a j => v a (ix2 j h)) k).2.1 := by
  rw [tileOut_apply]
  exact congrArg (fun p : EReal × EReal × EReal => Ideal.div p.2.2 p.2.1) (stN_apply s v r h k)

/-- The score tiles of query tile `n`: against key tile `a`, masked on the diagonal tile `a = n`. -/
def scN (n : Fin 4) (a : ℕ) : FVec Ideal S512x512 .f32 :=
  if a = n.val then mk (sc (qs (sqF x0 x1 n)) (skN x0 x1 a)) else sc (qs (sqF x0 x1 n)) (skN x0 x1 a)

/-- Query tile `n`'s output at `(0, r, h)` is the row pass at row `512 n + r`. -/
theorem tileN_apply (n : Fin 4) (r : Fin 512) (h : Fin 128) :
    tileOut (stN (scN x0 x1 n) (svN x0 x1) (n.val + 1)) (ix3 (0 : Fin 1) r h)
      = Entry.rowPass (QB x0 x1) (KB x0 x1) (VB x0 x1) (rowOf n r) h := by
  rw [pass_apply]
  unfold Entry.rowPass
  have hdiv : (rowOf n r).val / 512 = n.val := by
    show (512 * n.val + r.val) / 512 = n.val
    have := r.isLt; omega
  have hmod : (rowOf n r).val % 512 = r.val := by
    show (512 * n.val + r.val) % 512 = r.val
    have := r.isLt; omega
  rw [hdiv]
  have hrun : Online.run (W := 512) (fun a j => scN x0 x1 n a (ix2 r j)) (fun a j => svN x0 x1 a (ix2 j h)) (n.val + 1)
      = Online.run (Entry.tileScores (QB x0 x1) (KB x0 x1) (rowOf n r)) (Entry.tileVals (VB x0 x1) h) (n.val + 1) := by
    refine Entry.run_congr (n.val + 1) fun a ha => ?_
    have ha4 : a < 4 := by have := n.isLt; omega
    have hs : ∀ j : Fin 512, sc (qs (sqF x0 x1 n)) (skN x0 x1 a) (ix2 r j)
        = ∑ h' : Fin 128, (QB x0 x1 (rowOf n r) h' * Spec.scaleW) * Entry.rowAt (KB x0 x1) (512 * a + j.val) h' := by
      intro j
      rw [sc_apply]
      refine Finset.sum_congr rfl fun h' _ => ?_
      rw [qs_apply, sqF_apply, skN_apply x0 x1 a ha4]
    constructor
    · funext j
      show scN x0 x1 n a (ix2 r j) = Entry.tileScores (QB x0 x1) (KB x0 x1) (rowOf n r) a j
      unfold Entry.tileScores scN
      rw [hdiv, hmod]
      by_cases hn : a = n.val
      · rw [if_pos hn, if_pos hn, mk_apply, hs]
      · rw [if_neg hn, if_neg hn, hs]
    · funext j
      show svN x0 x1 a (ix2 j h) = Entry.tileVals (VB x0 x1) h a j
      unfold Entry.tileVals
      exact svN_apply x0 x1 a ha4 j h
  rw [hrun]

end Pieces

variable (x0 : Vec Ideal S1x2048x1024 .f32) (x1 : Vec Ideal S1024x384 .f32) (r : Fin 512) (h : Fin 128)

theorem tile0_apply : tile0 (F := Ideal) x0 x1 (ix3 (0 : Fin 1) r h)
    = Entry.rowPass (QB x0 x1) (KB x0 x1) (VB x0 x1) (rowOf 0 r) h := by
  have e : tile0 (F := Ideal) x0 x1 = tileOut (stN (scN x0 x1 0) (svN x0 x1) ((0 : Fin 4).val + 1)) := rfl
  rw [e]
  exact tileN_apply x0 x1 0 r h

theorem tile1_apply : tile1 (F := Ideal) x0 x1 (ix3 (0 : Fin 1) r h)
    = Entry.rowPass (QB x0 x1) (KB x0 x1) (VB x0 x1) (rowOf 1 r) h := by
  have e : tile1 (F := Ideal) x0 x1 = tileOut (stN (scN x0 x1 1) (svN x0 x1) ((1 : Fin 4).val + 1)) := rfl
  rw [e]
  exact tileN_apply x0 x1 1 r h

theorem tile2_apply : tile2 (F := Ideal) x0 x1 (ix3 (0 : Fin 1) r h)
    = Entry.rowPass (QB x0 x1) (KB x0 x1) (VB x0 x1) (rowOf 2 r) h := by
  have e : tile2 (F := Ideal) x0 x1 = tileOut (stN (scN x0 x1 2) (svN x0 x1) ((2 : Fin 4).val + 1)) := rfl
  rw [e]
  exact tileN_apply x0 x1 2 r h

theorem tile3_apply : tile3 (F := Ideal) x0 x1 (ix3 (0 : Fin 1) r h)
    = Entry.rowPass (QB x0 x1) (KB x0 x1) (VB x0 x1) (rowOf 3 r) h := by
  have e : tile3 (F := Ideal) x0 x1 = tileOut (stN (scN x0 x1 3) (svN x0 x1) ((3 : Fin 4).val + 1)) := rfl
  rw [e]
  exact tileN_apply x0 x1 3 r h

end Cert.KernelIdeal.TileEntry

end
-- ==== Proof.KernelValue.lean ====
/-
  From the output blocks to the output array.
-/
import proofs.«425609_j70892730187993_3_alg».proof.Proof.KIFrame
import proofs.«425609_j70892730187993_3_alg».proof.Proof.KIPieces
import proofs.«425609_j70892730187993_3_alg».proof.Proof.TileEntry
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Cert.KernelIdeal.Tiles Cert.KernelIdeal.ProjIdx Cert.KernelIdeal.TileEntry
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (m : (ℓ : Loc nD τ sig) → Buf (Elt Ideal) ℓ) (ρ : Dev nD → PrngReg)

/-! ## The kernel's value as one function of the arrays the region finds -/

/-- Projections of batch entry `b` of the activations `Xa` by the three thirds of the concatenated weights `Wc`. -/
def QA (Xa : S8x2048x1024.Idx → EReal) (Wc : S1024x384.Idx → EReal) (b : Fin 8) (t : Fin 2048) (h : Fin 128) : EReal :=
  ∑ c : Fin 1024, Xa (ix3 b t c) * Wc (ix2 c (colQ h))
def KA (Xa : S8x2048x1024.Idx → EReal) (Wc : S1024x384.Idx → EReal) (b : Fin 8) (t : Fin 2048) (h : Fin 128) : EReal :=
  ∑ c : Fin 1024, Xa (ix3 b t c) * Wc (ix2 c (colK h))
def VA (Xa : S8x2048x1024.Idx → EReal) (Wc : S1024x384.Idx → EReal) (b : Fin 8) (t : Fin 2048) (h : Fin 128) : EReal :=
  ∑ c : Fin 1024, Xa (ix3 b t c) * Wc (ix2 c (colV h))

/-- Entry `(b, t, h)` of the kernel's result. -/
def GKe (Xa : S8x2048x1024.Idx → EReal) (Wc : S1024x384.Idx → EReal) (b : Fin 8) (t : Fin 2048) (h : Fin 128) : EReal :=
  Entry.rowPass (QA Xa Wc b) (KA Xa Wc b) (VA Xa Wc b) t h

/-- The kernel's result array. -/
def GK (Xa : S8x2048x1024.Idx → EReal) (Wc : S1024x384.Idx → EReal) : S8x2048x128.Idx → EReal :=
  fun i => GKe Xa Wc ⟨(i 0).val, (i 0).isLt⟩ ⟨(i 1).val, (i 1).isLt⟩ ⟨(i 2).val, (i 2).isLt⟩

/-! ## The grid's index maps -/

/-- Point `t` stages batch entry `t` of the activations, the whole weight matrix, and batch entry `t` of the output. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

theorem t_lt (t : Fin cfg0.N) : t.val < 8 := lt_of_lt_of_eq t.isLt (show cfg0.N = 8 from N_0)

/-- The activations' block at point `t` is batch entry `t`. -/
theorem xblk_apply (c : Dev nD) (t : Fin cfg0.N) (row : Fin 2048) (ch : Fin 1024) :
    iblk m c 0 t (ix3 (0 : Fin 1) row ch) = V m c main_arg0 (ix3 (⟨t.val, t_lt t⟩ : Fin 8) row ch) := by
  obtain ⟨e0, e1, e2, -⟩ := idx_facts t
  show V m c main_arg0 (((cfg0.win 0).blk t).view.emb (ix3 (0 : Fin 1) row ch)) = _
  refine congrArg _ ?_
  funext a; apply Fin.ext
  match a with
  | ⟨0, _⟩ => show win0_0.index t (0 : Fin 3) * 1 + 1 * 0 = t.val; omega
  | ⟨1, _⟩ => show win0_0.index t (1 : Fin 3) * 2048 + 1 * row.val = row.val; omega
  | ⟨2, _⟩ => show win0_0.index t (2 : Fin 3) * 1024 + 1 * ch.val = ch.val; omega

/-- The weights' block at every point is the whole concatenated matrix. -/
theorem wblk_apply (c : Dev nD) (t : Fin cfg0.N) (ch : Fin 1024) (col : Fin 384) :
    iblk m c 1 t (ix2 ch col) = V m c main_v0 (ix2 ch col) := by
  obtain ⟨-, -, -, e0, e1, -⟩ := idx_facts t
  show V m c main_v0 (((cfg0.win 1).blk t).view.emb (ix2 ch col)) = _
  refine congrArg _ ?_
  funext a; apply Fin.ext
  match a with
  | ⟨0, _⟩ => show win0_1.index t (0 : Fin 2) * 1024 + 1 * ch.val = ch.val; omega
  | ⟨1, _⟩ => show win0_1.index t (1 : Fin 2) * 384 + 1 * col.val = col.val; omega

/-! ## The block's projections are the arrays' -/

theorem QB_eq (c : Dev nD) (t : Fin cfg0.N) :
    QB (iblk m c 0 t) (iblk m c 1 t) = QA (V m c main_arg0) (V m c main_v0) ⟨t.val, t_lt t⟩ := by
  funext row h; unfold QB QA
  exact Finset.sum_congr rfl fun ch _ => by rw [xblk_apply, wblk_apply]
theorem KB_eq (c : Dev nD) (t : Fin cfg0.N) :
    KB (iblk m c 0 t) (iblk m c 1 t) = KA (V m c main_arg0) (V m c main_v0) ⟨t.val, t_lt t⟩ := by
  funext row h; unfold KB KA
  exact Finset.sum_congr rfl fun ch _ => by rw [xblk_apply, wblk_apply]
theorem VB_eq (c : Dev nD) (t : Fin cfg0.N) :
    VB (iblk m c 0 t) (iblk m c 1 t) = VA (V m c main_arg0) (V m c main_v0) ⟨t.val, t_lt t⟩ := by
  funext row h; unfold VB VA
  exact Finset.sum_congr rfl fun ch _ => by rw [xblk_apply, wblk_apply]

/-! ## The output block as one function of its index -/

/-- The four explicit pieces tile the block. -/
theorem cover_pieces (x0 : Vec Ideal S1x2048x1024 .f32) (x1 : Vec Ideal S1024x384 .f32) (y : S1x2048x128.Idx) :
    ∃ pc ∈ pieces (F := Ideal) x0 x1, y ∈ pc.1.set :=
  View.cover_of_tiledL (pieces (F := Ideal) x0 x1) S1x512x128.size (by sl_kernel_rfl) y

/-- Entry `(0, t, h)` of the block: the row pass over the block's projections. -/
def Gblk (x0 : Vec Ideal S1x2048x1024 .f32) (x1 : Vec Ideal S1024x384 .f32) : S1x2048x128.Idx → EReal := fun y =>
  Entry.rowPass (QB x0 x1) (KB x0 x1) (VB x0 x1) ⟨(y 1).val, (y 1).isLt⟩ ⟨(y 2).val, (y 2).isLt⟩

/-- Each stored piece is its 512 rows of that function. -/
theorem pieces_blocks (x0 : Vec Ideal S1x2048x1024 .f32) (x1 : Vec Ideal S1024x384 .f32) :
    ∀ p ∈ pieces (F := Ideal) x0 x1, ∀ x : p.1.shape.Idx, p.2 x = Gblk x0 x1 (p.1.emb x) := by
  intro p hp
  simp only [pieces, List.mem_cons, List.not_mem_nil, or_false] at hp
  rcases hp with rfl | rfl | rfl | rfl
  · intro (x : S1x512x128.Idx)
    obtain ⟨p0, r, h, rfl⟩ : ∃ (p0 : Fin 1) (r : Fin 512) (h : Fin 128), x = ix3 p0 r h := ⟨x 0, x 1, x 2, eq_ix3 x⟩
    obtain rfl : p0 = 0 := Subsingleton.elim _ _
    show tile3 (F := Ideal) x0 x1 (ix3 (0 : Fin 1) r h) = _
    rw [tile3_apply]
    unfold Gblk
    congr 1
    · apply Fin.ext; show 512 * 3 + r.val = 1536 + 1 * r.val; omega
    · apply Fin.ext; show h.val = 0 + 1 * h.val; omega
  · intro (x : S1x512x128.Idx)
    obtain ⟨p0, r, h, rfl⟩ : ∃ (p0 : Fin 1) (r : Fin 512) (h : Fin 128), x = ix3 p0 r h := ⟨x 0, x 1, x 2, eq_ix3 x⟩
    obtain rfl : p0 = 0 := Subsingleton.elim _ _
    show tile2 (F := Ideal) x0 x1 (ix3 (0 : Fin 1) r h) = _
    rw [tile2_apply]
    unfold Gblk
    congr 1
    · apply Fin.ext; show 512 * 2 + r.val = 1024 + 1 * r.val; omega
    · apply Fin.ext; show h.val = 0 + 1 * h.val; omega
  · intro (x : S1x512x128.Idx)
    obtain ⟨p0, r, h, rfl⟩ : ∃ (p0 : Fin 1) (r : Fin 512) (h : Fin 128), x = ix3 p0 r h := ⟨x 0, x 1, x 2, eq_ix3 x⟩
    obtain rfl : p0 = 0 := Subsingleton.elim _ _
    show tile1 (F := Ideal) x0 x1 (ix3 (0 : Fin 1) r h) = _
    rw [tile1_apply]
    unfold Gblk
    congr 1
    · apply Fin.ext; show 512 * 1 + r.val = 512 + 1 * r.val; omega
    · apply Fin.ext; show h.val = 0 + 1 * h.val; omega
  · intro (x : S1x512x128.Idx)
    obtain ⟨p0, r, h, rfl⟩ : ∃ (p0 : Fin 1) (r : Fin 512) (h : Fin 128), x = ix3 p0 r h := ⟨x 0, x 1, x 2, eq_ix3 x⟩
    obtain rfl : p0 = 0 := Subsingleton.elim _ _
    show tile0 (F := Ideal) x0 x1 (ix3 (0 : Fin 1) r h) = _
    rw [tile0_apply]
    unfold Gblk
    congr 1
    · apply Fin.ext; show 512 * 0 + r.val = 0 + 1 * r.val; omega
    · apply Fin.ext; show h.val = 0 + 1 * h.val; omega

/-- What the body leaves in the output block: that function. -/
theorem out_eq_Gblk (c : Dev nD) (i : grid0.Coords) (arg1 : Memref sig .tc .vmem S1x2048x1024 .f32) (harg1 : arg1.IsWhole) (arg2 : Memref sig .tc .vmem S1024x384 .f32) (harg2 : arg2.IsWhole) (arg3 : Memref sig .tc .vmem S1x2048x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole)
    (x0 : Vec Ideal S1x2048x1024 .f32) (x1 : Vec Ideal S1024x384 .f32) :
    out0_2 (F := Ideal) c i arg1 harg1 arg2 harg2 arg3 harg3 arg4 harg4 arg5 harg5 arg6 harg6 x0 x1 = Gblk x0 x1 := by
  unfold out0_2
  rw [run_pieces, View.read_writes_eq_canon _ _ _ (cover_pieces x0 x1)]
  funext y
  exact View.canon_apply_of_pieces (Gblk x0 x1) (pieces (F := Ideal) x0 x1) (pieces_blocks x0 x1) y (cover_pieces x0 x1 y)

/-! ## What a point writes back, and the array after the run -/

/-- Point `t` writes back batch entry `t` of the kernel's result array. -/
theorem flushed2_eq (c : Dev nD) (t : Fin cfg0.N) :
    (dats m 0 c).flushed 2 t = ((cfg0.win 2).blk t).view.read (Elt Ideal) (GK (V m c main_arg0) (V m c main_v0)) := by
  show (cfg0.win 2).cut (grid0.coords t) ((dats m 0 c).after 2 t) = _
  rw [after0_2, out_eq_Gblk]
  obtain ⟨-, -, -, -, -, e0, e1, e2⟩ := idx_facts t
  funext (y : S1x2048x128.Idx)
  show Gblk (iblk m c 0 t) (iblk m c 1 t) y = GK (V m c main_arg0) (V m c main_v0) (((cfg0.win 2).blk t).view.emb y)
  have hb : (⟨(((cfg0.win 2).blk t).view.emb y 0).val, (((cfg0.win 2).blk t).view.emb y 0).isLt⟩ : Fin 8) = ⟨t.val, t_lt t⟩ := by
    apply Fin.ext
    show win0_2.index t (0 : Fin 3) * 1 + 1 * (y 0).val = t.val
    have : (y 0).val < 1 := (y 0).isLt
    omega
  have ht : (⟨(((cfg0.win 2).blk t).view.emb y 1).val, (((cfg0.win 2).blk t).view.emb y 1).isLt⟩ : Fin 2048) = ⟨(y 1).val, (y 1).isLt⟩ := by
    apply Fin.ext
    show win0_2.index t (1 : Fin 3) * 2048 + 1 * (y 1).val = (y 1).val
    omega
  have hh : (⟨(((cfg0.win 2).blk t).view.emb y 2).val, (((cfg0.win 2).blk t).view.emb y 2).isLt⟩ : Fin 128) = ⟨(y 2).val, (y 2).isLt⟩ := by
    apply Fin.ext
    show win0_2.index t (2 : Fin 3) * 128 + 1 * (y 2).val = (y 2).val
    omega
  unfold Gblk GK GKe
  rw [QB_eq, KB_eq, VB_eq, hb, ht, hh]

/-- An index of the output array is in point `t`'s block iff each coordinate is in the block's range. -/
theorem mem_blk2 (t : Fin cfg0.N) (i : S8x2048x128.Idx) :
    i ∈ ((cfg0.win 2).blk t).view.set ↔ ∀ a : Fin 3, win0_2.index t a * S1x2048x128.size a ≤ (i a).val ∧ (i a).val < win0_2.index t a * S1x2048x128.size a + S1x2048x128.size a := by
  show i ∈ ((View.whole main_v1).slice (win0_2.rect t)).set ↔ _
  rw [View.set_slice_whole, Rect.mem_set_unit]
  exact Iff.rfl

/-- Every index of the output array is in the block of the point its batch coordinate names. -/
theorem cover_arr (i : S8x2048x128.Idx) : ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 128 := (i 2).isLt
  have hN : cfg0.N = 8 := N_0
  obtain ⟨t, ht⟩ : ∃ t : Fin cfg0.N, t.val = (i 0).val := ⟨⟨(i 0).val, by omega⟩, rfl⟩
  obtain ⟨-, -, -, -, -, e0, e1, e2⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 128 ≤ (i 2).val ∧ (i 2).val < win0_2.index t (2 : Fin 3) * 128 + 128; omega

/-- The output array after the run is the kernel's result array of the arrays the region found. -/
theorem final2 (c : Dev nD) : (dats m 0 c).arrAt 2 cfg0.N = GK (V m c main_arg0) (V m c main_v0) :=
  (dats m 0 c).arrAt_eq_of_cover 2 _ (fun t _ => flushed2_eq m c t) cover_arr

/-- The region finds the concatenation of the three weight matrices. -/
theorem V_main_v0 (c : Dev nD) :
    (V m c main_v0 : S1024x384.Idx → EReal)
      = concatenate S1024x384 1 [⟨S1024x128, m ((c : Thread nD τ).loc main_arg1)⟩, ⟨S1024x128, m ((c : Thread nD τ).loc main_arg2)⟩, ⟨S1024x128, m ((c : Thread nD τ).loc main_arg3)⟩]
          concatenates_S1024x128_S1024x128_S1024x128_S1024x384_d1 := by
  dsimp only [V, hostOps0]; after_results; rfl

/-- The run, with the result array named: the kernel's result array of the activations and the concatenated weights; the
    four arguments unchanged. -/
theorem run_value : θ_run defs (onTc (τ := τ) (main (F := Ideal))) ⟨m, fun _ => 0, ρ⟩ fun r => ∀ c : Dev nD,
      r.2.mem ((c.tc : Thread nD τ).loc main_v1)
        = GK (m ((c.tc : Thread nD τ).loc main_arg0))
            (concatenate S1024x384 1 [⟨S1024x128, m ((c : Thread nD τ).loc main_arg1)⟩, ⟨S1024x128, m ((c : Thread nD τ).loc main_arg2)⟩, ⟨S1024x128, m ((c : Thread nD τ).loc main_arg3)⟩]
              concatenates_S1024x128_S1024x128_S1024x128_S1024x384_d1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 2).trans ((final2 m c).trans (by rw [V_main_arg0, V_main_v0])),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Hand

end
-- ==== Proof.Bridge.lean ====
/-
  The kernel's result array is the specification's, entry by entry, when every input entry is a real.

  The kernel reads the three weight matrices through their concatenation along the columns; a column of the query, key or
  value third of the concatenation is that matrix's column, so the kernel's projections are the specification's. The
  row pass over them is then the specification's softmax over all key positions (Entry.rowPass_eq_out).
-/
import proofs.«425609_j70892730187993_3_alg».proof.Proof.KernelValue
import proofs.«425609_j70892730187993_3_alg».proof.Proof.LibFinite

set_option maxRecDepth 16384

noncomputable section

namespace Cert.KernelIdeal.Hand

open Cert.KernelIdeal Cert.KernelIdeal.Gen
open Cert.KernelIdeal.Tiles Cert.KernelIdeal.ProjIdx Cert.KernelIdeal.TileEntry
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (m : (ℓ : Loc nD τ sig) → Buf (Elt Ideal) ℓ) (ρ : Dev nD → PrngReg)

open Cert.Lib

/-- The specification's output as an array over `[8, 2048, 128]`, of the four argument arrays. -/
def Gout (x0 : S8x2048x1024.Idx → EReal) (u1 u2 u3 : S1024x128.Idx → EReal) : S8x2048x128.Idx → EReal := fun i =>
  Spec.out (fun b t c => x0 (ix3 b t c)) (fun c h => u1 (ix2 c h)) (fun c h => u2 (ix2 c h)) (fun c h => u3 (ix2 c h))
    ⟨(i 0).val, (i 0).isLt⟩ ⟨(i 1).val, (i 1).isLt⟩ ⟨(i 2).val, (i 2).isLt⟩

/-- Over real inputs the kernel's result array is the specification's. -/
theorem GK_eq_Gout (x0 : S8x2048x1024.Idx → EReal) (u1 u2 u3 : S1024x128.Idx → EReal)
    (h0 : AllReal (s := S8x2048x1024) x0) (h1 : AllReal (s := S1024x128) u1) (h2 : AllReal (s := S1024x128) u2) (h3 : AllReal (s := S1024x128) u3) :
    GK x0 (concatenate S1024x384 1 [⟨S1024x128, u1⟩, ⟨S1024x128, u2⟩, ⟨S1024x128, u3⟩] concatenates_S1024x128_S1024x128_S1024x128_S1024x384_d1)
      = Gout x0 u1 u2 u3 := by
  funext i
  unfold GK Gout GKe
  generalize (⟨(i 0).val, (i 0).isLt⟩ : Fin 8) = b
  generalize (⟨(i 1).val, (i 1).isLt⟩ : Fin 2048) = t
  generalize (⟨(i 2).val, (i 2).isLt⟩ : Fin 128) = h
  have hQ : QA x0 (concatenate S1024x384 1 [⟨S1024x128, u1⟩, ⟨S1024x128, u2⟩, ⟨S1024x128, u3⟩] concatenates_S1024x128_S1024x128_S1024x128_S1024x384_d1) b
      = Spec.proj (fun b t c => x0 (ix3 b t c)) (fun c h => u1 (ix2 c h)) b := by
    funext t' h'; unfold QA Spec.proj
    exact Finset.sum_congr rfl fun c _ => by rw [(wcat_apply h' u1 u2 u3 c).1]
  have hK : KA x0 (concatenate S1024x384 1 [⟨S1024x128, u1⟩, ⟨S1024x128, u2⟩, ⟨S1024x128, u3⟩] concatenates_S1024x128_S1024x128_S1024x128_S1024x384_d1) b
      = Spec.proj (fun b t c => x0 (ix3 b t c)) (fun c h => u2 (ix2 c h)) b := by
    funext t' h'; unfold KA Spec.proj
    exact Finset.sum_congr rfl fun c _ => by rw [(wcat_apply h' u1 u2 u3 c).2.1]
  have hV : VA x0 (concatenate S1024x384 1 [⟨S1024x128, u1⟩, ⟨S1024x128, u2⟩, ⟨S1024x128, u3⟩] concatenates_S1024x128_S1024x128_S1024x128_S1024x384_d1) b
      = Spec.proj (fun b t c => x0 (ix3 b t c)) (fun c h => u3 (ix2 c h)) b := by
    funext t' h'; unfold VA Spec.proj
    exact Finset.sum_congr rfl fun c _ => by rw [(wcat_apply h' u1 u2 u3 c).2.2]
  rw [hQ, hK, hV]
  exact Entry.rowPass_eq_out _ _ _ _ (fun b t c => h0 _) (fun c h => h1 _) (fun c h => h2 _) (fun c h => h3 _) b t h

end Cert.KernelIdeal.Hand

end
-- ==== Proof.LibRowMax.lean ====
/-
  The host's maximum-reduce over the LAST axis, read at a result index, at the extended reals: for a rank-2 array
  [m, n] reduced over axis 1 and for a rank-3 array [a, b, n] reduced over axis 2, the result at a row is the fold
  of max over that row's n entries, from the initial value. General in the extents.
-/
import Idealize.ShloMosaic.PureOps.Ideal.Laws
import Idealize.ShloMosaic.PureOps.Reduce
import Idealize.ShloMosaic.Lib.ValueIdx

noncomputable section

namespace Cert.LibRowMax

open Idealize.ShloMosaic Idealize.ShloMosaic.ValueIdx

/-- Row r of a rank-2 array with column k put back is (r, k). -/
theorem lift2 {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Row (b, s) of a rank-3 array with the last coordinate k put back is (b, s, k). -/
theorem lift3 {a b n : Nat} (h : (⟨3, ![a, b, n]⟩ : Shape).Reduces [2] (⟨2, ![a, b]⟩ : Shape)) (p : Fin a) (q : Fin b)
    (k : Fin ((⟨3, ![a, b, n]⟩ : Shape).size 2)) : h.lift (ix2 p q) k = ix3 p q (⟨k.val, k.isLt⟩ : Fin n) := by
  funext c; apply Fin.ext
  fin_cases c <;> rfl

/-- The host's max-reduce of a rank-2 array over its columns, at row r: the fold of max over the row. -/
theorem rowMax2 {m n : Nat} {u : Shape} (x : (⟨2, ![m, n]⟩ : Shape).Idx → Ideal .f32) (init : u.Idx → Ideal .f32)
    (h' : (⟨2, ![m, n]⟩ : Shape).ReducesTo [1] (⟨1, ![m]⟩ : Shape))
    (h : (⟨2, ![m, n]⟩ : Shape).Reduces [1] (⟨1, ![m]⟩ : Shape)) (hu : 0 < u.numel) (r : Fin m) :
    Host.reduce (FloatOps.maximumf (F := Ideal) (φ := .f32)) x init h' hu (ix1 r)
      = (Finset.univ : Finset (Fin n)).fold (FloatOps.maximumf (F := Ideal) (φ := .f32)) (init (Shape.Idx.first hu))
          (fun k => x (ix2 r k)) := by
  rw [Host.reduce_eq_fold_single (FloatOps.maximumf (F := Ideal) (φ := .f32)) x init h' h hu]
  have hf : (x ∘ h.lift (ix1 r)) = fun k : Fin n => x (ix2 r k) := funext fun k => congrArg x (lift2 h r k)
  exact congrArg (fun f => Finset.fold (FloatOps.maximumf (F := Ideal) (φ := .f32)) (init (Shape.Idx.first hu)) f
    (Finset.univ : Finset (Fin n))) hf

/-- The host's max-reduce of a rank-3 array over its last axis, at (p, q): the fold of max over that line. -/
theorem rowMax3 {a b n : Nat} {u : Shape} (x : (⟨3, ![a, b, n]⟩ : Shape).Idx → Ideal .f32) (init : u.Idx → Ideal .f32)
    (h' : (⟨3, ![a, b, n]⟩ : Shape).ReducesTo [2] (⟨2, ![a, b]⟩ : Shape))
    (h : (⟨3, ![a, b, n]⟩ : Shape).Reduces [2] (⟨2, ![a, b]⟩ : Shape)) (hu : 0 < u.numel) (p : Fin a) (q : Fin b) :
    Host.reduce (FloatOps.maximumf (F := Ideal) (φ := .f32)) x init h' hu (ix2 p q)
      = (Finset.univ : Finset (Fin n)).fold (FloatOps.maximumf (F := Ideal) (φ := .f32)) (init (Shape.Idx.first hu))
          (fun k => x (ix3 p q k)) := by
  rw [Host.reduce_eq_fold_single (FloatOps.maximumf (F := Ideal) (φ := .f32)) x init h' h hu]
  have hf : (x ∘ h.lift (ix2 p q)) = fun k : Fin n => x (ix3 p q k) := funext fun k => congrArg x (lift3 h p q k)
  exact congrArg (fun f => Finset.fold (FloatOps.maximumf (F := Ideal) (φ := .f32)) (init (Shape.Idx.first hu)) f
    (Finset.univ : Finset (Fin n))) hf

end Cert.LibRowMax

end
-- ==== Proof.RefSide.lean ====
import proofs.«425609_j70892730187993_3_alg».proof.Proof.Gen.ReferenceIdeal.Read
import proofs.«425609_j70892730187993_3_alg».proof.Proof.Spec
import proofs.«425609_j70892730187993_3_alg».proof.Proof.LibRowMax
import proofs.«425609_j70892730187993_3_alg».proof.Proof.LibColumn
import Idealize.ShloMosaic.Lib.ValueIdx
import Idealize.ShloMosaic.Lib.StableHlo.Predicate
import Idealize.ShloMosaic.PureOps.Ideal.Laws

/-!
# The reference program computes causal attention, entry by entry

The reference projects the activations to queries, keys and values, contracts queries against keys over the head
channels, scales by `2⁻⁵`, replaces every score whose key position lies after its query position by `-∞` (the lower
triangle of a matrix of ones selects), takes the softmax along the key axis (the row maximum folded from `-∞`, the
exponentials of the differences, their sum from zero, the quotients) and contracts the weights against the values.
Read at entry `(b, t, h)`, stage by stage, that is `Spec.out` of the argument arrays.
-/

noncomputable section

namespace Cert.RefSide

open Idealize.ShloMosaic Idealize.ShloMosaic.ValueIdx Cert.ReferenceIdeal Cert.ReferenceIdeal.Read
open scoped BigOperators

section Stages

variable (x0 : (⟨S8x2048x1024, .f32⟩ : BufTy).Contents (Elt Ideal)) (x1 x2 x3 : (⟨S1024x128, .f32⟩ : BufTy).Contents (Elt Ideal))

/-- The activations by coordinates. -/
local notation "X₀" => (fun (b : Fin 8) (t : Fin 2048) (c : Fin 1024) => x0 (ix3 b t c))
/-- A weight matrix by coordinates. -/
local notation "W⟦" w "⟧" => (fun (c : Fin 1024) (h : Fin 128) => w (ix2 c h))

/-! ## The three projections -/

/-- The query projection at `(b, t, h)`. -/
theorem projQ_eq (b : Fin 8) (t : Fin 2048) (h : Fin 128) :
    val_main_v0 (F := Ideal) x0 x1 (ix3 b t h) = Spec.proj X₀ W⟦x1⟧ b t h := by
  rw [val_main_v0_apply]
  unfold Spec.proj
  refine Finset.sum_congr rfl fun k _ => ?_
  have el : lidx_main_v0 (ix3 b t h) k = ix3 b t k := funext fun a => Fin.ext (by match a with | ⟨0, _⟩ => rfl | ⟨1, _⟩ => rfl | ⟨2, _⟩ => rfl)
  have er : ridx_main_v0 (ix3 b t h) k = ix2 k h := funext fun a => Fin.ext (by match a with | ⟨0, _⟩ => rfl | ⟨1, _⟩ => rfl)
  rw [el, er]

/-- The key projection at `(b, t, h)`. -/
theorem projK_eq (b : Fin 8) (t : Fin 2048) (h : Fin 128) :
    val_main_v1 (F := Ideal) x0 x2 (ix3 b t h) = Spec.proj X₀ W⟦x2⟧ b t h := by
  rw [val_main_v1_apply]
  unfold Spec.proj
  refine Finset.sum_congr rfl fun k _ => ?_
  have el : lidx_main_v1 (ix3 b t h) k = ix3 b t k := funext fun a => Fin.ext (by match a with | ⟨0, _⟩ => rfl | ⟨1, _⟩ => rfl | ⟨2, _⟩ => rfl)
  have er : ridx_main_v1 (ix3 b t h) k = ix2 k h := funext fun a => Fin.ext (by match a with | ⟨0, _⟩ => rfl | ⟨1, _⟩ => rfl)
  rw [el, er]

/-- The value projection at `(b, t, h)`. -/
theorem projV_eq (b : Fin 8) (t : Fin 2048) (h : Fin 128) :
    val_main_v2 (F := Ideal) x0 x3 (ix3 b t h) = Spec.proj X₀ W⟦x3⟧ b t h := by
  rw [val_main_v2_apply]
  unfold Spec.proj
  refine Finset.sum_congr rfl fun k _ => ?_
  have el : lidx_main_v2 (ix3 b t h) k = ix3 b t k := funext fun a => Fin.ext (by match a with | ⟨0, _⟩ => rfl | ⟨1, _⟩ => rfl | ⟨2, _⟩ => rfl)
  have er : ridx_main_v2 (ix3 b t h) k = ix2 k h := funext fun a => Fin.ext (by match a with | ⟨0, _⟩ => rfl | ⟨1, _⟩ => rfl)
  rw [el, er]

/-! ## The scaled score -/

/-- The scaled score of query position `t` against key position `j`. -/
theorem score_eq (b : Fin 8) (t j : Fin 2048) :
    val_main_v5 (F := Ideal) x0 x1 x2 (ix3 b t j) = Spec.score X₀ W⟦x1⟧ W⟦x2⟧ b t j := by
  rw [val_main_v5_apply, val_main_v3_apply, val_main_v4_apply, val_main_cst_apply]
  unfold Spec.score
  simp only [Ideal.mulf_def, Ideal.ofBits_def]
  refine congrArg (· * Spec.scaleW) (Finset.sum_congr rfl fun k _ => ?_)
  have el : lidx_main_v3 (ix3 b t j) k = ix3 b t k := funext fun a => Fin.ext (by match a with | ⟨0, _⟩ => rfl | ⟨1, _⟩ => rfl | ⟨2, _⟩ => rfl)
  have er : ridx_main_v3 (ix3 b t j) k = ix3 b j k := funext fun a => Fin.ext (by match a with | ⟨0, _⟩ => rfl | ⟨1, _⟩ => rfl | ⟨2, _⟩ => rfl)
  rw [el, er, projQ_eq, projK_eq]

/-! ## The causal mask -/

/-- The lower triangle of ones, broadcast over the batch, is set at `(b, t, j)` exactly when `j ≤ t`: the printed
    compare is a signed one of two position words below `2³¹`. -/
theorem mask_iff (b : Fin 8) (t j : Fin 2048) :
    val_main_call1_v1 (F := Ideal) (ix3 b t j) = 1#1 ↔ j.val ≤ t.val := by
  have e : idx_main_call1_v1 (ix3 b t j) = ix2 t j := funext fun a => Fin.ext (by match a with | ⟨0, _⟩ => rfl | ⟨1, _⟩ => rfl)
  rw [val_main_call1_v1_apply, e, val_main_v7_apply, val_main_call0_v4_apply, val_main_call0_v2_apply,
    val_main_call0_v0_apply, val_main_call0_v1_apply, val_main_call0_c_apply, val_main_call0_v3_apply,
    val_main_v6_apply, val_main_c_apply, val_main_call0_v5_apply, val_main_call0_c_0_apply]
  show Scalar.select (IntOp.cmpi .sge (IntOp.addi (BitVec.ofNat 32 t.val) 0#32) (BitVec.ofNat 32 j.val)) 1#1 0#1 = 1#1 ↔ _
  have ht : (BitVec.ofNat 32 t.val).toNat = t.val := by
    rw [BitVec.toNat_ofNat]; exact Nat.mod_eq_of_lt (by have := t.isLt; omega)
  have hj : (BitVec.ofNat 32 j.val).toNat = j.val := by
    rw [BitVec.toNat_ofNat]; exact Nat.mod_eq_of_lt (by have := j.isLt; omega)
  have hadd : IntOp.addi (BitVec.ofNat 32 t.val) 0#32 = BitVec.ofNat 32 t.val := by
    unfold IntOp.addi; exact BitVec.add_zero _
  have key : IntOp.cmpi .sge (BitVec.ofNat 32 t.val) (BitVec.ofNat 32 j.val) = 1#1 ↔ j.val ≤ t.val := by
    have h := StableHlo.Predicate.sge_iff_toNat (a := BitVec.ofNat 32 t.val) (b := BitVec.ofNat 32 j.val)
      (by rw [ht]; have := t.isLt; omega) (by rw [hj]; have := j.isLt; omega)
    rw [ht, hj] at h; exact h
  rw [hadd]
  by_cases hc : j.val ≤ t.val
  · rw [key.mpr hc, select_one]; exact ⟨fun _ => hc, fun _ => rfl⟩
  · rw [eq_zero_of_ne_one (fun h => hc (key.mp h)), select_zero]
    exact ⟨fun h => absurd h (by decide), fun h => absurd h hc⟩

/-- The masked score: the score where `j ≤ t`, `-∞` after. -/
theorem masked_eq (b : Fin 8) (t j : Fin 2048) :
    val_main_v8 (F := Ideal) x0 x1 x2 (ix3 b t j) = Spec.masked X₀ W⟦x1⟧ W⟦x2⟧ b t j := by
  rw [val_main_v8_apply, score_eq, val_main_call1_v2_apply, val_main_call1_v0_apply, val_main_cst_0_apply,
    Ideal.ofBits_def, Column.ofBits_negInf_f32]
  unfold Spec.masked Scalar.select
  exact if_congr (mask_iff b t j) rfl rfl

/-! ## The row maximum -/

/-- At the extended reals the float maximum folds as `max`. -/
theorem fold_maximumf_eq {n : ℕ} (init : EReal) (f : Fin n → EReal) :
    (Finset.univ : Finset (Fin n)).fold (FloatOps.maximumf (F := Ideal) (φ := .f32)) init f
      = (Finset.univ : Finset (Fin n)).fold max init f := rfl

/-- The row maximum of the masked scores of row `(b, t)`: the fold of `max` from `-∞`. -/
theorem rowmax_eq (b : Fin 8) (t : Fin 2048) :
    val_main_v11 (F := Ideal) x0 x1 x2 (ix2 b t)
      = (Finset.univ : Finset (Fin 2048)).fold max (⊥ : EReal) (Spec.masked X₀ W⟦x1⟧ W⟦x2⟧ b t) := by
  rw [val_main_v11_apply, val_main_v10_apply, val_main_cst_2_apply]
  unfold val_main_v9
  rw [LibRowMax.rowMax3 (val_main_v8 (F := Ideal) x0 x1 x2) (val_main_cst_1 (F := Ideal))
    Gen.reducesTo_S8x2048x2048_S8x2048_d2 (by decide) Gen.h_S_ b t]
  have hσ : (fun k : Fin 2048 => val_main_v8 (F := Ideal) x0 x1 x2 (ix3 b t k)) = Spec.masked X₀ W⟦x1⟧ W⟦x2⟧ b t :=
    funext fun k => masked_eq x0 x1 x2 b t k
  rw [hσ, val_main_cst_1_apply, fold_maximumf_eq, Ideal.maximumf_def, Ideal.ofBits_def, Column.ofBits_negInf_f32, max_bot_left]

/-! ## The exponentials, their sum and the quotients -/

/-- The exponential of a masked score less the row maximum. -/
theorem exp_eq (b : Fin 8) (t j : Fin 2048) :
    val_main_v15 (F := Ideal) x0 x1 x2 (ix3 b t j)
      = Ideal.exp (Spec.masked X₀ W⟦x1⟧ W⟦x2⟧ b t j
          - (Finset.univ : Finset (Fin 2048)).fold max (⊥ : EReal) (Spec.masked X₀ W⟦x1⟧ W⟦x2⟧ b t)) := by
  have e : idx_main_v12 (idx_main_v13 (ix3 b t j)) = ix2 b t := funext fun a => Fin.ext (by match a with | ⟨0, _⟩ => rfl | ⟨1, _⟩ => rfl)
  rw [val_main_v15_apply, val_main_v14_apply, val_main_v13_apply, val_main_v12_apply, e, masked_eq, rowmax_eq,
    Ideal.hostUnary_exp_def, Ideal.subf_def]

/-- The normaliser of row `(b, t)`: the sum of the exponentials, from zero. -/
theorem norm_eq (b : Fin 8) (t : Fin 2048) :
    val_main_v16 (F := Ideal) x0 x1 x2 (ix2 b t)
      = ∑ i : Fin 2048, Ideal.exp (Spec.masked X₀ W⟦x1⟧ W⟦x2⟧ b t i
          - (Finset.univ : Finset (Fin 2048)).fold max (⊥ : EReal) (Spec.masked X₀ W⟦x1⟧ W⟦x2⟧ b t)) := by
  rw [val_main_v16_apply, val_main_cst_3_apply, Ideal.ofBits_def, Ideal.ofBits_zero_f32, zero_add]
  refine Finset.sum_congr rfl fun k _ => ?_
  have e : idx_main_v16 (ix2 b t) k = ix3 b t k := funext fun a => Fin.ext (by match a with | ⟨0, _⟩ => rfl | ⟨1, _⟩ => rfl | ⟨2, _⟩ => rfl)
  rw [e, exp_eq]

/-- The softmax weight of key position `j` in row `(b, t)`. -/
theorem weight_eq (b : Fin 8) (t j : Fin 2048) :
    val_main_v19 (F := Ideal) x0 x1 x2 (ix3 b t j)
      = Ideal.div
          (Ideal.exp (Spec.masked X₀ W⟦x1⟧ W⟦x2⟧ b t j
            - (Finset.univ : Finset (Fin 2048)).fold max (⊥ : EReal) (Spec.masked X₀ W⟦x1⟧ W⟦x2⟧ b t)))
          (∑ i : Fin 2048, Ideal.exp (Spec.masked X₀ W⟦x1⟧ W⟦x2⟧ b t i
            - (Finset.univ : Finset (Fin 2048)).fold max (⊥ : EReal) (Spec.masked X₀ W⟦x1⟧ W⟦x2⟧ b t))) := by
  have e : idx_main_v17 (idx_main_v18 (ix3 b t j)) = ix2 b t := funext fun a => Fin.ext (by match a with | ⟨0, _⟩ => rfl | ⟨1, _⟩ => rfl)
  rw [val_main_v19_apply, val_main_v18_apply, val_main_v17_apply, e, exp_eq, norm_eq, Ideal.hostDivf_def]

end Stages

/-- The reference's result at entry `(b, t, h)` is the specification's. -/
theorem ref_eq (x0 : (⟨S8x2048x1024, .f32⟩ : BufTy).Contents (Elt Ideal)) (x1 x2 x3 : (⟨S1024x128, .f32⟩ : BufTy).Contents (Elt Ideal))
    (b : Fin 8) (t : Fin 2048) (h : Fin 128) :
    val_main_v20 (F := Ideal) x0 x1 x2 x3 (ix3 b t h)
      = Spec.out (fun b t c => x0 (ix3 b t c)) (fun c h => x1 (ix2 c h)) (fun c h => x2 (ix2 c h)) (fun c h => x3 (ix2 c h)) b t h := by
  rw [val_main_v20_apply]
  unfold Spec.out Online.soft
  refine Finset.sum_congr rfl fun k _ => ?_
  have el : lidx_main_v20 (ix3 b t h) k = ix3 b t k := funext fun a => Fin.ext (by match a with | ⟨0, _⟩ => rfl | ⟨1, _⟩ => rfl | ⟨2, _⟩ => rfl)
  have er : ridx_main_v20 (ix3 b t h) k = ix3 b k h := funext fun a => Fin.ext (by match a with | ⟨0, _⟩ => rfl | ⟨1, _⟩ => rfl | ⟨2, _⟩ => rfl)
  rw [el, er, weight_eq, projV_eq]

end Cert.RefSide

end
-- ==== Proof.Finite.lean ====
import proofs.«425609_j70892730187993_3_alg».proof.Proof.Gen.Pre_finite_inputs
import proofs.«425609_j70892730187993_3_alg».proof.Defs
import proofs.«425609_j70892730187993_3_alg».proof.Proof.LibFinite
import Idealize.ShloMosaic.Lib.ReduceAll
import Idealize.ShloMosaic.Lib.ValueIdx
import Idealize.ShloMosaic.PureOps.Ideal.Laws

/-!
# Under the precondition every input entry is a real

The precondition says, of each of the four argument arrays, that the absolute value of every entry is below `+∞`;
on the extended reals that makes every entry a real number.
-/

noncomputable section

namespace Cert.Finite

open Idealize.ShloMosaic Idealize.SL.Sem Cert.Lib

/-- The f32 pattern `0x7F800000` denotes `+∞`. -/
theorem ofBits_inf_f32 : Ideal.ofBits .f32 0x7F800000#32 = (⊤ : EReal) := by
  simp [Ideal.ofBits, Ideal.ieee]

/-- An extended real whose absolute value `max x (-x)` lies below `+∞` is a real number:
    at `+∞` the maximum is `+∞`, and at `-∞` its negation is. -/
theorem real_of_abs_lt_top {x : EReal} (h : max x (-x) < (⊤ : EReal)) : ∃ r : ℝ, x = (r : EReal) := by
  induction x using EReal.rec with
  | bot => simp at h
  | coe r => exact ⟨r, rfl⟩
  | top => simp at h

/-- A one-bit word made from a Boolean is 1 exactly when the Boolean is true. -/
theorem ofBool_eq_one {b : Bool} : BitVec.ofBool b = 1#1 ↔ b = true := by cases b <;> decide

/-- The scalar shape has one index. -/
instance subsingleton_scalar_idx : Subsingleton Cert.Pre_finite_inputs.S_.Idx :=
  ⟨fun a b => funext fun d => d.elim0⟩

/-- The printed test of one array, read back: if `all(|x| < +∞)`, printed as the reduction by `and` of the
    entrywise comparison of `|x|` with the broadcast `+∞` constant, is 1, then every entry of `x` is a real. -/
theorem allReal_of_reduce {s u : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < u.numel) (init : u.Idx → BitVec 1)
    (e : Host.reduce IntOp.andi
        (cmpf .olt (Host.absf x)
          (broadcastInDim s ![] hb (constant (F := Ideal) Cert.Pre_finite_inputs.S_ .f32 0x7F800000#32)))
        init hr hu ValueIdx.ix0 = 1#1) :
    AllReal x := fun i => by
  have h := Host.reduce_andi_all _ init hr hu ValueIdx.ix0 e i
  have h' : Ideal.cmp .olt (max (x i) (-(x i))) (Ideal.ofBits .f32 0x7F800000#32) = 1#1 := h
  rw [ofBits_inf_f32] at h'
  simp only [Ideal.cmp, ofBool_eq_one, decide_eq_true_eq] at h'
  exact real_of_abs_lt_top h'

/-- Every entry of each argument array of the idealized kernel is a real, on every device. -/
theorem finite_of_pre [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    AllReal (s := Cert.KernelIdeal.S8x2048x1024) (m ((c.tc : Thread Cert.KernelIdeal.nD Cert.KernelIdeal.τ).loc Cert.KernelIdeal.main_arg0))
    ∧ AllReal (s := Cert.KernelIdeal.S1024x128) (m ((c.tc : Thread Cert.KernelIdeal.nD Cert.KernelIdeal.τ).loc Cert.KernelIdeal.main_arg1))
    ∧ AllReal (s := Cert.KernelIdeal.S1024x128) (m ((c.tc : Thread Cert.KernelIdeal.nD Cert.KernelIdeal.τ).loc Cert.KernelIdeal.main_arg2))
    ∧ AllReal (s := Cert.KernelIdeal.S1024x128) (m ((c.tc : Thread Cert.KernelIdeal.nD Cert.KernelIdeal.τ).loc Cert.KernelIdeal.main_arg3)) := by
  have h := congrFun (hpre c) ValueIdx.ix0
  dsimp only [Cert.Pre_finite_inputs.fn, Cert.Pre_finite_inputs.fn_part1, andi] at h
  obtain ⟨h012, h3⟩ := IntOp.andi_eq_one.1 h
  obtain ⟨h01, h2⟩ := IntOp.andi_eq_one.1 h012
  obtain ⟨h0, h1⟩ := IntOp.andi_eq_one.1 h01
  exact ⟨allReal_of_reduce _ _ _ _ _ h0, allReal_of_reduce _ _ _ _ _ h1, allReal_of_reduce _ _ _ _ _ h2,
    allReal_of_reduce _ _ _ _ _ h3⟩

end Cert.Finite

end
-- ==== Proof.lean ====
/-
  Causal single-head attention: a fused Pallas kernel against its jnp reference, equal over the extended reals.

  The kernel concatenates the three weight matrices along their columns and runs one region over the 8 batch entries.
  At each grid point it projects the entry's 2048 positions to queries, keys and values into three scratch buffers,
  and for each of the four 512-row query tiles runs the running softmax over the key tiles at or before it: running
  maximum `m`, normaliser `l` and weighted sum `acc`, both rescaled by `exp (m - m')` when the maximum grows, the diagonal
  tile masked by a finite constant that stands for `-∞`; the tile's output is `acc / l`. The reference projects, scores,
  scales by `2⁻⁵`, masks with `-∞`, takes the softmax over all 2048 key positions at once and weights the values.

  * The three frames: the two kernel programs by the launch theorem for one region after a line of host operations,
    the body run once on any staging memrefs (KBFrame.lean, KIFrame.lean); the reference by its run.
  * `preserves`: the eight places where the idealized kernel names the finite constant denote `-∞` by the table.
  * `algebraic`: at the ideal instance the kernel's output array is, entry by entry, the running pass over the
    projections (KernelValue.lean), which over real inputs is the softmax over all key positions (Online.lean,
    Entry.lean, Bridge.lean): the rescaling law `exp (m - m') · exp (s - m) = exp (s - m')`, distributivity over finite
    sums of reals, and masked columns contributing zero. The reference's stages read at an entry are the same
    specification (RefSide.lean). The precondition makes every input entry a real (Finite.lean).
-/
import proofs.«425609_j70892730187993_3_alg».proof.Defs
import proofs.«425609_j70892730187993_3_alg».proof.Proof.Gen.Kernel
import proofs.«425609_j70892730187993_3_alg».proof.Proof.Gen.KernelIdeal
import proofs.«425609_j70892730187993_3_alg».proof.Proof.Gen.ReferenceIdeal
import proofs.«425609_j70892730187993_3_alg».proof.Proof.Gen.Pre_finite_inputs
import proofs.«425609_j70892730187993_3_alg».proof.Proof.Gen.ReferenceIdeal.Run
import proofs.«425609_j70892730187993_3_alg».proof.Proof.Gen.ReferenceIdeal.Read
import proofs.«425609_j70892730187993_3_alg».proof.Proof.KBFrame
import proofs.«425609_j70892730187993_3_alg».proof.Proof.KIFrame
import proofs.«425609_j70892730187993_3_alg».proof.Proof.KernelValue
import proofs.«425609_j70892730187993_3_alg».proof.Proof.Bridge
import proofs.«425609_j70892730187993_3_alg».proof.Proof.RefSide
import proofs.«425609_j70892730187993_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The finite constant, named, denotes `-∞` by the certificate's table. -/
theorem neg_big : IdealRules.named_const.Statement Cert.KernelIdeal.κ "neg_big" .f32 0xFF333332#32 ⊥ :=
  IdealRules.named_const.statement Cert.KernelIdeal.κ "neg_big" .f32 0xFF333332#32 ⊥ rfl

theorem preserves : Cert.preserves_Kernel_KernelIdeal :=
  ⟨neg_big, neg_big, neg_big, neg_big, neg_big, neg_big, neg_big, neg_big⟩

/-- Both programs end with the specification's output array of the arguments. -/
theorem algebraic : Cert.algebraic_KernelIdeal_ReferenceIdeal := by
  intro m ρ m' ρ' hpre hagree
  refine ⟨fun c => Cert.KernelIdeal.Hand.Gout
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.Hand.run_value m ρ)
    obtain ⟨f0, f1, f2, f3⟩ := Cert.Finite.finite_of_pre m hpre c
    exact Cert.KernelIdeal.Hand.GK_eq_Gout _ _ _ _ f0 f1 f2 f3
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, (hagree c).1, (hagree c).2.1, (hagree c).2.2.1, (hagree c).2.2.2]
    funext i
    obtain ⟨b, t, h, rfl⟩ : ∃ (b : Fin 8) (t : Fin 2048) (h : Fin 128), i = ix3 b t h := ⟨i 0, i 1, i 2, eq_ix3 i⟩
    exact Cert.RefSide.ref_eq _ _ _ _ b t h

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
